-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32x512 : Shape := ⟨3, ![512, 32, 512]⟩
abbrev S1024x512 : Shape := ⟨2, ![1024, 512]⟩
abbrev S_ : Shape := ⟨0, ![]⟩

class Facts : Prop where
  bcast_S_S512x32x512 : S_.BroadcastsInDim S512x32x512 (![] : Fin 0 → Fin S512x32x512.rank)
  reducesTo_S512x32x512_S_d0_1_2 : S512x32x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x32x512 .f32) (main_arg1 : FVec F S512x32x512 .f32) (main_arg2 : FVec F S1024x512 .f32) : IVec S_ 1 :=
  let main_v0 : FVec F S512x32x512 .f32 := Host.absf main_arg0
  let main_cst : FVec F S_ .f32 := constant S_ .f32 0x7F800000#32
  let main_v1 : FVec F S512x32x512 .f32 := broadcastInDim S512x32x512 ![] bcast_S_S512x32x512 main_cst
  let main_v2 : IVec S512x32x512 1 := cmpf .olt main_v0 main_v1
  let main_c : IVec S_ 1 := constantI S_ 1 1#1
  let main_v3 : IVec S_ 1 := (fun x v => Host.reduce IntOp.andi x v reducesTo_S512x32x512_S_d0_1_2 h_S_) main_v2 main_c
  let main_v4 : FVec F S512x32x512 .f32 := Host.absf main_arg1
  let main_cst_0 : FVec F S_ .f32 := constant S_ .f32 0x7F800000#32
  let main_v5 : FVec F S512x32x512 .f32 := broadcastInDim S512x32x512 ![] bcast_S_S512x32x512 main_cst_0
  let main_v6 : IVec S512x32x512 1 := cmpf .olt main_v4 main_v5
  let main_c_1 : IVec S_ 1 := constantI S_ 1 1#1
  let main_v7 : IVec S_ 1 := (fun x v => Host.reduce IntOp.andi x v reducesTo_S512x32x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S512x32x512 : Shape := ⟨3, ![512, 32, 512]⟩
abbrev S1024x512 : Shape := ⟨2, ![1024, 512]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S32x512x1024 : Shape := ⟨3, ![32, 512, 1024]⟩
abbrev S16x32x512 : Shape := ⟨3, ![16, 32, 512]⟩
abbrev S32x16x1024 : Shape := ⟨3, ![32, 16, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S16x32x1024 : Shape := ⟨3, ![16, 32, 1024]⟩
abbrev S32x512x512 : Shape := ⟨3, ![32, 512, 512]⟩
abbrev S32x1x1 : Shape := ⟨3, ![32, 1, 1]⟩
abbrev S1x512x1024 : Shape := ⟨3, ![1, 512, 1024]⟩
abbrev S1x512x512 : Shape := ⟨3, ![1, 512, 512]⟩
abbrev S1x1x1 : Shape := ⟨3, ![1, 1, 1]⟩
abbrev S1 : Shape := ⟨1, ![1]⟩
abbrev S1x1 : Shape := ⟨2, ![1, 1]⟩

abbrev nBuf : Space → Nat
  | .hbm => 34
  | .vmem => 42
  | .smem => 0
  | _ => 0

abbrev bufTy : (tb : Table) → Fin (tcTables nBuf tb) → BufTy
  | .hbm, ⟨0, _⟩ => ⟨S512x32x512, .f32⟩
  | .hbm, ⟨1, _⟩ => ⟨S512x32x512, .f32⟩
  | .hbm, ⟨2, _⟩ => ⟨S1024x512, .f32⟩
  | .hbm, ⟨3, _⟩ => ⟨S1024x512, .bf16⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1x1024, .f32⟩
  | .hbm, ⟨9, _⟩ => ⟨S32x512x1024, .bf16⟩
  | .hbm, ⟨10, _⟩ => ⟨S32x512x1024, .bf16⟩
  | .hbm, ⟨11, _⟩ => ⟨S32x512x1024, .bf16⟩
  | .hbm, ⟨12, _⟩ => ⟨S32x512x1024, .bf16⟩
  | .hbm, ⟨13, _⟩ => ⟨S32x512x512, .f32⟩
  | .hbm, ⟨14, _⟩ => ⟨S32x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S32x1x1, .f32⟩
  | .hbm, ⟨20, _⟩ => ⟨S_, .f32⟩
  | .hbm, ⟨21, _⟩ => ⟨S_, .f32⟩
  | .hbm, ⟨22, _⟩ => ⟨S32x512x512, .f32⟩
  | .hbm, ⟨23, _⟩ => ⟨S32x1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S32x1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S16x32x512, .f32⟩
  | .local _ .vmem, ⟨1, _⟩ => ⟨S16x32x512, .f32⟩
  | .local _ .vmem, ⟨2, _⟩ => ⟨S1024x512, .bf16⟩
  | .local _ .vmem, ⟨3, _⟩ => ⟨S1x1024, .f32⟩
  | .local _ .vmem, ⟨4, _⟩ => ⟨S32x16x1024, .bf16⟩
  | .local _ .vmem, ⟨5, _⟩ => ⟨S32x16x1024, .bf16⟩
  | .local _ .vmem, ⟨6, _⟩ => ⟨S32x16x1024, .bf16⟩
  | .local _ .vmem, ⟨7, _⟩ => ⟨S32x16x1024, .bf16⟩
  | .local _ .vmem, ⟨8, _⟩ => ⟨S16x32x512, .f32⟩
  | .local _ .vmem, ⟨9, _⟩ => ⟨S16x32x512, .f32⟩
  | .local _ .vmem, ⟨10, _⟩ => ⟨S1024x512, .bf16⟩
  | .local _ .vmem, ⟨11, _⟩ => ⟨S1x1024, .f32⟩
  | .local _ .vmem, ⟨12, _⟩ => ⟨S32x16x1024, .bf16⟩
  | .local _ .vmem, ⟨13, _⟩ => ⟨S32x16x1024, .bf16⟩
  | .local _ .vmem, ⟨14, _⟩ => ⟨S32x16x1024, .bf16⟩
  | .local _ .vmem, ⟨15, _⟩ => ⟨S32x16x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x512, .f32⟩
  | .local _ .vmem, ⟨21, _⟩ => ⟨S1x512x512, .f32⟩
  | .local _ .vmem, ⟨22, _⟩ => ⟨S1x1x1, .f32⟩
  | .local _ .vmem, ⟨23, _⟩ => ⟨S1x1x1, .f32⟩
  | .local _ .vmem, ⟨24, _⟩ => ⟨S1x512x512, .f32⟩
  | .local _ .vmem, ⟨25, _⟩ => ⟨S1x512x512, .f32⟩
  | .local _ .vmem, ⟨26, _⟩ => ⟨S1x1, .f32⟩
  | .local _ .vmem, ⟨27, _⟩ => ⟨S1x1x1, .f32⟩
  | .local _ .vmem, ⟨28, _⟩ => ⟨S1x1x1, .f32⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x512, .f32⟩
  | .local _ .vmem, ⟨34, _⟩ => ⟨S1x512x512, .f32⟩
  | .local _ .vmem, ⟨35, _⟩ => ⟨S1x1x1, .f32⟩
  | .local _ .vmem, ⟨36, _⟩ => ⟨S1x1x1, .f32⟩
  | .local _ .vmem, ⟨37, _⟩ => ⟨S1x512x512, .f32⟩
  | .local _ .vmem, ⟨38, _⟩ => ⟨S1x512x512, .f32⟩
  | .local _ .vmem, ⟨39, _⟩ => ⟨S1x1, .f32⟩
  | .local _ .vmem, ⟨40, _⟩ => ⟨S1x1x1, .f32⟩
  | .local _ .vmem, ⟨41, _⟩ => ⟨S1x1x1, .f32⟩
  | _, _ => ⟨S512x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x16x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x16x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x1x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bitsLt_bf16_f32 : FTy.bits .bf16 < FTy.bits .f32
  reducesTo_S1024x512_S1024_d1 : S1024x512.ReducesTo [1] S1024
  h_S_ : 0 < S_.numel
  bcast_S1024_S1024x1_0 : S1024.BroadcastsInDim S1024x1 (![0] : Fin 1 → Fin S1024x1.rank)
  transposes_S1024x1_S1x1024_1_0 : S1024x1.Transposes [1, 0] S1x1024
  inb_S16x32x512_S16x32x512_0_0_0 : ∀ a, (![0, 0, 0] : Fin 3 → Nat) a + S16x32x512.size a ≤ S16x32x512.size a
  h_S16x32x512 : 0 < S16x32x512.numel
  shapeCasts_S16x32x512_S512x512 : S16x32x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S512x512_S512 : S512x512.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  reduces_S512x1024_S512 : S512x1024.Reduces [1] S512
  shapeCasts_S512x1024_S16x32x1024 : S512x1024.ShapeCasts S16x32x1024
  transposes_S16x32x1024_p1_0_2_S32x16x1024 : S16x32x1024.Transposes [1, 0, 2] S32x16x1024
  inb_S32x16x1024_S32x16x1024_0_0_0 : ∀ a, (![0, 0, 0] : Fin 3 → Nat) a + S32x16x1024.size a ≤ S32x16x1024.size a
  h_S32x16x1024 : 0 < S32x16x1024.numel
  packedbf16_S32x16x1024_S32x16x1024_0_0_0 : (Rect.unit (s := S32x16x1024) ![0, 0, 0] S32x16x1024.size inb_S32x16x1024_S32x16x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S32x1x1_S_d0_1_2 : S32x1x1.ReducesTo [0, 1, 2] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  iota_S512x512_d0_w32 : S512x512.Iotas .tc 32 [0]
  iota_S512x512_d1_w32 : S512x512.Iotas .tc 32 [1]
  reduces_S512x1_S1 : S512x1.Reduces [0] S1
  shapeCasts_S1_S1x1 : S1.ShapeCasts S1x1
  dot_S512x512_S1024x512_S512x1024_1_1_0_0_n_n_wf : DotDims.WF S512x512 S1024x512 S512x1024 [1] [1] [0] [0] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x512.size a ≤ S512x32x512.size a
  hwx0_0 : ∀ i : grid0.Coords, EltTy.bits .f32 = 32 ∨ (Rect.block (s := S512x32x512) S16x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16x1024.size a ≤ S32x512x1024.size a
  hwx0_3 : ∀ i : grid0.Coords, EltTy.bits .bf16 = 32 ∨ (Rect.block (s := S32x512x1024) S32x16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16x1024.size a ≤ S32x512x1024.size a
  hwx0_4 : ∀ i : grid0.Coords, EltTy.bits .bf16 = 32 ∨ (Rect.block (s := S32x512x1024) S32x16x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32x512.size a ≤ S512x32x512.size a
  hwx1_0 : ∀ i : grid1.Coords, EltTy.bits .f32 = 32 ∨ (Rect.block (s := S512x32x512) S16x32x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x16x1024.size a ≤ S32x512x1024.size a
  hwx1_3 : ∀ i : grid1.Coords, EltTy.bits .bf16 = 32 ∨ (Rect.block (s := S32x512x1024) S32x16x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x16x1024.size a ≤ S32x512x1024.size a
  hwx1_4 : ∀ i : grid1.Coords, EltTy.bits .bf16 = 32 ∨ (Rect.block (s := S32x512x1024) S32x16x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S32x512x1024.size a
  hwx2_0 : ∀ i : grid2.Coords, EltTy.bits .bf16 = 32 ∨ (Rect.block (s := S32x512x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S32x512x1024.size a
  hwx2_1 : ∀ i : grid2.Coords, EltTy.bits .bf16 = 32 ∨ (Rect.block (s := S32x512x1024) S1x512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x512.size a ≤ S32x512x512.size a
  hwx2_2 : ∀ i : grid2.Coords, EltTy.bits .f32 = 32 ∨ (Rect.block (s := S32x512x512) S1x512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S32x1x1.size a
  hwx2_3 : ∀ i : grid2.Coords, EltTy.bits .f32 = 32 ∨ (Rect.block (s := S32x1x1) S1x1x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x512.size a ≤ S32x512x512.size a
  hwx3_0 : ∀ i : grid3.Coords, EltTy.bits .f32 = 32 ∨ (Rect.block (s := S32x512x512) S1x512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1.size a ≤ S32x1x1.size a
  hwx3_2 : ∀ i : grid3.Coords, EltTy.bits .f32 = 32 ∨ (Rect.block (s := S32x1x1) S1x1x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x512x1024.size a ≤ S32x512x1024.size a
  hwx4_0 : ∀ i : grid4.Coords, EltTy.bits .bf16 = 32 ∨ (Rect.block (s := S32x512x1024) S1x512x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x512x1024.size a ≤ S32x512x1024.size a
  hwx4_1 : ∀ i : grid4.Coords, EltTy.bits .bf16 = 32 ∨ (Rect.block (s := S32x512x1024) S1x512x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512x512.size a ≤ S32x512x512.size a
  hwx4_2 : ∀ i : grid4.Coords, EltTy.bits .f32 = 32 ∨ (Rect.block (s := S32x512x512) S1x512x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x1.size a ≤ S32x1x1.size a
  hwx4_3 : ∀ i : grid4.Coords, EltTy.bits .f32 = 32 ∨ (Rect.block (s := S32x1x1) S1x1x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x512x512.size a ≤ S32x512x512.size a
  hwx5_0 : ∀ i : grid5.Coords, EltTy.bits .f32 = 32 ∨ (Rect.block (s := S32x512x512) S1x512x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x1.size a ≤ S32x1x1.size a
  hwx5_2 : ∀ i : grid5.Coords, EltTy.bits .f32 = 32 ∨ (Rect.block (s := S32x1x1) S1x1x1.size (cc5_transform_2 i) (hinb5_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S16x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S32x16x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S32x16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S16x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S32x16x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S32x16x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5_0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_0) S1x512x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7_1) S1x1x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7_0) S1x512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v6_0) S1x512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5_1) S1x512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13_0) S1x512x512.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13_1) S1x1x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v13_0) S1x512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v17) S1x1x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S512x32x512 : Shape := ⟨3, ![512, 32, 512]⟩
abbrev S1024x512 : Shape := ⟨2, ![1024, 512]⟩
abbrev S16384x512 : Shape := ⟨2, ![16384, 512]⟩
abbrev S_ : Shape := ⟨0, ![]⟩
abbrev S1024 : Shape := ⟨1, ![1024]⟩
abbrev S1x1024 : Shape := ⟨2, ![1, 1024]⟩
abbrev S16384 : Shape := ⟨1, ![16384]⟩
abbrev S16384x1 : Shape := ⟨2, ![16384, 1]⟩
abbrev S16384x1024 : Shape := ⟨2, ![16384, 1024]⟩
abbrev S512x1024 : Shape := ⟨2, ![512, 1024]⟩
abbrev S512x32x1024 : Shape := ⟨3, ![512, 32, 1024]⟩
abbrev S32x512x1024 : Shape := ⟨3, ![32, 512, 1024]⟩
abbrev S32x512x512 : Shape := ⟨3, ![32, 512, 512]⟩
abbrev S512 : Shape := ⟨1, ![512]⟩
abbrev S512x1 : Shape := ⟨2, ![512, 1]⟩
abbrev S512x2 : Shape := ⟨2, ![512, 2]⟩
abbrev S32x512 : Shape := ⟨2, ![32, 512]⟩

abbrev nBuf : Space → Nat
  | .hbm => 210
  | .vmem => 0
  | .smem => 0
  | _ => 0

abbrev hbmTy0_0 (i : Nat) : BufTy := match i % 128 with
  | 0 => ⟨S512x32x512, .f32⟩
  | 1 => ⟨S512x32x512, .f32⟩
  | 2 => ⟨S1024x512, .f32⟩
  | 3 => ⟨S16384x512, .f32⟩
  | 4 => ⟨S16384x512, .f32⟩
  | 5 => ⟨S1024x512, .f32⟩
  | 6 => ⟨S_, .f32⟩
  | 7 => ⟨S1024, .f32⟩
  | 8 => ⟨S1x1024, .f32⟩
  | 9 => ⟨S16384x512, .f32⟩
  | 10 => ⟨S_, .f32⟩
  | 11 => ⟨S16384, .f32⟩
  | 12 => ⟨S16384x1, .f32⟩
  | 13 => ⟨S16384x1024, .f32⟩
  | 14 => ⟨S16384x1024, .f32⟩
  | 15 => ⟨S16384x1024, .f32⟩
  | 16 => ⟨S512x1024, .f32⟩
  | 17 => ⟨S16384x1024, .f32⟩
  | 18 => ⟨S_, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S1024x512, .f32⟩
  | 27 => ⟨S_, .f32⟩
  | 28 => ⟨S1024, .f32⟩
  | 29 => ⟨S1x1024, .f32⟩
  | 30 => ⟨S16384x512, .f32⟩
  | 31 => ⟨S_, .f32⟩
  | 32 => ⟨S16384, .f32⟩
  | 33 => ⟨S16384x1, .f32⟩
  | 34 => ⟨S16384x1024, .f32⟩
  | 35 => ⟨S16384x1024, .f32⟩
  | 36 => ⟨S16384x1024, .f32⟩
  | 37 => ⟨S512x1024, .f32⟩
  | 38 => ⟨S16384x1024, .f32⟩
  | 39 => ⟨S_, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384, .f32⟩
  | 50 => ⟨S_, .f32⟩
  | 51 => ⟨S16384, .f32⟩
  | 52 => ⟨S16384, .f32⟩
  | 53 => ⟨S16384x1, .f32⟩
  | 54 => ⟨S16384x1024, .f32⟩
  | 55 => ⟨S16384x1024, .f32⟩
  | 56 => ⟨S16384x1024, .f32⟩
  | 57 => ⟨S_, .f32⟩
  | 58 => ⟨S16384, .f32⟩
  | 59 => ⟨S16384x1, .f32⟩
  | 60 => ⟨S16384x1024, .f32⟩
  | 61 => ⟨S16384x1024, .f32⟩
  | 62 => ⟨S16384x1024, .f32⟩
  | 63 => ⟨S_, .f32⟩
  | 64 => ⟨S16384, .f32⟩
  | 65 => ⟨S_, .f32⟩
  | 66 => ⟨S16384, .f32⟩
  | 67 => ⟨S16384, .f32⟩
  | 68 => ⟨S16384x1, .f32⟩
  | 69 => ⟨S16384x1024, .f32⟩
  | 70 => ⟨S16384x1024, .f32⟩
  | 71 => ⟨S16384x1024, .f32⟩
  | 72 => ⟨S_, .f32⟩
  | 73 => ⟨S16384, .f32⟩
  | 74 => ⟨S16384x1, .f32⟩
  | 75 => ⟨S16384x1024, .f32⟩
  | 76 => ⟨S16384x1024, .f32⟩
  | 77 => ⟨S512x32x1024, .f32⟩
  | 78 => ⟨S32x512x1024, .f32⟩
  | 79 => ⟨S512x32x1024, .f32⟩
  | 80 => ⟨S32x512x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384, .f32⟩
  | 87 => ⟨S_, .f32⟩
  | 88 => ⟨S16384, .f32⟩
  | 89 => ⟨S16384, .f32⟩
  | 90 => ⟨S16384x1, .f32⟩
  | 91 => ⟨S16384x1024, .f32⟩
  | 92 => ⟨S16384x1024, .f32⟩
  | 93 => ⟨S16384x1024, .f32⟩
  | 94 => ⟨S_, .f32⟩
  | 95 => ⟨S16384, .f32⟩
  | 96 => ⟨S16384x1, .f32⟩
  | 97 => ⟨S16384x1024, .f32⟩
  | 98 => ⟨S16384x1024, .f32⟩
  | 99 => ⟨S512x32x1024, .f32⟩
  | 100 => ⟨S32x512x1024, .f32⟩
  | 101 => ⟨S16384x1024, .f32⟩
  | 102 => ⟨S_, .f32⟩
  | 103 => ⟨S16384x1024, .f32⟩
  | 104 => ⟨S16384x1024, .f32⟩
  | 105 => ⟨S_, .f32⟩
  | 106 => ⟨S16384, .f32⟩
  | 107 => ⟨S_, .f32⟩
  | 108 => ⟨S16384, .f32⟩
  | 109 => ⟨S16384, .f32⟩
  | 110 => ⟨S16384x1, .f32⟩
  | 111 => ⟨S16384x1024, .f32⟩
  | 112 => ⟨S16384x1024, .f32⟩
  | 113 => ⟨S16384x1024, .f32⟩
  | 114 => ⟨S_, .f32⟩
  | 115 => ⟨S16384, .f32⟩
  | 116 => ⟨S16384x1, .f32⟩
  | 117 => ⟨S16384x1024, .f32⟩
  | 118 => ⟨S16384x1024, .f32⟩
  | 119 => ⟨S512x32x1024, .f32⟩
  | 120 => ⟨S32x512x1024, .f32⟩
  | 121 => ⟨S_, .f32⟩
  | 122 => ⟨S32x512x1024, .f32⟩
  | 123 => ⟨S32x512x1024, .f32⟩
  | 124 => ⟨S32x512x1024, .f32⟩
  | 125 => ⟨S32x512x512, .f32⟩
  | 126 => ⟨S32x512x512, .f32⟩
  | 127 => ⟨S_, .f32⟩
  | _ => ⟨S512x32x512, .f32⟩

abbrev hbmTy0_1 (i : Nat) : BufTy := match i % 128 with
  | 0 => ⟨S_, .f32⟩
  | 1 => ⟨S32x512x512, .f32⟩
  | 2 => ⟨S32x512x512, .f32⟩
  | 3 => ⟨S32x512x512, .f32⟩
  | 4 => ⟨S512, .i32⟩
  | 5 => ⟨S512, .i32⟩
  | 6 => ⟨S_, .i32⟩
  | 7 => ⟨S512, .i32⟩
  | 8 => ⟨S512, .i1⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S_, .i32⟩
  | 17 => ⟨S512, .i32⟩
  | 18 => ⟨S512, .i32⟩
  | 19 => ⟨S512, .i32⟩
  | 20 => ⟨S512x1, .i32⟩
  | 21 => ⟨S512x1, .i32⟩
  | 22 => ⟨S512x2, .i32⟩
  | 23 => ⟨S32x512, .f32⟩
  | 24 => ⟨S_, .f32⟩
  | 25 => ⟨S32x512, .f32⟩
  | 26 => ⟨S_, .f32⟩
  | 27 => ⟨S32x512, .f32⟩
  | 28 => ⟨S32x512, .f32⟩
  | 29 => ⟨S32x512, .f32⟩
  | 30 => ⟨S32x512, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S32x512x1024, .f32⟩
  | 38 => ⟨S32x512x1024, .f32⟩
  | 39 => ⟨S32x512x1024, .f32⟩
  | 40 => ⟨S32x512x512, .f32⟩
  | 41 => ⟨S32x512x512, .f32⟩
  | 42 => ⟨S_, .f32⟩
  | 43 => ⟨S_, .f32⟩
  | 44 => ⟨S32x512x512, .f32⟩
  | 45 => ⟨S32x512x512, .f32⟩
  | 46 => ⟨S32x512x512, .f32⟩
  | 47 => ⟨S512, .i32⟩
  | 48 => ⟨S512, .i32⟩
  | 49 => ⟨S_, .i32⟩
  | 50 => ⟨S512, .i32⟩
  | 51 => ⟨S512, .i1⟩
  | 52 => ⟨S_, .i32⟩
  | 53 => ⟨S512, .i32⟩
  | 54 => ⟨S512, .i32⟩
  | 55 => ⟨S512, .i32⟩
  | 56 => ⟨S_, .i32⟩
  | 57 => ⟨S512, .i32⟩
  | 58 => ⟨S512, .i1⟩
  | 59 => ⟨S_, .i32⟩
  | 60 => ⟨S512, .i32⟩
  | 61 => ⟨S512, .i32⟩
  | 62 => ⟨S512, .i32⟩
  | 63 => ⟨S512x1, .i32⟩
  | 64 => ⟨S512x1, .i32⟩
  | 65 => ⟨S512x2, .i32⟩
  | 66 => ⟨S32x512, .f32⟩
  | 67 => ⟨S_, .f32⟩
  | 68 => ⟨S32x512, .f32⟩
  | 69 => ⟨S_, .f32⟩
  | 70 => ⟨S32x512, .f32⟩
  | 71 => ⟨S32x512, .f32⟩
  | 72 => ⟨S32x512, .f32⟩
  | 73 => ⟨S32x512, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S512x32x512, .f32⟩

abbrev hbmTy (i : Nat) : BufTy := match i / 128 with
  | 0 => hbmTy0_0 i
  | 1 => hbmTy0_1 i
  | _ => ⟨S512x32x512, .f32⟩

abbrev bufTy : (tb : Table) → Fin (tcTables nBuf tb) → BufTy
  | .hbm, ⟨i, _⟩ => hbmTy i
  | _, _ => ⟨S512x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_16 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_17 : Ref sig .tc := ⟨.hbm, 102, rfl⟩
abbrev main_v81 : Ref sig .tc := ⟨.hbm, 103, rfl⟩
abbrev main_v82 : Ref sig .tc := ⟨.hbm, 104, rfl⟩
abbrev main_cst_18 : Ref sig .tc := ⟨.hbm, 105, rfl⟩
abbrev main_v83 : Ref sig .tc := ⟨.hbm, 106, rfl⟩
abbrev main_cst_19 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_20 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_22 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_call0_v0 : Ref sig .tc := ⟨.hbm, 132, rfl⟩
abbrev main_call0_v1 : Ref sig .tc := ⟨.hbm, 133, rfl⟩
abbrev main_call0_c : Ref sig .tc := ⟨.hbm, 134, rfl⟩
abbrev main_call0_v2 : Ref sig .tc := ⟨.hbm, 135, rfl⟩
abbrev main_call0_v3 : Ref sig .tc := ⟨.hbm, 136, rfl⟩
abbrev main_call0_c_0 : Ref sig .tc := ⟨.hbm, 137, rfl⟩
abbrev main_call0_v4 : Ref sig .tc := ⟨.hbm, 138, rfl⟩
abbrev main_call0_v5 : Ref sig .tc := ⟨.hbm, 139, rfl⟩
abbrev main_call0_v6 : Ref sig .tc := ⟨.hbm, 140, rfl⟩
abbrev main_call0_c_1 : Ref sig .tc := ⟨.hbm, 141, rfl⟩
abbrev main_call0_v7 : Ref sig .tc := ⟨.hbm, 142, rfl⟩
abbrev main_call0_v8 : Ref sig .tc := ⟨.hbm, 143, rfl⟩
abbrev main_call0_c_2 : Ref sig .tc := ⟨.hbm, 144, rfl⟩
abbrev main_call0_v9 : Ref sig .tc := ⟨.hbm, 145, rfl⟩
abbrev main_call0_v10 : Ref sig .tc := ⟨.hbm, 146, rfl⟩
abbrev main_call0_v11 : Ref sig .tc := ⟨.hbm, 147, rfl⟩
abbrev main_call0_v12 : Ref sig .tc := ⟨.hbm, 148, rfl⟩
abbrev main_call0_v13 : Ref sig .tc := ⟨.hbm, 149, rfl⟩
abbrev main_call0_v14 : Ref sig .tc := ⟨.hbm, 150, rfl⟩
abbrev main_v105 : Ref sig .tc := ⟨.hbm, 151, rfl⟩
abbrev main_cst_23 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_25 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_28 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_call1_v0 : Ref sig .tc := ⟨.hbm, 175, rfl⟩
abbrev main_call1_v1 : Ref sig .tc := ⟨.hbm, 176, rfl⟩
abbrev main_call1_c : Ref sig .tc := ⟨.hbm, 177, rfl⟩
abbrev main_call1_v2 : Ref sig .tc := ⟨.hbm, 178, rfl⟩
abbrev main_call1_v3 : Ref sig .tc := ⟨.hbm, 179, rfl⟩
abbrev main_call1_c_0 : Ref sig .tc := ⟨.hbm, 180, rfl⟩
abbrev main_call1_v4 : Ref sig .tc := ⟨.hbm, 181, rfl⟩
abbrev main_call1_v5 : Ref sig .tc := ⟨.hbm, 182, rfl⟩
abbrev main_call1_v6 : Ref sig .tc := ⟨.hbm, 183, rfl⟩
abbrev main_call1_c_1 : Ref sig .tc := ⟨.hbm, 184, rfl⟩
abbrev main_call1_v7 : Ref sig .tc := ⟨.hbm, 185, rfl⟩
abbrev main_call1_v8 : Ref sig .tc := ⟨.hbm, 186, rfl⟩
abbrev main_call1_c_2 : Ref sig .tc := ⟨.hbm, 187, rfl⟩
abbrev main_call1_v9 : Ref sig .tc := ⟨.hbm, 188, rfl⟩
abbrev main_call1_v10 : Ref sig .tc := ⟨.hbm, 189, rfl⟩
abbrev main_call1_v11 : Ref sig .tc := ⟨.hbm, 190, rfl⟩
abbrev main_call1_v12 : Ref sig .tc := ⟨.hbm, 191, rfl⟩
abbrev main_call1_v13 : Ref sig .tc := ⟨.hbm, 192, rfl⟩
abbrev main_call1_v14 : Ref sig .tc := ⟨.hbm, 193, rfl⟩
abbrev main_v123 : Ref sig .tc := ⟨.hbm, 194, rfl⟩
abbrev main_cst_29 : Ref sig .tc := ⟨.hbm, 195, rfl⟩
abbrev main_v124 : Ref sig .tc := ⟨.hbm, 196, rfl⟩
abbrev main_cst_30 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_cst_31 : Ref sig .tc := ⟨.hbm, 202, rfl⟩
abbrev main_v129 : Ref sig .tc := ⟨.hbm, 203, rfl⟩
abbrev main_cst_32 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_cst_33 : Ref sig .tc := ⟨.hbm, 208, rfl⟩
abbrev main_v133 : Ref sig .tc := ⟨.hbm, 209, rfl⟩

abbrev nD : Nat := 1
abbrev τ : Topo := Topo.v7x

variable {F : FTy → Type} [FloatOps F]

class Facts₀ : Prop where
  shapeCasts_S512x32x512_S16384x512 : S512x32x512.ShapeCasts S16384x512
  reducesTo_S1024x512_S1024_d1 : S1024x512.ReducesTo [1] S1024
  h_S_ : 0 < S_.numel
  bcast_S1024_S1x1024_1 : S1024.BroadcastsInDim S1x1024 (![1] : Fin 1 → Fin S1x1024.rank)
  reducesTo_S16384x512_S16384_d1 : S16384x512.ReducesTo [1] S16384
  bcast_S16384_S16384x1_0 : S16384.BroadcastsInDim S16384x1 (![0] : Fin 1 → Fin S16384x1.rank)
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  transposes_S1024x512_S512x1024_1_0 : S1024x512.Transposes [1, 0] S512x1024
  bcast_S_S16384x1024 : S_.BroadcastsInDim S16384x1024 (![] : Fin 0 → Fin S16384x1024.rank)
  reducesTo_S16384x1024_S16384_d1 : S16384x1024.ReducesTo [1] S16384
  bcast_S_S16384 : S_.BroadcastsInDim S16384 (![] : Fin 0 → Fin S16384.rank)
  shapeCasts_S16384x1024_S512x32x1024 : S16384x1024.ShapeCasts S512x32x1024
  transposes_S512x32x1024_S32x512x1024_1_0_2 : S512x32x1024.Transposes [1, 0, 2] S32x512x1024
  bcast_S_S32x512x1024 : S_.BroadcastsInDim S32x512x1024 (![] : Fin 0 → Fin S32x512x1024.rank)
  reducesTo_S32x512x512_S_d0_1_2 : S32x512x512.ReducesTo [0, 1, 2] S_
  bcast_S_S32x512x512 : S_.BroadcastsInDim S32x512x512 (![] : Fin 0 → Fin S32x512x512.rank)
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  reducesTo_S32x512x512_S32x512_d2 : S32x512x512.ReducesTo [2] S32x512
  bcast_S_S32x512 : S_.BroadcastsInDim S32x512 (![] : Fin 0 → Fin S32x512.rank)
  reducesTo_S32x512_S_d0_1 : S32x512.ReducesTo [0, 1] S_
  dot_S16384x512_S512x1024_S16384x1024_1_0_0_1_n_n_wf : DotDims.WF S16384x512 S512x1024 S16384x1024 [1] [0] [0] [1] [] []
  dot_S32x512x1024_S32x512x1024_S32x512x512_2_2_1_1_0_0_wf : DotDims.WF S32x512x1024 S32x512x1024 S32x512x512 [2] [2] [1] [1] [0] [0]
  gather_S32x512x512_S512x2_S32x512_0_12_n_n_12_1_3211_wf : GatherDims.WF S32x512x512 S512x2 S32x512 [0] [1, 2] [] [1, 2] [] 1 ![32, 1, 1]

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def gather_S32x512x512_S512x2_S32x512_0_12_n_n_12_1_3211 : GatherDims S32x512x512 S512x2 S32x512 where
  offsetDims := [0]
  collapsedSliceDims := [1, 2]
  operandBatchingDims := []
  startIndicesBatchingDims := []
  startIndexMap := [1, 2]
  indexVectorDim := 1
  sliceSizes := ![32, 1, 1]
  wf := gather_S32x512x512_S512x2_S32x512_0_12_n_n_12_1_3211_wf

class Facts : Prop extends Facts₀ where

variable [Facts]
-- ==== Proof.Spec.lean ====
/-
  The specification of both programs' result as functions on the extended reals, index by index.

  One modality `X : [512, 32, 512]` and the codebook `E : [1024, 512]` give, for each token `(b, t)`, the
  negated distances to the 1024 code vectors, `nsd X E Q b t j = -√(max (Q j + |x|² - 2⟨x, e_j⟩) 0)` with
  `Q j = |e_j|²`.  Over one such row `v` the kernel and the reference both form the soft assignment at
  temperature 1 (`e1 / s1`) and at temperature 1/2, and the logarithm of the first plus 1e-10:

  * the kernel writes the logarithm as `log (e1 + ε s1) - log s1` and the second soft assignment as
    `e1² / Σ e1²` (`logK`, `adjK`);
  * the reference writes `log (e1 / s1 + ε)` and `exp (v/0.5 - max (v/0.5)) / Σ …` (`logR`, `adjR`).

  From an assignment array `A` and a log array `L` (both `[32, 512, 1024]`, time major) the score is
  `scode A L t i j = Σ_m A t i m · L t j m`; the loss of one direction shifts the scores by the global
  `c = max (-S)`, and averages `-log (exp (S_ii + c) / (Σ_j exp (S_ij + c) + 1e-5))` over the 32 · 512 rows.
  The kernel takes `c` as minus the minimum of the per-time minima and sums the negated logarithms, dividing the
  two directions' sums by 2 · 32 · 512 at the end (`lossK`); the reference takes the mean of each direction, negates
  it, and halves the sum (`lossR`).  That the two agree on real-valued inputs is proved elsewhere; nothing here
  needs finiteness.
-/
import Idealize.ShloMosaic.PureOps.Ideal
import Idealize.ShloMosaic.PureOps.Ideal.Laws

noncomputable section

open scoped BigOperators

namespace Cert.Spec

open Idealize.ShloMosaic

/-- The float literals both programs carry, as the extended reals their words denote. -/
abbrev eps10 : EReal := Ideal.ofBits .f32 0x2EDBE6FF#32
abbrev eps5 : EReal := Ideal.ofBits .f32 0x3727C5AC#32
abbrev two : EReal := Ideal.ofBits .f32 0x40000000#32
abbrev half : EReal := Ideal.ofBits .f32 0x3F000000#32
abbrev c16384 : EReal := Ideal.ofBits .f32 0x46800000#32
abbrev c32768 : EReal := Ideal.ofBits .f32 0x47000000#32

/-- The maximum of a finite family, from the bottom element: the fold both programs' max-reductions are. -/
def emax {ι : Type} [Fintype ι] (f : ι → EReal) : EReal := Finset.univ.fold max ⊥ f
/-- The minimum of a finite family, from the top element. -/
def emin {ι : Type} [Fintype ι] (f : ι → EReal) : EReal := Finset.univ.fold min ⊤ f

/-! ## Distances -/

/-- The squared norm of code vector `j`. -/
def sqe (E : Fin 1024 → Fin 512 → EReal) (j : Fin 1024) : EReal := ∑ k, E j k * E j k

/-- Minus the distance of one token's feature row `x` to code vector `j`, with the codebook's squared norms `Q` given. -/
def nsdRow (x : Fin 512 → EReal) (E : Fin 1024 → Fin 512 → EReal) (Q : Fin 1024 → EReal) (j : Fin 1024) : EReal :=
  -Ideal.sqrt (max ((Q j + ∑ k, x k * x k) - two * ∑ k, x k * E j k) 0)
/-- The same for token (b, t) of a modality. -/
def nsd (X : Fin 512 → Fin 32 → Fin 512 → EReal) (E : Fin 1024 → Fin 512 → EReal) (Q : Fin 1024 → EReal)
    (b : Fin 512) (t : Fin 32) (j : Fin 1024) : EReal := nsdRow (X b t) E Q j

/-! ## One row of negated distances: the two soft assignments and the clamped logarithm -/

variable (v : Fin 1024 → EReal)

/-- `exp (v_j - max v)`. -/
def e1 (j : Fin 1024) : EReal := Ideal.exp (v j - emax v)
/-- `Σ_j exp (v_j - max v)`. -/
def s1 : EReal := ∑ j, e1 v j

/-- The kernel's clamped logarithm: `log (e1 + ε s1) - log s1`. -/
def logK (j : Fin 1024) : EReal := Ideal.log (e1 v j + eps10 * s1 v) - Ideal.log (s1 v)
/-- The kernel's assignment at temperature 1/2: `e1² / Σ e1²`. -/
def adjK (j : Fin 1024) : EReal := Ideal.div (e1 v j * e1 v j) (∑ j', e1 v j' * e1 v j')

/-- The reference's clamped logarithm: `log (e1 / s1 + ε)`. -/
def logR (j : Fin 1024) : EReal := Ideal.log (Ideal.div (e1 v j) (s1 v) + eps10)
/-- The row divided by 0.5. -/
def vhalf (j : Fin 1024) : EReal := Ideal.div (v j) half
/-- The reference's assignment at temperature 1/2: the soft assignment of `v / 0.5`. -/
def adjR (j : Fin 1024) : EReal := Ideal.div (e1 (vhalf v) j) (s1 (vhalf v))

/-! ## Scores and one direction's loss -/

/-- `S t i j = Σ_m A t i m · L t j m`. -/
def scode (A L : Fin 32 → Fin 512 → Fin 1024 → EReal) (t : Fin 32) (i j : Fin 512) : EReal := ∑ m, A t i m * L t j m

variable (S : Fin 32 → Fin 512 → Fin 512 → EReal)

/-- The kernel's per-time minimum of the scores (a reduction of a `[1, 512, 512]` block over its last two axes). -/
def tminK (t : Fin 32) : EReal := emin fun p : Fin 1 × Fin 512 × Fin 512 => S t p.2.1 p.2.2
/-- The kernel's shift: minus the minimum over the `[32, 1, 1]` array of per-time minima. -/
def cK : EReal := -emin fun q : Fin 32 × Fin 1 × Fin 1 => tminK S q.1
/-- The reference's shift: the maximum of the negated scores. -/
def cR : EReal := emax fun p : Fin 32 × Fin 512 × Fin 512 => -S p.1 p.2.1 p.2.2

/-- `exp (S_ii + c) / (Σ_j exp (S_ij + c) + 1e-5)`. -/
def ratio (c : EReal) (t : Fin 32) (i : Fin 512) : EReal :=
  Ideal.div (Ideal.exp (S t i i + c)) ((∑ j, Ideal.exp (S t i j + c)) + eps5)

/-- One time's sum of `0 - log ratio` at a given shift. -/
def partAt (c : EReal) (t : Fin 32) : EReal := ∑ i, (0 - Ideal.log (ratio S c t i))
/-- The kernel's per-time partial sum, at its own shift. -/
def partK (t : Fin 32) : EReal := partAt S (cK S) t
/-- The kernel's sum over the 32 times. -/
def sumK : EReal := ∑ t, partK S t
/-- The reference's negated mean of `log ratio` over the 32 · 512 rows. -/
def resR : EReal := -Ideal.div (∑ t, ∑ i, Ideal.log (ratio S (cR S) t i)) c16384

/-! ## The whole result -/

variable (Xa Xv : Fin 512 → Fin 32 → Fin 512 → EReal) (E : Fin 1024 → Fin 512 → EReal)

/-- The kernel's assignment and log arrays of a modality, time major, from the host-computed squared norms. -/
def adjArrK (X : Fin 512 → Fin 32 → Fin 512 → EReal) (t : Fin 32) (b : Fin 512) (m : Fin 1024) : EReal :=
  adjK (nsd X E (sqe E) b t) m
def logArrK (X : Fin 512 → Fin 32 → Fin 512 → EReal) (t : Fin 32) (b : Fin 512) (m : Fin 1024) : EReal :=
  logK (nsd X E (sqe E) b t) m
/-- The reference's. -/
def adjArrR (X : Fin 512 → Fin 32 → Fin 512 → EReal) (t : Fin 32) (b : Fin 512) (m : Fin 1024) : EReal :=
  adjR (nsd X E (sqe E) b t) m
def logArrR (X : Fin 512 → Fin 32 → Fin 512 → EReal) (t : Fin 32) (b : Fin 512) (m : Fin 1024) : EReal :=
  logR (nsd X E (sqe E) b t) m

/-- The kernel's result: audio assignment against video logs, video assignment against audio logs. -/
def lossK : EReal :=
  Ideal.div (sumK (scode (adjArrK E Xa) (logArrK E Xv)) + sumK (scode (adjArrK E Xv) (logArrK E Xa))) c32768
/-- The reference's result. -/
def lossR : EReal :=
  half * (resR (scode (adjArrR E Xa) (logArrR E Xv)) + resR (scode (adjArrR E Xv) (logArrR E Xa)))

end Cert.Spec

end
-- ==== Proof.BridgeRow.lean ====
/-
  One row of negated distances, real-valued: the kernel's and the reference's spellings of the clamped logarithm
  and of the temperature-1/2 assignment are equal, and both are real numbers.
-/
import proofs.«400058_j87668872446318_3_alg».proof.Proof.Spec

noncomputable section

open scoped BigOperators

namespace Cert.Spec

open Idealize.ShloMosaic

/-! ## The constants as reals -/

/-- The clamp constant is a nonnegative real. -/
private theorem eps10_real : ∃ e : ℝ, 0 ≤ e ∧ eps10 = (e : EReal) := by
  refine ⟨_, ?_, by simp [eps10, Ideal.ofBits, Ideal.ieee, -EReal.coe_mul]; rfl⟩
  positivity

private theorem two_eq : two = ((2 : ℝ) : EReal) := by
  simp [two, Ideal.ofBits, Ideal.ieee, -EReal.coe_mul]; norm_num

private theorem half_eq : half = ((1 / 2 : ℝ) : EReal) := by
  simp [half, Ideal.ofBits, Ideal.ieee, -EReal.coe_mul]; norm_num

/-! ## Coercion of finite sums and of maxima -/

private theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_max (a b : ℝ) : ((max a b : ℝ) : EReal) = max (a : EReal) (b : EReal) :=
  (EReal.coe_strictMono.monotone).map_max

/-- The maximum of a real row. -/
private def rmax (r : Fin 1024 → ℝ) : ℝ := Finset.univ.sup' Finset.univ_nonempty r

private theorem le_rmax (r : Fin 1024 → ℝ) (j : Fin 1024) : r j ≤ rmax r :=
  Finset.le_sup' r (Finset.mem_univ j)

private theorem rmax_attained (r : Fin 1024 → ℝ) : ∃ j, rmax r = r j := by
  obtain ⟨j, _, hj⟩ := Finset.exists_mem_eq_sup' (s := Finset.univ) Finset.univ_nonempty r
  exact ⟨j, hj⟩

private theorem emax_coe (r : Fin 1024 → ℝ) : emax (fun j => (r j : EReal)) = (rmax r : EReal) := by
  apply le_antisymm
  · rw [emax, Finset.fold_max_le]
    exact ⟨bot_le, fun j _ => EReal.coe_le_coe_iff.2 (le_rmax r j)⟩
  · obtain ⟨j, hj⟩ := rmax_attained r
    rw [emax, Finset.le_fold_max]
    exact Or.inr ⟨j, Finset.mem_univ j, by rw [hj]⟩

/-! ## A real row: its exponentials and their sum -/

/-- A real-valued row is the coercion of a real row. -/
private theorem exists_real_row {n : ℕ} (v : Fin n → EReal) (hv : ∀ j, ∃ r : ℝ, v j = (r : EReal)) :
    ∃ r : Fin n → ℝ, v = fun j => (r j : EReal) := by
  choose r hr using hv
  exact ⟨r, funext hr⟩

/-- `exp (r_j - max r)`, real. -/
private def re1 (r : Fin 1024 → ℝ) (j : Fin 1024) : ℝ := Real.exp (r j - rmax r)

private theorem re1_pos (r : Fin 1024 → ℝ) (j : Fin 1024) : 0 < re1 r j := Real.exp_pos _

private theorem e1_coe (r : Fin 1024 → ℝ) (j : Fin 1024) : e1 (fun j => (r j : EReal)) j = (re1 r j : EReal) := by
  rw [e1, emax_coe, ← EReal.coe_sub, Ideal.exp_coe, re1]

private theorem s1_coe (r : Fin 1024 → ℝ) : s1 (fun j => (r j : EReal)) = ((∑ j, re1 r j : ℝ) : EReal) := by
  rw [s1, coe_finset_sum]
  exact Finset.sum_congr rfl fun j _ => e1_coe r j

private theorem sum_re1_pos (r : Fin 1024 → ℝ) : 0 < ∑ j, re1 r j :=
  Finset.sum_pos (fun j _ => re1_pos r j) Finset.univ_nonempty

private theorem sum_re1_sq_pos (r : Fin 1024 → ℝ) : 0 < ∑ j, re1 r j * re1 r j :=
  Finset.sum_pos (fun j _ => mul_pos (re1_pos r j) (re1_pos r j)) Finset.univ_nonempty

/-! ## The clamped logarithm -/

private theorem logK_coe (r : Fin 1024 → ℝ) (e : ℝ) (he : 0 ≤ e) (hε : eps10 = (e : EReal)) (j : Fin 1024) :
    logK (fun j => (r j : EReal)) j
      = ((Real.log (re1 r j + e * ∑ j, re1 r j) - Real.log (∑ j, re1 r j) : ℝ) : EReal) := by
  have hS := sum_re1_pos r
  have h1 : 0 < re1 r j + e * ∑ j, re1 r j := add_pos_of_pos_of_nonneg (re1_pos r j) (mul_nonneg he hS.le)
  rw [logK, e1_coe, s1_coe, hε, ← EReal.coe_mul, ← EReal.coe_add, Ideal.log_coe, Ideal.log_coe,
    if_neg (not_le.2 h1), if_neg (not_le.2 hS), ← EReal.coe_sub]

private theorem logR_coe (r : Fin 1024 → ℝ) (e : ℝ) (he : 0 ≤ e) (hε : eps10 = (e : EReal)) (j : Fin 1024) :
    logR (fun j => (r j : EReal)) j
      = ((Real.log (re1 r j * (1 / ∑ j, re1 r j) + e) : ℝ) : EReal) := by
  have hS := sum_re1_pos r
  have h1 : 0 < re1 r j * (1 / ∑ j, re1 r j) + e :=
    add_pos_of_pos_of_nonneg (mul_pos (re1_pos r j) (one_div_pos.2 hS)) he
  rw [logR, e1_coe, s1_coe, hε, Ideal.div_coe hS.ne', ← EReal.coe_mul, ← EReal.coe_add, Ideal.log_coe,
    if_neg (not_le.2 h1)]

/-! ## The assignment at temperature 1/2 -/

private theorem rmax_mul_two (r : Fin 1024 → ℝ) : rmax (fun j => r j * (1 / (1 / 2))) = rmax r * (1 / (1 / 2)) := by
  have h2 : (0 : ℝ) ≤ 1 / (1 / 2) := by norm_num
  apply le_antisymm
  · exact Finset.sup'_le _ _ fun j _ => mul_le_mul_of_nonneg_right (le_rmax r j) h2
  · obtain ⟨j, hj⟩ := rmax_attained r
    rw [hj]
    exact le_rmax (fun j => r j * (1 / (1 / 2))) j

private theorem vhalf_coe (r : Fin 1024 → ℝ) :
    vhalf (fun j => (r j : EReal)) = fun j => ((r j * (1 / (1 / 2)) : ℝ) : EReal) := by
  funext j
  rw [vhalf, half_eq, Ideal.div_coe (by norm_num), ← EReal.coe_mul]

private theorem re1_vhalf (r : Fin 1024 → ℝ) (j : Fin 1024) :
    re1 (fun j => r j * (1 / (1 / 2))) j = re1 r j * re1 r j := by
  rw [re1, re1, rmax_mul_two, ← Real.exp_add]
  congr 1
  ring

private theorem adjK_coe (r : Fin 1024 → ℝ) (j : Fin 1024) :
    adjK (fun j => (r j : EReal)) j
      = ((re1 r j * re1 r j * (1 / ∑ j', re1 r j' * re1 r j') : ℝ) : EReal) := by
  have hS := sum_re1_sq_pos r
  have hsum : (∑ j', e1 (fun j => (r j : EReal)) j' * e1 (fun j => (r j : EReal)) j')
      = ((∑ j', re1 r j' * re1 r j' : ℝ) : EReal) := by
    rw [coe_finset_sum]
    exact Finset.sum_congr rfl fun j' _ => by rw [e1_coe, EReal.coe_mul]
  rw [adjK, hsum, e1_coe, Ideal.div_coe hS.ne', ← EReal.coe_mul, ← EReal.coe_mul]

private theorem adjR_coe (r : Fin 1024 → ℝ) (j : Fin 1024) :
    adjR (fun j => (r j : EReal)) j
      = ((re1 r j * re1 r j * (1 / ∑ j', re1 r j' * re1 r j') : ℝ) : EReal) := by
  have hS := sum_re1_sq_pos r
  have hsum : (∑ j', re1 (fun j => r j * (1 / (1 / 2))) j') = ∑ j', re1 r j' * re1 r j' :=
    Finset.sum_congr rfl fun j' _ => re1_vhalf r j'
  rw [adjR, vhalf_coe, e1_coe, s1_coe, hsum, re1_vhalf, Ideal.div_coe hS.ne', ← EReal.coe_mul]

/-! ## The five statements -/

/-- A distance row is real-valued when the token's features and the codebook are. -/
theorem nsdRow_real (x : Fin 512 → EReal) (E : Fin 1024 → Fin 512 → EReal) (hx : ∀ k, ∃ r : ℝ, x k = (r : EReal))
    (hE : ∀ j k, ∃ r : ℝ, E j k = (r : EReal)) (j : Fin 1024) : ∃ r : ℝ, nsdRow x E (sqe E) j = (r : EReal) := by
  choose a ha using hx
  choose b hb using hE
  have h1 : sqe E j = ((∑ k, b j k * b j k : ℝ) : EReal) := by
    rw [sqe, coe_finset_sum]
    exact Finset.sum_congr rfl fun k _ => by rw [hb, EReal.coe_mul]
  have h2 : (∑ k, x k * x k) = ((∑ k, a k * a k : ℝ) : EReal) := by
    rw [coe_finset_sum]
    exact Finset.sum_congr rfl fun k _ => by rw [ha, EReal.coe_mul]
  have h3 : (∑ k, x k * E j k) = ((∑ k, a k * b j k : ℝ) : EReal) := by
    rw [coe_finset_sum]
    exact Finset.sum_congr rfl fun k _ => by rw [ha, hb, EReal.coe_mul]
  have h0 : ¬ max ((∑ k, b j k * b j k) + (∑ k, a k * a k) - 2 * ∑ k, a k * b j k) 0 < 0 :=
    not_lt.2 (le_max_right _ _)
  refine ⟨-Real.sqrt (max ((∑ k, b j k * b j k) + (∑ k, a k * a k) - 2 * ∑ k, a k * b j k) 0), ?_⟩
  rw [nsdRow, h1, h2, h3, two_eq, ← EReal.coe_mul, ← EReal.coe_add, ← EReal.coe_sub, ← EReal.coe_zero, ← coe_max,
    Ideal.sqrt_coe, if_neg h0, ← EReal.coe_neg]

/-- log (e1 + ε s1) - log s1 = log (e1 / s1 + ε) on a real-valued row. -/
theorem logK_eq_logR (v : Fin 1024 → EReal) (hv : ∀ j, ∃ r : ℝ, v j = (r : EReal)) (j : Fin 1024) : logK v j = logR v j := by
  obtain ⟨r, rfl⟩ := exists_real_row v hv
  obtain ⟨e, he, hε⟩ := eps10_real
  have hS := sum_re1_pos r
  have h1 : 0 < re1 r j + e * ∑ j, re1 r j := add_pos_of_pos_of_nonneg (re1_pos r j) (mul_nonneg he hS.le)
  rw [logK_coe r e he hε, logR_coe r e he hε, ← Real.log_div h1.ne' hS.ne']
  congr 2
  field_simp

/-- e1² / Σ e1² is the soft assignment of v / 0.5 on a real-valued row. -/
theorem adjK_eq_adjR (v : Fin 1024 → EReal) (hv : ∀ j, ∃ r : ℝ, v j = (r : EReal)) (j : Fin 1024) : adjK v j = adjR v j := by
  obtain ⟨r, rfl⟩ := exists_real_row v hv
  rw [adjK_coe, adjR_coe]

theorem logK_real (v : Fin 1024 → EReal) (hv : ∀ j, ∃ r : ℝ, v j = (r : EReal)) (j : Fin 1024) : ∃ r : ℝ, logK v j = (r : EReal) := by
  obtain ⟨r, rfl⟩ := exists_real_row v hv
  obtain ⟨e, he, hε⟩ := eps10_real
  exact ⟨_, logK_coe r e he hε j⟩

theorem adjK_real (v : Fin 1024 → EReal) (hv : ∀ j, ∃ r : ℝ, v j = (r : EReal)) (j : Fin 1024) : ∃ r : ℝ, adjK v j = (r : EReal) := by
  obtain ⟨r, rfl⟩ := exists_real_row v hv
  exact ⟨_, adjK_coe r j⟩

end Cert.Spec

end
-- ==== Proof.BridgeLoss.lean ====
/-
  One direction's loss from real-valued scores: the kernel's shift is the reference's, and the two
  normalisations of the summed logarithms agree.
-/
import proofs.«400058_j87668872446318_3_alg».proof.Proof.Spec

noncomputable section

open scoped BigOperators

namespace Cert.Spec

open Idealize.ShloMosaic

/-! Auxiliary facts, kept in their own namespace. -/
namespace Loss

/-- A finite sum of coerced reals is the coercion of the real sum. -/
theorem coe_sum {ι : Type} (s : Finset ι) (f : ι → ℝ) :
    ∑ i ∈ s, (f i : EReal) = ((∑ i ∈ s, f i : ℝ) : EReal) := by
  classical
  refine Finset.induction_on s (by simp) ?_
  intro a s ha ih
  rw [Finset.sum_insert ha, Finset.sum_insert ha, ih, EReal.coe_add]

/-- The fold of min from the top element is the greatest lower bound. -/
theorem le_emin_iff {ι : Type} [Fintype ι] (f : ι → EReal) (a : EReal) : a ≤ emin f ↔ ∀ i, a ≤ f i := by
  simp [emin, Finset.le_fold_min]

/-- The fold of max from the bottom element is the least upper bound. -/
theorem emax_le_iff {ι : Type} [Fintype ι] (f : ι → EReal) (a : EReal) : emax f ≤ a ↔ ∀ i, f i ≤ a := by
  simp [emax, Finset.fold_max_le]

theorem emin_le {ι : Type} [Fintype ι] (f : ι → EReal) (i : ι) : emin f ≤ f i := (le_emin_iff f _).1 le_rfl i

theorem le_emax {ι : Type} [Fintype ι] (f : ι → EReal) (i : ι) : f i ≤ emax f := (emax_le_iff f _).1 le_rfl i

/-- The maximum of a nonempty finite family of reals is a real. -/
theorem emax_real {ι : Type} [Fintype ι] [Nonempty ι] (g : ι → ℝ) :
    ∃ r : ℝ, emax (fun i => (g i : EReal)) = (r : EReal) := by
  have h1 : emax (fun i => (g i : EReal)) < ⊤ := by
    rw [emax, Finset.fold_max_lt]
    exact ⟨bot_lt_top, fun x _ => EReal.coe_lt_top _⟩
  have h2 : ⊥ < emax (fun i => (g i : EReal)) := by
    rw [emax, Finset.lt_fold_max]
    exact Or.inr ⟨Classical.arbitrary ι, Finset.mem_univ _, EReal.bot_lt_coe _⟩
  exact ⟨_, (EReal.coe_toReal h1.ne h2.ne').symm⟩

/-! The constants' values. -/

theorem half_val : half = ((1 / 2 : ℝ) : EReal) := by
  simp [half, Ideal.ofBits, Ideal.ieee, -EReal.coe_mul]; norm_num

theorem c16384_val : c16384 = ((16384 : ℝ) : EReal) := by
  simp [c16384, Ideal.ofBits, Ideal.ieee, -EReal.coe_mul]; norm_num

theorem c32768_val : c32768 = ((32768 : ℝ) : EReal) := by
  simp [c32768, Ideal.ofBits, Ideal.ieee, -EReal.coe_mul]; norm_num

theorem eps5_eq : eps5 = (((10995116 : ℝ) * (2 : ℝ) ^ (-40 : Int) : ℝ) : EReal) := by
  simp [eps5, Ideal.ofBits, Ideal.ieee, -EReal.coe_mul]

theorem eps5_val : ∃ e : ℝ, 0 ≤ e ∧ eps5 = (e : EReal) :=
  ⟨_, by positivity, eps5_eq⟩

/-- On real scores and a real shift the logarithm of the ratio is a real number. -/
theorem log_ratio_real (s : Fin 32 → Fin 512 → Fin 512 → ℝ) (c : ℝ) (t : Fin 32) (i : Fin 512) :
    ∃ l : ℝ, Ideal.log (ratio (fun t i j => (s t i j : EReal)) (c : EReal) t i) = (l : EReal) := by
  obtain ⟨e, he0, he⟩ := eps5_val
  have hden : (∑ j, Ideal.exp ((s t i j : EReal) + (c : EReal))) + eps5
      = (((∑ j, Real.exp (s t i j + c)) + e : ℝ) : EReal) := by
    rw [he, EReal.coe_add, ← coe_sum]
    congr 1
  have hpos : 0 < (∑ j, Real.exp (s t i j + c)) + e := by
    have : 0 < ∑ j, Real.exp (s t i j + c) := Finset.sum_pos (fun j _ => Real.exp_pos _) Finset.univ_nonempty
    linarith
  have hr : ratio (fun t i j => (s t i j : EReal)) (c : EReal) t i
      = ((Real.exp (s t i i + c) * (1 / ((∑ j, Real.exp (s t i j + c)) + e)) : ℝ) : EReal) := by
    show Ideal.div (Ideal.exp ((s t i i : EReal) + (c : EReal))) ((∑ j, Ideal.exp ((s t i j : EReal) + (c : EReal))) + eps5) = _
    rw [hden, Ideal.div_coe hpos.ne', ← EReal.coe_add, Ideal.exp_coe, ← EReal.coe_mul]
  have hp : 0 < Real.exp (s t i i + c) * (1 / ((∑ j, Real.exp (s t i j + c)) + e)) := by positivity
  rw [hr, Ideal.log_coe, if_neg (not_le.2 hp)]
  exact ⟨_, rfl⟩

end Loss

open Loss

/-- A score is real when the assignment and log arrays are. -/
theorem scode_real (A L : Fin 32 → Fin 512 → Fin 1024 → EReal) (hA : ∀ t i m, ∃ r : ℝ, A t i m = (r : EReal))
    (hL : ∀ t i m, ∃ r : ℝ, L t i m = (r : EReal)) (t : Fin 32) (i j : Fin 512) : ∃ r : ℝ, scode A L t i j = (r : EReal) := by
  choose a ha using hA
  choose l hl using hL
  refine ⟨∑ m, a t i m * l t j m, ?_⟩
  have hsum := coe_sum Finset.univ (fun m => a t i m * l t j m)
  rw [← hsum]
  unfold scode
  refine Finset.sum_congr rfl fun m _ => ?_
  rw [ha, hl, EReal.coe_mul]

/-- Minus the minimum of the per-time minima is the maximum of the negated scores (order theory; no finiteness). -/
theorem cK_eq_cR (S : Fin 32 → Fin 512 → Fin 512 → EReal) : cK S = cR S := by
  apply le_antisymm
  · rw [cK, EReal.neg_le, le_emin_iff]
    intro q
    rw [tminK, le_emin_iff]
    intro p
    show -cR S ≤ S q.1 p.2.1 p.2.2
    rw [EReal.neg_le]
    exact le_emax (fun p : Fin 32 × Fin 512 × Fin 512 => -S p.1 p.2.1 p.2.2) (q.1, p.2.1, p.2.2)
  · rw [cR, emax_le_iff]
    intro p
    show -S p.1 p.2.1 p.2.2 ≤ cK S
    rw [cK, EReal.neg_le_neg_iff]
    refine le_trans (emin_le _ (p.1, 0, 0)) ?_
    exact emin_le (fun r : Fin 1 × Fin 512 × Fin 512 => S p.1 r.2.1 r.2.2) (0, p.2.1, p.2.2)

namespace Loss

/-- One direction on real scores: the kernel's sum and the reference's negated mean, from one real number. -/
theorem dir_real (S : Fin 32 → Fin 512 → Fin 512 → EReal) (h : ∀ t i j, ∃ r : ℝ, S t i j = (r : EReal)) :
    ∃ L : ℝ, sumK S = ((-L : ℝ) : EReal) ∧ resR S = ((-(L * (1 / 16384)) : ℝ) : EReal) := by
  choose s hs using h
  have hS : S = fun t i j => (s t i j : EReal) := by funext t i j; exact hs t i j
  subst hS
  obtain ⟨c, hc⟩ := emax_real (fun p : Fin 32 × Fin 512 × Fin 512 => -s p.1 p.2.1 p.2.2)
  have hcR : cR (fun t i j => (s t i j : EReal)) = (c : EReal) := by
    rw [← hc]
    show emax (fun p : Fin 32 × Fin 512 × Fin 512 => -(s p.1 p.2.1 p.2.2 : EReal)) = _
    congr 1
  choose l hl using log_ratio_real s c
  refine ⟨∑ t, ∑ i, l t i, ?_, ?_⟩
  · have e1 : ∀ t i, (0 : EReal) - (l t i : EReal) = ((-l t i : ℝ) : EReal) := fun t i => by
      rw [sub_eq_add_neg, zero_add, EReal.coe_neg]
    show ∑ t, ∑ i, (0 - Ideal.log (ratio (fun t i j => (s t i j : EReal)) (cK (fun t i j => (s t i j : EReal))) t i)) = _
    rw [cK_eq_cR, hcR]
    simp only [hl, e1, coe_sum, Finset.sum_neg_distrib]
  · show -Ideal.div (∑ t, ∑ i, Ideal.log (ratio (fun t i j => (s t i j : EReal)) (cR (fun t i j => (s t i j : EReal))) t i)) c16384 = _
    rw [hcR]
    simp only [hl, coe_sum]
    rw [c16384_val, Ideal.div_coe (by norm_num), ← EReal.coe_mul, ← EReal.coe_neg]

end Loss

/-- (Σ -log r₁ + Σ -log r₂) / 32768 = 0.5 · (-(Σ log r₁ / 16384) + -(Σ log r₂ / 16384)) on real-valued scores. -/
theorem loss_bridge (S1 S2 : Fin 32 → Fin 512 → Fin 512 → EReal) (h1 : ∀ t i j, ∃ r : ℝ, S1 t i j = (r : EReal))
    (h2 : ∀ t i j, ∃ r : ℝ, S2 t i j = (r : EReal)) :
    Ideal.div (sumK S1 + sumK S2) c32768 = half * (resR S1 + resR S2) := by
  obtain ⟨L1, a1, b1⟩ := dir_real S1 h1
  obtain ⟨L2, a2, b2⟩ := dir_real S2 h2
  rw [a1, a2, b1, b2, c32768_val, half_val, Ideal.div_coe (by norm_num), ← EReal.coe_add, ← EReal.coe_add,
    ← EReal.coe_mul, ← EReal.coe_mul]
  congr 1
  ring

end Cert.Spec

end
-- ==== Proof.Bridge.lean ====
/-
  The kernel's result and the reference's are one extended real on real-valued inputs.
-/
import proofs.«400058_j87668872446318_3_alg».proof.Proof.Spec
import proofs.«400058_j87668872446318_3_alg».proof.Proof.BridgeRow
import proofs.«400058_j87668872446318_3_alg».proof.Proof.BridgeLoss

noncomputable section

open scoped BigOperators

namespace Cert.Spec

open Idealize.ShloMosaic

/-! Auxiliary facts, kept in their own namespace. -/
namespace Bridge

/-- Every distance row of a real-valued modality against a real-valued codebook is real-valued. -/
theorem nsd_real (X : Fin 512 → Fin 32 → Fin 512 → EReal) (E : Fin 1024 → Fin 512 → EReal)
    (hX : ∀ b t k, ∃ r : ℝ, X b t k = (r : EReal)) (hE : ∀ j k, ∃ r : ℝ, E j k = (r : EReal))
    (b : Fin 512) (t : Fin 32) (j : Fin 1024) : ∃ r : ℝ, nsd X E (sqe E) b t j = (r : EReal) :=
  nsdRow_real (X b t) E (hX b t) hE j

/-- The reference's assignment array is the kernel's. -/
theorem adjArrR_eq (X : Fin 512 → Fin 32 → Fin 512 → EReal) (E : Fin 1024 → Fin 512 → EReal)
    (hX : ∀ b t k, ∃ r : ℝ, X b t k = (r : EReal)) (hE : ∀ j k, ∃ r : ℝ, E j k = (r : EReal)) :
    adjArrR E X = adjArrK E X := by
  funext t b m
  exact (adjK_eq_adjR _ (nsd_real X E hX hE b t) m).symm

/-- The reference's log array is the kernel's. -/
theorem logArrR_eq (X : Fin 512 → Fin 32 → Fin 512 → EReal) (E : Fin 1024 → Fin 512 → EReal)
    (hX : ∀ b t k, ∃ r : ℝ, X b t k = (r : EReal)) (hE : ∀ j k, ∃ r : ℝ, E j k = (r : EReal)) :
    logArrR E X = logArrK E X := by
  funext t b m
  exact (logK_eq_logR _ (nsd_real X E hX hE b t) m).symm

/-- The kernel's scores are real. -/
theorem scodeK_real (X Y : Fin 512 → Fin 32 → Fin 512 → EReal) (E : Fin 1024 → Fin 512 → EReal)
    (hX : ∀ b t k, ∃ r : ℝ, X b t k = (r : EReal)) (hY : ∀ b t k, ∃ r : ℝ, Y b t k = (r : EReal))
    (hE : ∀ j k, ∃ r : ℝ, E j k = (r : EReal)) (t : Fin 32) (i j : Fin 512) :
    ∃ r : ℝ, scode (adjArrK E X) (logArrK E Y) t i j = (r : EReal) :=
  scode_real _ _ (fun t b m => adjK_real _ (nsd_real X E hX hE b t) m)
    (fun t b m => logK_real _ (nsd_real Y E hY hE b t) m) t i j

end Bridge

open Bridge

theorem lossK_eq_lossR (Xa Xv : Fin 512 → Fin 32 → Fin 512 → EReal) (E : Fin 1024 → Fin 512 → EReal)
    (hXa : ∀ b t k, ∃ r : ℝ, Xa b t k = (r : EReal)) (hXv : ∀ b t k, ∃ r : ℝ, Xv b t k = (r : EReal))
    (hE : ∀ j k, ∃ r : ℝ, E j k = (r : EReal)) : lossK Xa Xv E = lossR Xa Xv E := by
  unfold lossK lossR
  rw [adjArrR_eq Xa E hXa hE, adjArrR_eq Xv E hXv hE, logArrR_eq Xa E hXa hE, logArrR_eq Xv E hXv hE]
  exact loss_bridge _ _ (scodeK_real Xa Xv E hXa hXv hE) (scodeK_real Xv Xa E hXv hXa hE)

end Cert.Spec

end
-- ==== Proof.Finite.lean ====
/-
  The precondition "every float input is finite", read: each of the three argument arrays is real-valued.
-/
import proofs.«400058_j87668872446318_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

variable [Cert.Pre_finite_inputs.Facts]

/-- The pattern of +∞ denotes the top element. -/
private theorem inf_eq_top : Ideal.ofBits .f32 0x7F800000#32 = (⊤ : EReal) := by
  simp [Ideal.ofBits, Ideal.ieee]

/-- An extended real whose absolute value is below +∞ is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- The printed element test `|x| < +∞`, read. -/
private theorem real_of_elt (x : EReal)
    (h : Ideal.cmp .olt (max x (-x)) (Ideal.ofBits .f32 0x7F800000#32) = 1#1) : ∃ r : ℝ, x = (r : EReal) := by
  rw [inf_eq_top] at h
  apply real_of_abs_lt_top
  by_contra hn
  simp [Ideal.cmp, hn] at h

private instance : Subsingleton Cert.Pre_finite_inputs.S_.Idx := ⟨fun a b => funext fun d => d.elim0⟩

/-- Where the printed predicate is all ones, every entry of every argument array is a real number. -/
theorem real_of_fn (a0 a1 : FVec Ideal Cert.Pre_finite_inputs.S512x32x512 .f32) (a2 : FVec Ideal Cert.Pre_finite_inputs.S1024x512 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_elt (a0 i) (Host.reduce_andi_all _ _ _ _ ix0 h0' i),
    fun i => real_of_elt (a1 i) (Host.reduce_andi_all _ _ _ _ ix0 h1 i),
    fun i => real_of_elt (a2 i) (Host.reduce_andi_all _ _ _ _ ix0 h2 i)⟩

end Cert.Finite

end
-- ==== Proof.KHost.lean ====
/-
  The host operations of the kernel's program, read as values: the squared norms of the code vectors that every
  distance region is given, the global shift of each direction (minus the minimum of the per-time minima), each
  direction's sum over the 32 times, and the closing sum and division.
-/
import proofs.«400058_j87668872446318_3_alg».proof.Proof.Gen.KernelIdeal.Frame
import proofs.«400058_j87668872446318_3_alg».proof.Proof.Spec
import Idealize.ShloMosaic.Lib.StableHlo.Run
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

open scoped BigOperators

namespace Cert.KernelIdeal.KHost

open Idealize.ShloMosaic Idealize.ShloMosaic.TcCoe Idealize.ShloMosaic.ValueIdx Idealize.SL.Sem Idealize.ShloMosaic.StableHlo
open Cert.KernelIdeal Cert.KernelIdeal.Gen

/-! ## Folds and sums over an index set, by coordinates -/

/-- A fold over a whole finite type is unchanged by a bijection of the type. -/
theorem fold_univ_equiv {α β γ : Type} [Fintype α] [Fintype β] (op : γ → γ → γ) [Std.Commutative op] [Std.Associative op]
    (e : α ≃ β) (b : γ) (f : β → γ) : Finset.univ.fold op b (fun a => f (e a)) = Finset.univ.fold op b f := by
  rw [← Finset.map_univ_equiv e, Finset.fold_map]
  rfl

/-- A rank-3 index set is the product of its coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- The minimum over a rank-3 index set is the minimum over the triples of coordinates. -/
theorem emin_idx3 {a b c : Nat} (f : (⟨3, ![a, b, c]⟩ : Shape).Idx → EReal) :
    Finset.univ.fold min ⊤ f = Spec.emin fun p : Fin a × Fin b × Fin c => f (ix3 p.1 p.2.1 p.2.2) := by
  unfold Spec.emin
  exact (fold_univ_equiv min (idxEquiv3 (a := a) (b := b) (c := c)).symm ⊤ f).symm

/-- The sum over a `[n, 1, 1]` index set is the sum over its first coordinate. -/
theorem sum_idx3_unit {n : Nat} (f : (⟨3, ![n, 1, 1]⟩ : Shape).Idx → EReal) :
    ∑ i, f i = ∑ t : Fin n, f (ix3 t (0 : Fin 1) (0 : Fin 1)) := by
  rw [← Equiv.sum_comp (idxEquiv3 (a := n) (b := 1) (c := 1)).symm f, Fintype.sum_prod_type]
  refine Finset.sum_congr rfl fun t _ => ?_
  rw [Fintype.sum_prod_type, Fin.sum_univ_one, Fin.sum_univ_one]
  rfl

variable (m : (ℓ : Loc nD τ sig) → Buf (Elt Ideal) ℓ) (ρ : Dev nD → PrngReg)

/-! ## Before the first region: the codebook in the kernel's operand format, and its squared norms -/

/-- The codebook handed to the distance regions is the codebook (a change of float format is the identity). -/
theorem v0_eq (c : Dev nD) : V1 m ρ c main_v0 = m ((c : Thread nD τ).loc main_arg2) := by
  show StableHlo.after hostOps0 (W0 m ρ c) (Proc.devRef .tc main_v0) = _
  after_results
  rfl

/-- The row of squared norms handed to the distance regions. -/
theorem v4_eq (c : Dev nD) (j : Fin 1024) :
    V1 m ρ c main_v4 (ix2 (0 : Fin 1) j) = Spec.sqe (fun j' k => m ((c : Thread nD τ).loc main_arg2) (ix2 j' k)) j := by
  have e : (V1 m ρ c main_v4 : FVec Ideal S1x1024 .f32)
      = (transpose S1x1024 [1, 0] (broadcastInDim S1024x1 ![0] bcast_S1024_S1024x1_0
          (Host.reduceAdd (F := Ideal) (mulf (F := Ideal) (φ := .f32) (m ((c : Thread nD τ).loc main_arg2)) (m ((c : Thread nD τ).loc main_arg2)))
            (constant (F := Ideal) S_ .f32 0x00000000#32) reducesTo_S1024x512_S1024_d1 h_S_)) transposes_S1024x1_S1x1024_1_0
          : FVec Ideal S1x1024 .f32) := by
    show StableHlo.after hostOps0 (W0 m ρ c) (Proc.devRef .tc main_v4) = _
    after_results <;> rfl
  rw [e]
  generalize m ((c : Thread nD τ).loc main_arg2) = y
  rw [transpose_apply [1, 0] _ transposes_S1024x1_S1x1024_1_0 (ix2 (0 : Fin 1) j) (ix2 j (0 : Fin 1))
    (fun b => by match b with | ⟨0, _⟩ => rfl | ⟨1, _⟩ => rfl)]
  rw [broadcastInDim_apply ![0] bcast_S1024_S1024x1_0 _ (ix2 j (0 : Fin 1)) (ix1 j)
    (fun a => by match a with | ⟨0, _⟩ => show j.val = if (1024 : Nat) = 1 then 0 else j.val; rw [if_neg (by decide)])]
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  unfold Spec.sqe
  refine Finset.sum_congr rfl fun k _ => ?_
  have hk : (Shape.Reduces.lift (s := S1024x512) (t := S1024) (a := 1) (by decide) (ix1 j) k) = ix2 j k :=
    funext fun a => Fin.ext (by match a with | ⟨0, _⟩ => rfl | ⟨1, _⟩ => rfl)
  rw [hk]
  rfl

/-! ## Between the regions: the shift, and a direction's sum -/

/-- The +infinity word. -/
theorem ofBits_pinf : Ideal.ofBits .f32 0x7F800000#32 = ⊤ := by simp [Ideal.ofBits, Ideal.ieee]

/-- The host's minimum over all of a `[32, 1, 1]` array, negated and re-laid as `[1, 1]`, at its one index. -/
theorem neg_min_read (x : FVec Ideal S32x1x1 .f32) :
    (shapeCast S1x1 (Host.negf (F := Ideal) (Host.reduce (FloatOps.minimumf (F := Ideal) (φ := .f32)) x
        (constant (F := Ideal) S_ .f32 0x7F800000#32) reducesTo_S32x1x1_S_d0_1_2 h_S_)) shapeCasts_S_S1x1
      : FVec Ideal S1x1 .f32) (ix2 (0 : Fin 1) (0 : Fin 1))
      = -Spec.emin fun q : Fin 32 × Fin 1 × Fin 1 => x (ix3 q.1 q.2.1 q.2.2) := by
  rw [shapeCast_apply _ shapeCasts_S_S1x1 (ix2 (0 : Fin 1) (0 : Fin 1)) ix0 (by rfl)]
  show -(Host.reduce (FloatOps.minimumf (F := Ideal) (φ := .f32)) x (constant (F := Ideal) S_ .f32 0x7F800000#32)
      reducesTo_S32x1x1_S_d0_1_2 h_S_ ix0) = _
  rw [Host.reduce_eq_fold]
  rw [Finset.filter_true_of_mem fun i _ => funext fun d => d.elim0]
  show -(Finset.univ.fold min (Ideal.ofBits .f32 0x7F800000#32) x) = _
  rw [ofBits_pinf, emin_idx3]

/-- The host's sum over all of a `[32, 1, 1]` array from zero, at its one index. -/
theorem sum_read (x : FVec Ideal S32x1x1 .f32) :
    Host.reduceAdd (F := Ideal) x (constant (F := Ideal) S_ .f32 0x00000000#32) reducesTo_S32x1x1_S_d0_1_2 h_S_ ix0
      = ∑ t : Fin 32, x (ix3 t (0 : Fin 1) (0 : Fin 1)) := by
  simp only [Host.reduceAdd, Ideal.hostReduceAdd_def]
  rw [Ideal.hostReduceAdd_total reducesTo_S32x1x1_S_d0_1_2 (fun b => b.elim0)]
  show Ideal.ofBits .f32 0x00000000#32 + _ = _
  rw [Ideal.ofBits_zero_f32, zero_add, sum_idx3_unit]

end Cert.KernelIdeal.KHost

end
-- ==== Proof.KDist0.lean ====
/-
  The distance-and-softmax region of the audio modality: after its 32 grid points (16 batch rows each) the two
  output arrays hold, time major, the temperature-1/2 assignment and the clamped logarithm of every token's
  row of negated distances, as functions of the three arrays the region reads.

  A grid point loads a `[16, 32, 512]` block of the modality (16 batch rows, all 32 times), the whole codebook and
  the row of its squared norms, views the block as 512 token rows (row `bb * 32 + tt` is batch row `bb`, time `tt`),
  and forms per token the row `v` of negated distances, `e = exp (v - max v)`, then `e² / Σ e²` and
  `log (e + ε Σ e) - log Σ e`; both results are re-laid `[512, 1024] → [16, 32, 1024] → [32, 16, 1024]` and stored, and
  point `p`'s stores are block `p` along the batch axis of the time-major outputs.
-/
import proofs.«400058_j87668872446318_3_alg».proof.Proof.Gen.KernelIdeal.Frame
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KDist0

open Idealize.ShloMosaic Idealize.ShloMosaic.TcCoe Idealize.ShloMosaic.ValueIdx Idealize.SL.Sem
open Cert.KernelIdeal Cert.KernelIdeal.Gen

/-! ## Layout operations and reductions of this kernel, read at an index -/

/-- Row `bb * 32 + tt` of a `[512, ·]` view of a `[16, 32, ·]` block: batch row `bb`, time `tt`. -/
def tok (bb : Fin 16) (tt : Fin 32) : Fin 512 := ⟨bb.val * 32 + tt.val, by omega⟩

theorem tok_val (bb : Fin 16) (tt : Fin 32) : (tok bb tt).val = bb.val * 32 + tt.val := rfl

section Layout
variable {α : Type}

/-- A `[16, 32, c]` block viewed `[512, c]` reads, at row `bb * 32 + tt`, the block at `(bb, tt)`. -/
theorem shapeCast_tok_apply {c : ℕ} (x : (⟨3, ![16, 32, c]⟩ : Shape).Idx → α)
    (h : (⟨3, ![16, 32, c]⟩ : Shape).ShapeCasts ⟨2, ![512, c]⟩) (bb : Fin 16) (tt : Fin 32) (k : Fin c) :
    shapeCast ⟨2, ![512, c]⟩ x h (ix2 (tok bb tt) k) = x (ix3 bb tt k) :=
  shapeCast_apply x h _ _ (by
    rw [Shape.rowMajor_val_three, Shape.rowMajor_val_two]
    rfl)

/-- A `[512, c]` array viewed `[16, 32, c]` reads, at `(bb, tt)`, row `bb * 32 + tt`. -/
theorem shapeCast_untok_apply {c : ℕ} (x : (⟨2, ![512, c]⟩ : Shape).Idx → α)
    (h : (⟨2, ![512, c]⟩ : Shape).ShapeCasts ⟨3, ![16, 32, c]⟩) (bb : Fin 16) (tt : Fin 32) (k : Fin c) :
    shapeCast ⟨3, ![16, 32, c]⟩ x h (ix3 bb tt k) = x (ix2 (tok bb tt) k) :=
  shapeCast_apply x h _ _ (by
    rw [Shape.rowMajor_val_three, Shape.rowMajor_val_two]
    rfl)

/-- The first two axes swapped: at `(j, i, k)` the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- A vector `[a]` made a column `[a, 1]` and spread over `b` columns reads its entry `r` along row `r`. -/
theorem column_spread_apply {a b : ℕ} (hb : b ≠ 1) (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (r : Fin a) (j : Fin b) :
    broadcastTo ⟨2, ![a, b]⟩ (shapeCast ⟨2, ![a, 1]⟩ v h1) h2 (ix2 r j) = v (ix1 r) := by
  refine (broadcastTo_apply _ h2 (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply v h1 _ _ (by
      rw [Shape.rowMajor_val_one, Shape.rowMajor_val_two]
      show r.val = r.val * 1 + 0
      omega)

/-- A column `[a, 1]` spread over `b` columns reads its entry `(r, 0)` along row `r`. -/
theorem column_bcast_apply {a b : ℕ} (w : (⟨2, ![a, 1]⟩ : Shape).Idx → α)
    (h2 : (⟨2, ![a, 1]⟩ : Shape).Broadcasts ⟨2, ![a, b]⟩) (r : Fin a) (j : Fin b) :
    broadcastTo ⟨2, ![a, b]⟩ w h2 (ix2 r j) = w (ix2 r (0 : Fin 1)) := by
  refine broadcastTo_apply _ h2 (ix2 r j) (ix2 r (0 : Fin 1)) fun ax => ?_
  match ax with
  | ⟨0, _⟩ =>
    show r.val = if a = 1 then 0 else r.val
    split
    · have := r.isLt; omega
    · rfl
  | ⟨1, _⟩ => rfl

/-- A vector `[a]` made a column `[a, 1]` reads its entry `r` at `(r, 0)`. -/
theorem column_apply {a : ℕ} (v : (⟨1, ![a]⟩ : Shape).Idx → α)
    (h1 : (⟨1, ![a]⟩ : Shape).ShapeCasts ⟨2, ![a, 1]⟩) (r : Fin a) (u : Fin 1) :
    shapeCast ⟨2, ![a, 1]⟩ v h1 (ix2 r u) = v (ix1 r) :=
  shapeCast_apply v h1 _ _ (by
    rw [Shape.rowMajor_val_one, Shape.rowMajor_val_two]
    show r.val = r.val * 1 + u.val
    omega)

end Layout

section Reductions

/-- The index a reduction over the columns inserts: column `k` of row `r`. -/
theorem lift_row {a b : ℕ} (h : (⟨2, ![a, b]⟩ : Shape).Reduces [1] ⟨1, ![a]⟩) (r : Fin a) (k : Fin b) :
    h.lift (ix1 r) k = ix2 r k :=
  funext fun d => Fin.ext (by match d with | ⟨0, _⟩ => rfl | ⟨1, _⟩ => rfl)

/-- A sum over the columns, from the zero word, reads at row `r` that row's sum. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_row h r k))

/-- The word of negative infinity is the bottom element. -/
theorem ofBits_neg_inf : Ideal.ofBits .f32 0xFF800000#32 = ⊥ := by simp [Ideal.ofBits, Ideal.ieee]

/-- A maximum over the columns, from the word of negative infinity, reads at row `r` that row's maximum from the
    bottom element. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r) = Spec.emax fun k : Fin b => src (ix2 r k) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [ofBits_neg_inf]
  unfold Spec.emax
  exact congrArg (fun f => (Finset.univ : Finset (Fin b)).fold max ⊥ f) (funext fun k => congrArg src (lift_row h r k))

end Reductions

section Matmul

theorem dist_lhs_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem dist_lhs_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem dist_rhs_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem dist_rhs_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The product of the token rows with the code vectors, into a zero accumulator: at `(r, j)` the inner product of
    row `r` of the left operand with row `j` of the right. -/
theorem inner_apply (l : FVec Ideal S512x512 .bf16) (e : FVec Ideal S1024x512 .bf16) (r : Fin 512) (j : Fin 1024) :
    matmul dot_S512x512_S1024x512_S512x1024_1_1_0_0_n_n none l e (constant (F := Ideal) S512x1024 .f32 0x00000000#32) (ix2 r j)
      = ∑ k : Fin 512, l (ix2 r k) * e (ix2 j k) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 r j) ((ValueIdx.contrEquiv1 dot_S512x512_S1024x512_S512x1024_1_1_0_0_n_n 512 rfl rfl).symm k) = ix2 r k := funext fun a => Fin.ext (by
    match a with
    | ⟨0, _⟩ => exact dist_lhs_0 _ _
    | ⟨1, _⟩ => exact (dist_lhs_1 _ _).trans hk)
  have er : dot_S512x512_S1024x512_S512x1024_1_1_0_0_n_n.rhsIdx (ix2 r j) ((ValueIdx.contrEquiv1 dot_S512x512_S1024x512_S512x1024_1_1_0_0_n_n 512 rfl rfl).symm k) = ix2 j k := funext fun a => Fin.ext (by
    match a with
    | ⟨0, _⟩ => exact dist_rhs_0 _ _
    | ⟨1, _⟩ => exact (dist_rhs_1 _ _).trans hk)
  rw [el, er]

end Matmul

section Pointwise
variable {s : Shape} {φ : FTy}

theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
theorem scalar_ofBits (b : BitVec φ.bits) : Scalar.ofBits (F := Ideal) φ b = Ideal.ofBits φ b := rfl

end Pointwise

section Rows

/-- A row sum made a column and spread back over the columns: along row `r` the row's sum. -/
theorem rowSum_spread_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (h1 : (⟨1, ![a]⟩ : Shape).ShapeCasts ⟨2, ![a, 1]⟩) (r : Fin a) (u : Fin 1) :
    shapeCast ⟨2, ![a, 1]⟩ (multiReduction .add [1] ⟨1, ![a]⟩ src 0x00000000#32 h hφ hacc) h1 (ix2 r u)
      = ∑ k : Fin b, src (ix2 r k) :=
  (column_apply _ h1 r u).trans (rowSum_apply src h hφ hacc r)

/-- `exp (w - max w)` along the rows of a `[512, 1024]` array: at `(r, j)` that of row `r`. -/
theorem softmax_num_apply (w : FVec Ideal S512x1024 .f32)
    (h : S512x1024.Reduces [1] S512) (hφ : FKind.Formats .f32) (hacc : (0xFF800000#32 : BitVec 32) = 0xFF800000#32)
    (h1 : S512.ShapeCasts S512x1) (h2 : S512x1.Broadcasts S512x1024) (r : Fin 512) (j : Fin 1024) :
    exp (subf w (broadcastTo S512x1024 (shapeCast S512x1 (multiReduction .maximumf [1] S512 w 0xFF800000#32 h hφ hacc) h1) h2)) (ix2 r j)
      = Spec.e1 (fun k => w (ix2 r k)) j := by
  show Ideal.exp (w (ix2 r j) - broadcastTo S512x1024 (shapeCast S512x1 (multiReduction .maximumf [1] S512 w 0xFF800000#32 h hφ hacc) h1) h2 (ix2 r j)) = _
  rw [column_bcast_apply, column_apply, rowMax_apply]
  rfl

end Rows

/-! ## The payloads at an index -/

section Payload
variable (x0 : Vec Ideal S16x32x512 .f32) (x1 : Vec Ideal S1024x512 .bf16) (x2 : Vec Ideal S1x1024 .f32)

/-- The row of negated distances of token `(bb, tt)` of a block of 16 batch rows to the 1024 code vectors. -/
def blkRow (bb : Fin 16) (tt : Fin 32) : Fin 1024 → EReal :=
  Spec.nsdRow (fun k => x0 (ix3 bb tt k)) (fun j k => x1 (ix2 j k)) (fun j => x2 (ix2 (0 : Fin 1) j))

/-- The shared prefix: `exp (v - max v)` of the token's row of negated distances. -/
theorem pay3_apply (bb : Fin 16) (tt : Fin 32) (j : Fin 1024) :
    k0_pay3 (F := Ideal) x0 x1 x2 (ix2 (tok bb tt) j) = Spec.e1 (blkRow x0 x1 x2 bb tt) j := by
  unfold k0_pay3
  refine (softmax_num_apply _ _ _ _ _ _ (tok bb tt) j).trans ?_
  refine congrArg (fun v => Spec.e1 v j) (funext fun k => ?_)
  simp only [subf_apply, sqrt_apply, addf_apply, mulf_apply, maximumf_apply, broadcast_apply, truncf_apply,
    scalar_ofBits, Ideal.ofBits_def, column_bcast_apply, inner_apply, shapeCast_self,
    broadcastTo_1b_ab_apply, shapeCast_tok_apply, Ideal.ofBits_zero_f32, zero_sub]
  rw [rowSum_spread_apply]
  simp only [mulf_apply, shapeCast_tok_apply]
  rfl

end Payload

section Payload2
variable (x0 : Vec Ideal S16x32x512 .f32) (x1 : Vec Ideal S1024x512 .bf16) (x2 : Vec Ideal S1x1024 .f32)

/-- The clamped logarithm of the token's row. -/
theorem pay4_apply (bb : Fin 16) (tt : Fin 32) (j : Fin 1024) :
    k0_pay4 (F := Ideal) x0 x1 x2 (ix2 (tok bb tt) j) = Spec.logK (blkRow x0 x1 x2 bb tt) j := by
  unfold k0_pay4
  simp only [subf_apply, log_apply, addf_apply, mulf_apply, broadcast_apply, scalar_ofBits, Ideal.ofBits_def,
    column_bcast_apply]
  rw [rowSum_spread_apply]
  simp only [pay3_apply]
  rfl

/-- The temperature-1/2 assignment of the token's row. -/
theorem pay5_apply (bb : Fin 16) (tt : Fin 32) (j : Fin 1024) :
    k0_pay5 (F := Ideal) x0 x1 x2 (ix2 (tok bb tt) j) = Spec.adjK (blkRow x0 x1 x2 bb tt) j := by
  unfold k0_pay5
  simp only [truncf_apply, divf_apply, mulf_apply, column_bcast_apply]
  rw [rowSum_spread_apply]
  simp only [mulf_apply, pay3_apply]
  rfl

/-- The stored re-layout `[512, 1024] → [16, 32, 1024] → [32, 16, 1024]`: at `(tt, bb, j)` row `bb * 32 + tt`. -/
theorem pay1_apply (v : FVec Ideal S512x1024 .bf16) (tt : Fin 32) (bb : Fin 16) (j : Fin 1024) :
    k0_pay1 (F := Ideal) v (ix3 tt bb j) = v (ix2 (tok bb tt) j) := by
  unfold k0_pay1
  exact (transpose_ix3_102_apply _ _ tt bb j).trans (shapeCast_untok_apply v _ bb tt j)

theorem pay2_apply (v : FVec Ideal S512x1024 .f32) (tt : Fin 32) (bb : Fin 16) (j : Fin 1024) :
    k0_pay2 (F := Ideal) v (ix3 tt bb j) = v (ix2 (tok bb tt) j) := by
  unfold k0_pay2
  exact (transpose_ix3_102_apply _ _ tt bb j).trans (shapeCast_untok_apply (truncf .bf16 v bitsLt_bf16_f32) _ bb tt j)

/-- What a grid point stores into the assignment window, at `(tt, bb, j)`. -/
theorem adj_pay (tt : Fin 32) (bb : Fin 16) (j : Fin 1024) :
    k0_pay1 (F := Ideal) (k0_pay5 (F := Ideal) x0 x1 x2) (ix3 tt bb j) = Spec.adjK (blkRow x0 x1 x2 bb tt) j :=
  (pay1_apply _ tt bb j).trans (pay5_apply x0 x1 x2 bb tt j)

/-- What a grid point stores into the logarithm window, at `(tt, bb, j)`. -/
theorem log_pay (tt : Fin 32) (bb : Fin 16) (j : Fin 1024) :
    k0_pay2 (F := Ideal) (k0_pay4 (F := Ideal) x0 x1 x2) (ix3 tt bb j) = Spec.logK (blkRow x0 x1 x2 bb tt) j :=
  (pay2_apply _ tt bb j).trans (pay4_apply x0 x1 x2 bb tt j)

end Payload2

/- The TensorCore's buffer contents when the region is entered. -/
variable (V : (c : Dev nD) → (b : Ref sig .tc) → Buf (Elt Ideal) ((c : Thread nD τ).loc b))

/-- The grid has 32 points. -/
theorem points_lt (p : Fin cfg0.N) : p.val < 32 := lt_of_lt_of_eq p.isLt N_0

/-- Point `q` of the 32. -/
def point_of (q : Fin 32) : Fin cfg0.N := ⟨q.val, lt_of_lt_of_eq q.isLt N_0.symm⟩

/-! ## From the blocks to the arrays -/

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: point `t` reads batch rows `16 t … 16 t + 15` of the modality (block `t` along
    its axis 0), the whole codebook and the whole row of squared norms, and writes block `t` along axis 1 of each output. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- The row of negated distances of token `(b, t)`, from the three arrays the region reads. -/
def arrRow (c : Dev nD) (t : Fin 32) (b : Fin 512) : Fin 1024 → EReal :=
  Spec.nsdRow (fun k => V c main_arg0 (ix3 b t k)) (fun j' k => V c main_v0 (ix2 j' k))
    (fun j' => V c main_v4 (ix2 (0 : Fin 1) j'))

/-- A time-major `[32, 512, 1024]` array whose entry `(t, b, j)` is entry `j` of a function `f` of token `(b, t)`'s row. -/
def rowArr (f : (Fin 1024 → EReal) → Fin 1024 → EReal) (c : Dev nD) : S32x512x1024.Idx → Elt Ideal .bf16 :=
  fun i => f (arrRow V c ⟨(i 0).val, (i 0).isLt⟩ ⟨(i 1).val, (i 1).isLt⟩) ⟨(i 2).val, (i 2).isLt⟩

theorem rowArr_apply (f : (Fin 1024 → EReal) → Fin 1024 → EReal) (c : Dev nD) (i : S32x512x1024.Idx)
    (t : Fin 32) (b : Fin 512) (j : Fin 1024) (h0 : (i 0).val = t.val) (h1 : (i 1).val = b.val) (h2 : (i 2).val = j.val) :
    rowArr V f c i = f (arrRow V c t b) j := by
  unfold rowArr
  have e0 : (⟨(i 0).val, (i 0).isLt⟩ : Fin 32) = t := Fin.ext h0
  have e1 : (⟨(i 1).val, (i 1).isLt⟩ : Fin 512) = b := Fin.ext h1
  have e2 : (⟨(i 2).val, (i 2).isLt⟩ : Fin 1024) = j := Fin.ext h2
  rw [e0, e1, e2]

/-- The modality's block at point `p`: batch rows `16 p … 16 p + 15`. -/
theorem iblk_tokens (c : Dev nD) (p : Fin cfg0.N) (bb : Fin 16) (tt : Fin 32) (k : Fin 512) (b : Fin 512)
    (hb : b.val = p.val * 16 + bb.val) :
    (iblk0 V c 0 p : Vec Ideal S16x32x512 .f32) (ix3 bb tt k) = V c main_arg0 (ix3 b tt k) := by
  obtain ⟨e0, e1, e2, -⟩ := idx_facts p
  show V c main_arg0 (((cfg0.win 0).blk p).view.emb (ix3 bb tt k)) = V c main_arg0 (ix3 b tt k)
  refine congrArg (V c main_arg0) (funext fun a => Fin.ext ?_)
  match a with
  | ⟨0, _⟩ => show win0_0.index p (0 : Fin 3) * 16 + 1 * bb.val = b.val; omega
  | ⟨1, _⟩ => show win0_0.index p (1 : Fin 3) * 32 + 1 * tt.val = tt.val; omega
  | ⟨2, _⟩ => show win0_0.index p (2 : Fin 3) * 512 + 1 * k.val = k.val; omega

/-- The codebook's block at any point is the codebook. -/
theorem iblk_codes (c : Dev nD) (p : Fin cfg0.N) (j : Fin 1024) (k : Fin 512) :
    (iblk0 V c 1 p : Vec Ideal S1024x512 .bf16) (ix2 j k) = V c main_v0 (ix2 j k) := by
  obtain ⟨-, -, -, e0, e1, -⟩ := idx_facts p
  show V c main_v0 (((cfg0.win 1).blk p).view.emb (ix2 j k)) = V c main_v0 (ix2 j k)
  refine congrArg (V c main_v0) (funext fun a => Fin.ext ?_)
  match a with
  | ⟨0, _⟩ => show win0_1.index p (0 : Fin 2) * 1024 + 1 * j.val = j.val; omega
  | ⟨1, _⟩ => show win0_1.index p (1 : Fin 2) * 512 + 1 * k.val = k.val; omega

/-- The squared norms' block at any point is the row of squared norms. -/
theorem iblk_norms (c : Dev nD) (p : Fin cfg0.N) (u : Fin 1) (j : Fin 1024) :
    (iblk0 V c 2 p : Vec Ideal S1x1024 .f32) (ix2 u j) = V c main_v4 (ix2 u j) := by
  obtain ⟨-, -, -, -, -, e0, e1, -⟩ := idx_facts p
  show V c main_v4 (((cfg0.win 2).blk p).view.emb (ix2 u j)) = V c main_v4 (ix2 u j)
  refine congrArg (V c main_v4) (funext fun a => Fin.ext ?_)
  match a with
  | ⟨0, _⟩ => show win0_2.index p (0 : Fin 2) * 1 + 1 * u.val = u.val; omega
  | ⟨1, _⟩ => show win0_2.index p (1 : Fin 2) * 1024 + 1 * j.val = j.val; omega

/-- The row of negated distances of token `(bb, tt)` of point `p`'s blocks is that of token `(16 p + bb, tt)` of the arrays. -/
theorem blkRow_eq (c : Dev nD) (p : Fin cfg0.N) (bb : Fin 16) (tt : Fin 32) (b : Fin 512) (hb : b.val = p.val * 16 + bb.val) :
    blkRow (iblk0 V c 0 p) (iblk0 V c 1 p) (iblk0 V c 2 p) bb tt = arrRow V c tt b := by
  unfold blkRow arrRow
  rw [show (fun k => (iblk0 V c 0 p : Vec Ideal S16x32x512 .f32) (ix3 bb tt k)) = fun k => V c main_arg0 (ix3 b tt k) from
      funext fun k => iblk_tokens V c p bb tt k b hb,
    show (fun j k => (iblk0 V c 1 p : Vec Ideal S1024x512 .bf16) (ix2 j k)) = fun j k => V c main_v0 (ix2 j k) from
      funext fun j => funext fun k => iblk_codes V c p j k,
    show (fun j => (iblk0 V c 2 p : Vec Ideal S1x1024 .f32) (ix2 (0 : Fin 1) j)) = fun j => V c main_v4 (ix2 (0 : Fin 1) j) from
      funext fun j => iblk_norms V c p 0 j]

/-! ### The assignment array -/

/-- What point `p` writes back into window 3 is its block of the array of adj. -/
theorem adj_flushed (c : Dev nD) (p : Fin cfg0.N) :
    (dat0 (F := Ideal) V c).flushed 3 p = ((cfg0.win 3).blk p).view.read (Elt Ideal) (rowArr V Spec.adjK c) := by
  show (cfg0.win 3).cut (grid0.coords p) ((dat0 (F := Ideal) V c).after 3 p) = _
  rw [after0_3]
  unfold out0_3
  rw [View.canon_unit_zero zero3]
  simp only [View.ld_unit_zero (S := S16x32x512) zero3, View.ld_unit_zero (S := S1024x512) zero2,
    View.ld_unit_zero (S := S1x1024) zero2]
  obtain ⟨-, -, -, -, -, -, -, e30, e31, e32, e40, e41, e42⟩ := idx_facts p
  have hp : p.val < 32 := points_lt p
  funext y
  obtain ⟨tt, bb, j, rfl⟩ : ∃ (tt : Fin 32) (bb : Fin 16) (j : Fin 1024), y = ix3 tt bb j := ⟨y 0, y 1, y 2, eq_ix3 y⟩
  refine (adj_pay (iblk0 V c 0 p) (iblk0 V c 1 p) (iblk0 V c 2 p) tt bb j).trans ?_
  rw [blkRow_eq V c p bb tt ⟨p.val * 16 + bb.val, by omega⟩ rfl]
  show _ = rowArr V Spec.adjK c (((cfg0.win 3).blk p).view.emb (ix3 tt bb j))
  refine (rowArr_apply V Spec.adjK c (((cfg0.win 3).blk p).view.emb (ix3 tt bb j)) tt ⟨p.val * 16 + bb.val, by omega⟩ j ?_ ?_ ?_).symm
  · show win0_3.index p (0 : Fin 3) * 32 + 1 * tt.val = tt.val; omega
  · show win0_3.index p (1 : Fin 3) * 16 + 1 * bb.val = p.val * 16 + bb.val; omega
  · show win0_3.index p (2 : Fin 3) * 1024 + 1 * j.val = j.val; omega

/-- An index of the array is in point `p`'s block of window 3 iff each coordinate is in the block's range on its axis. -/
theorem adj_mem_blk (p : Fin cfg0.N) (i : S32x512x1024.Idx) :
    i ∈ ((cfg0.win 3).blk p).view.set ↔ ∀ a : Fin 3, win0_3.index p a * S32x16x1024.size a ≤ (i a).val ∧ (i a).val < win0_3.index p a * S32x16x1024.size a + S32x16x1024.size a := by
  show i ∈ ((View.whole (Pipeline.arrRef spec0 3)).slice (win0_3.rect p)).set ↔ _
  rw [View.set_slice_whole, Rect.mem_set_unit]
  exact Iff.rfl

/-- Every index of the array is in the block of the point that holds its batch row: `b / 16`. -/
theorem adj_cover (i : S32x512x1024.Idx) :
    ∃ p : Fin cfg0.N, (cfg0.win 3).flush p = true ∧ i ∈ ((cfg0.win 3).blk p).view.set := by
  have h0 : (i 0).val < 32 := (i 0).isLt
  have h1 : (i 1).val < 512 := (i 1).isLt
  have h2 : (i 2).val < 1024 := (i 2).isLt
  obtain ⟨p, hp⟩ : ∃ p : Fin cfg0.N, p.val = (i 1).val / 16 := ⟨point_of ⟨(i 1).val / 16, by omega⟩, rfl⟩
  refine ⟨p, flush0_3 p, ?_⟩
  obtain ⟨-, -, -, -, -, -, -, e30, e31, e32, e40, e41, e42⟩ := idx_facts p
  rw [adj_mem_blk]
  intro a
  match a with
  | ⟨0, _⟩ => show win0_3.index p (0 : Fin 3) * 32 ≤ (i 0).val ∧ (i 0).val < win0_3.index p (0 : Fin 3) * 32 + 32; omega
  | ⟨1, _⟩ => show win0_3.index p (1 : Fin 3) * 16 ≤ (i 1).val ∧ (i 1).val < win0_3.index p (1 : Fin 3) * 16 + 16; omega
  | ⟨2, _⟩ => show win0_3.index p (2 : Fin 3) * 1024 ≤ (i 2).val ∧ (i 2).val < win0_3.index p (2 : Fin 3) * 1024 + 1024; omega

/-- The array after the region. -/
theorem adj_final (c : Dev nD) : (dat0 (F := Ideal) V c).arrAt 3 cfg0.N = rowArr V Spec.adjK c :=
  (dat0 (F := Ideal) V c).arrAt_eq_of_cover 3 (rowArr V Spec.adjK c) (fun p _ => adj_flushed V c p) adj_cover

/-! ### The clamped-logarithm array -/

/-- What point `p` writes back into window 4 is its block of the array of log. -/
theorem log_flushed (c : Dev nD) (p : Fin cfg0.N) :
    (dat0 (F := Ideal) V c).flushed 4 p = ((cfg0.win 4).blk p).view.read (Elt Ideal) (rowArr V Spec.logK c) := by
  show (cfg0.win 4).cut (grid0.coords p) ((dat0 (F := Ideal) V c).after 4 p) = _
  rw [after0_4]
  unfold out0_4
  rw [View.canon_unit_zero zero3]
  simp only [View.ld_unit_zero (S := S16x32x512) zero3, View.ld_unit_zero (S := S1024x512) zero2,
    View.ld_unit_zero (S := S1x1024) zero2]
  obtain ⟨-, -, -, -, -, -, -, e30, e31, e32, e40, e41, e42⟩ := idx_facts p
  have hp : p.val < 32 := points_lt p
  funext y
  obtain ⟨tt, bb, j, rfl⟩ : ∃ (tt : Fin 32) (bb : Fin 16) (j : Fin 1024), y = ix3 tt bb j := ⟨y 0, y 1, y 2, eq_ix3 y⟩
  refine (log_pay (iblk0 V c 0 p) (iblk0 V c 1 p) (iblk0 V c 2 p) tt bb j).trans ?_
  rw [blkRow_eq V c p bb tt ⟨p.val * 16 + bb.val, by omega⟩ rfl]
  show _ = rowArr V Spec.logK c (((cfg0.win 4).blk p).view.emb (ix3 tt bb j))
  refine (rowArr_apply V Spec.logK c (((cfg0.win 4).blk p).view.emb (ix3 tt bb j)) tt ⟨p.val * 16 + bb.val, by omega⟩ j ?_ ?_ ?_).symm
  · show win0_4.index p (0 : Fin 3) * 32 + 1 * tt.val = tt.val; omega
  · show win0_4.index p (1 : Fin 3) * 16 + 1 * bb.val = p.val * 16 + bb.val; omega
  · show win0_4.index p (2 : Fin 3) * 1024 + 1 * j.val = j.val; omega

/-- An index of the array is in point `p`'s block of window 4 iff each coordinate is in the block's range on its axis. -/
theorem log_mem_blk (p : Fin cfg0.N) (i : S32x512x1024.Idx) :
    i ∈ ((cfg0.win 4).blk p).view.set ↔ ∀ a : Fin 3, win0_4.index p a * S32x16x1024.size a ≤ (i a).val ∧ (i a).val < win0_4.index p a * S32x16x1024.size a + S32x16x1024.size a := by
  show i ∈ ((View.whole (Pipeline.arrRef spec0 4)).slice (win0_4.rect p)).set ↔ _
  rw [View.set_slice_whole, Rect.mem_set_unit]
  exact Iff.rfl

/-- Every index of the array is in the block of the point that holds its batch row: `b / 16`. -/
theorem log_cover (i : S32x512x1024.Idx) :
    ∃ p : Fin cfg0.N, (cfg0.win 4).flush p = true ∧ i ∈ ((cfg0.win 4).blk p).view.set := by
  have h0 : (i 0).val < 32 := (i 0).isLt
  have h1 : (i 1).val < 512 := (i 1).isLt
  have h2 : (i 2).val < 1024 := (i 2).isLt
  obtain ⟨p, hp⟩ : ∃ p : Fin cfg0.N, p.val = (i 1).val / 16 := ⟨point_of ⟨(i 1).val / 16, by omega⟩, rfl⟩
  refine ⟨p, flush0_4 p, ?_⟩
  obtain ⟨-, -, -, -, -, -, -, e30, e31, e32, e40, e41, e42⟩ := idx_facts p
  rw [log_mem_blk]
  intro a
  match a with
  | ⟨0, _⟩ => show win0_4.index p (0 : Fin 3) * 32 ≤ (i 0).val ∧ (i 0).val < win0_4.index p (0 : Fin 3) * 32 + 32; omega
  | ⟨1, _⟩ => show win0_4.index p (1 : Fin 3) * 16 ≤ (i 1).val ∧ (i 1).val < win0_4.index p (1 : Fin 3) * 16 + 16; omega
  | ⟨2, _⟩ => show win0_4.index p (2 : Fin 3) * 1024 ≤ (i 2).val ∧ (i 2).val < win0_4.index p (2 : Fin 3) * 1024 + 1024; omega

/-- The array after the region. -/
theorem log_final (c : Dev nD) : (dat0 (F := Ideal) V c).arrAt 4 cfg0.N = rowArr V Spec.logK c :=
  (dat0 (F := Ideal) V c).arrAt_eq_of_cover 4 (rowArr V Spec.logK c) (fun p _ => log_flushed V c p) log_cover

/-- The assignment array after the region. -/
theorem adj_arr (c : Dev nD) (t : Fin 32) (b : Fin 512) (j : Fin 1024) :
    (dat0 (F := Ideal) V c).arrAt 3 cfg0.N (ix3 t b j)
      = Spec.adjK (Spec.nsdRow (fun k => V c main_arg0 (ix3 b t k)) (fun j' k => V c main_v0 (ix2 j' k))
          (fun j' => V c main_v4 (ix2 (0 : Fin 1) j'))) j := by
  rw [adj_final]
  exact rowArr_apply V Spec.adjK c (ix3 t b j) t b j rfl rfl rfl

/-- The clamped-logarithm array after the region. -/
theorem log_arr (c : Dev nD) (t : Fin 32) (b : Fin 512) (j : Fin 1024) :
    (dat0 (F := Ideal) V c).arrAt 4 cfg0.N (ix3 t b j)
      = Spec.logK (Spec.nsdRow (fun k => V c main_arg0 (ix3 b t k)) (fun j' k => V c main_v0 (ix2 j' k))
          (fun j' => V c main_v4 (ix2 (0 : Fin 1) j'))) j := by
  rw [log_final]
  exact rowArr_apply V Spec.logK c (ix3 t b j) t b j rfl rfl rfl

end Cert.KernelIdeal.KDist0

end
-- ==== Proof.KDist1.lean ====
/-
  The distance-and-softmax region of the video modality: after its 32 grid points (16 batch rows each) the two
  output arrays hold, time major, the temperature-1/2 assignment and the clamped logarithm of every token's
  row of negated distances, as functions of the three arrays the region reads.

  A grid point loads a `[16, 32, 512]` block of the modality (16 batch rows, all 32 times), the whole codebook and
  the row of its squared norms, views the block as 512 token rows (row `bb * 32 + tt` is batch row `bb`, time `tt`),
  and forms per token the row `v` of negated distances, `e = exp (v - max v)`, then `e² / Σ e²` and
  `log (e + ε Σ e) - log Σ e`; both results are re-laid `[512, 1024] → [16, 32, 1024] → [32, 16, 1024]` and stored, and
  point `p`'s stores are block `p` along the batch axis of the time-major outputs.
-/
import proofs.«400058_j87668872446318_3_alg».proof.Proof.Gen.KernelIdeal.Frame
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KDist1

open Idealize.ShloMosaic Idealize.ShloMosaic.TcCoe Idealize.ShloMosaic.ValueIdx Idealize.SL.Sem
open Cert.KernelIdeal Cert.KernelIdeal.Gen

/-! ## Layout operations and reductions of this kernel, read at an index -/

/-- Row `bb * 32 + tt` of a `[512, ·]` view of a `[16, 32, ·]` block: batch row `bb`, time `tt`. -/
def tok (bb : Fin 16) (tt : Fin 32) : Fin 512 := ⟨bb.val * 32 + tt.val, by omega⟩

theorem tok_val (bb : Fin 16) (tt : Fin 32) : (tok bb tt).val = bb.val * 32 + tt.val := rfl

section Layout
variable {α : Type}

/-- A `[16, 32, c]` block viewed `[512, c]` reads, at row `bb * 32 + tt`, the block at `(bb, tt)`. -/
theorem shapeCast_tok_apply {c : ℕ} (x : (⟨3, ![16, 32, c]⟩ : Shape).Idx → α)
    (h : (⟨3, ![16, 32, c]⟩ : Shape).ShapeCasts ⟨2, ![512, c]⟩) (bb : Fin 16) (tt : Fin 32) (k : Fin c) :
    shapeCast ⟨2, ![512, c]⟩ x h (ix2 (tok bb tt) k) = x (ix3 bb tt k) :=
  shapeCast_apply x h _ _ (by
    rw [Shape.rowMajor_val_three, Shape.rowMajor_val_two]
    rfl)

/-- A `[512, c]` array viewed `[16, 32, c]` reads, at `(bb, tt)`, row `bb * 32 + tt`. -/
theorem shapeCast_untok_apply {c : ℕ} (x : (⟨2, ![512, c]⟩ : Shape).Idx → α)
    (h : (⟨2, ![512, c]⟩ : Shape).ShapeCasts ⟨3, ![16, 32, c]⟩) (bb : Fin 16) (tt : Fin 32) (k : Fin c) :
    shapeCast ⟨3, ![16, 32, c]⟩ x h (ix3 bb tt k) = x (ix2 (tok bb tt) k) :=
  shapeCast_apply x h _ _ (by
    rw [Shape.rowMajor_val_three, Shape.rowMajor_val_two]
    rfl)

/-- The first two axes swapped: at `(j, i, k)` the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- A vector `[a]` made a column `[a, 1]` and spread over `b` columns reads its entry `r` along row `r`. -/
theorem column_spread_apply {a b : ℕ} (hb : b ≠ 1) (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (r : Fin a) (j : Fin b) :
    broadcastTo ⟨2, ![a, b]⟩ (shapeCast ⟨2, ![a, 1]⟩ v h1) h2 (ix2 r j) = v (ix1 r) := by
  refine (broadcastTo_apply _ h2 (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply v h1 _ _ (by
      rw [Shape.rowMajor_val_one, Shape.rowMajor_val_two]
      show r.val = r.val * 1 + 0
      omega)

/-- A column `[a, 1]` spread over `b` columns reads its entry `(r, 0)` along row `r`. -/
theorem column_bcast_apply {a b : ℕ} (w : (⟨2, ![a, 1]⟩ : Shape).Idx → α)
    (h2 : (⟨2, ![a, 1]⟩ : Shape).Broadcasts ⟨2, ![a, b]⟩) (r : Fin a) (j : Fin b) :
    broadcastTo ⟨2, ![a, b]⟩ w h2 (ix2 r j) = w (ix2 r (0 : Fin 1)) := by
  refine broadcastTo_apply _ h2 (ix2 r j) (ix2 r (0 : Fin 1)) fun ax => ?_
  match ax with
  | ⟨0, _⟩ =>
    show r.val = if a = 1 then 0 else r.val
    split
    · have := r.isLt; omega
    · rfl
  | ⟨1, _⟩ => rfl

/-- A vector `[a]` made a column `[a, 1]` reads its entry `r` at `(r, 0)`. -/
theorem column_apply {a : ℕ} (v : (⟨1, ![a]⟩ : Shape).Idx → α)
    (h1 : (⟨1, ![a]⟩ : Shape).ShapeCasts ⟨2, ![a, 1]⟩) (r : Fin a) (u : Fin 1) :
    shapeCast ⟨2, ![a, 1]⟩ v h1 (ix2 r u) = v (ix1 r) :=
  shapeCast_apply v h1 _ _ (by
    rw [Shape.rowMajor_val_one, Shape.rowMajor_val_two]
    show r.val = r.val * 1 + u.val
    omega)

end Layout

section Reductions

/-- The index a reduction over the columns inserts: column `k` of row `r`. -/
theorem lift_row {a b : ℕ} (h : (⟨2, ![a, b]⟩ : Shape).Reduces [1] ⟨1, ![a]⟩) (r : Fin a) (k : Fin b) :
    h.lift (ix1 r) k = ix2 r k :=
  funext fun d => Fin.ext (by match d with | ⟨0, _⟩ => rfl | ⟨1, _⟩ => rfl)

/-- A sum over the columns, from the zero word, reads at row `r` that row's sum. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_row h r k))

/-- The word of negative infinity is the bottom element. -/
theorem ofBits_neg_inf : Ideal.ofBits .f32 0xFF800000#32 = ⊥ := by simp [Ideal.ofBits, Ideal.ieee]

/-- A maximum over the columns, from the word of negative infinity, reads at row `r` that row's maximum from the
    bottom element. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r) = Spec.emax fun k : Fin b => src (ix2 r k) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [ofBits_neg_inf]
  unfold Spec.emax
  exact congrArg (fun f => (Finset.univ : Finset (Fin b)).fold max ⊥ f) (funext fun k => congrArg src (lift_row h r k))

end Reductions

section Matmul

theorem dist_lhs_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem dist_lhs_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem dist_rhs_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem dist_rhs_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The product of the token rows with the code vectors, into a zero accumulator: at `(r, j)` the inner product of
    row `r` of the left operand with row `j` of the right. -/
theorem inner_apply (l : FVec Ideal S512x512 .bf16) (e : FVec Ideal S1024x512 .bf16) (r : Fin 512) (j : Fin 1024) :
    matmul dot_S512x512_S1024x512_S512x1024_1_1_0_0_n_n none l e (constant (F := Ideal) S512x1024 .f32 0x00000000#32) (ix2 r j)
      = ∑ k : Fin 512, l (ix2 r k) * e (ix2 j k) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 r j) ((ValueIdx.contrEquiv1 dot_S512x512_S1024x512_S512x1024_1_1_0_0_n_n 512 rfl rfl).symm k) = ix2 r k := funext fun a => Fin.ext (by
    match a with
    | ⟨0, _⟩ => exact dist_lhs_0 _ _
    | ⟨1, _⟩ => exact (dist_lhs_1 _ _).trans hk)
  have er : dot_S512x512_S1024x512_S512x1024_1_1_0_0_n_n.rhsIdx (ix2 r j) ((ValueIdx.contrEquiv1 dot_S512x512_S1024x512_S512x1024_1_1_0_0_n_n 512 rfl rfl).symm k) = ix2 j k := funext fun a => Fin.ext (by
    match a with
    | ⟨0, _⟩ => exact dist_rhs_0 _ _
    | ⟨1, _⟩ => exact (dist_rhs_1 _ _).trans hk)
  rw [el, er]

end Matmul

section Pointwise
variable {s : Shape} {φ : FTy}

theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
theorem scalar_ofBits (b : BitVec φ.bits) : Scalar.ofBits (F := Ideal) φ b = Ideal.ofBits φ b := rfl

end Pointwise

section Rows

/-- A row sum made a column and spread back over the columns: along row `r` the row's sum. -/
theorem rowSum_spread_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (h1 : (⟨1, ![a]⟩ : Shape).ShapeCasts ⟨2, ![a, 1]⟩) (r : Fin a) (u : Fin 1) :
    shapeCast ⟨2, ![a, 1]⟩ (multiReduction .add [1] ⟨1, ![a]⟩ src 0x00000000#32 h hφ hacc) h1 (ix2 r u)
      = ∑ k : Fin b, src (ix2 r k) :=
  (column_apply _ h1 r u).trans (rowSum_apply src h hφ hacc r)

/-- `exp (w - max w)` along the rows of a `[512, 1024]` array: at `(r, j)` that of row `r`. -/
theorem softmax_num_apply (w : FVec Ideal S512x1024 .f32)
    (h : S512x1024.Reduces [1] S512) (hφ : FKind.Formats .f32) (hacc : (0xFF800000#32 : BitVec 32) = 0xFF800000#32)
    (h1 : S512.ShapeCasts S512x1) (h2 : S512x1.Broadcasts S512x1024) (r : Fin 512) (j : Fin 1024) :
    exp (subf w (broadcastTo S512x1024 (shapeCast S512x1 (multiReduction .maximumf [1] S512 w 0xFF800000#32 h hφ hacc) h1) h2)) (ix2 r j)
      = Spec.e1 (fun k => w (ix2 r k)) j := by
  show Ideal.exp (w (ix2 r j) - broadcastTo S512x1024 (shapeCast S512x1 (multiReduction .maximumf [1] S512 w 0xFF800000#32 h hφ hacc) h1) h2 (ix2 r j)) = _
  rw [column_bcast_apply, column_apply, rowMax_apply]
  rfl

end Rows

/-! ## The payloads at an index -/

section Payload
variable (x0 : Vec Ideal S16x32x512 .f32) (x1 : Vec Ideal S1024x512 .bf16) (x2 : Vec Ideal S1x1024 .f32)

/-- The row of negated distances of token `(bb, tt)` of a block of 16 batch rows to the 1024 code vectors. -/
def blkRow (bb : Fin 16) (tt : Fin 32) : Fin 1024 → EReal :=
  Spec.nsdRow (fun k => x0 (ix3 bb tt k)) (fun j k => x1 (ix2 j k)) (fun j => x2 (ix2 (0 : Fin 1) j))

/-- The shared prefix: `exp (v - max v)` of the token's row of negated distances. -/
theorem pay3_apply (bb : Fin 16) (tt : Fin 32) (j : Fin 1024) :
    k1_pay3 (F := Ideal) x0 x1 x2 (ix2 (tok bb tt) j) = Spec.e1 (blkRow x0 x1 x2 bb tt) j := by
  unfold k1_pay3
  refine (softmax_num_apply _ _ _ _ _ _ (tok bb tt) j).trans ?_
  refine congrArg (fun v => Spec.e1 v j) (funext fun k => ?_)
  simp only [subf_apply, sqrt_apply, addf_apply, mulf_apply, maximumf_apply, broadcast_apply, truncf_apply,
    scalar_ofBits, Ideal.ofBits_def, column_bcast_apply, inner_apply, shapeCast_self,
    broadcastTo_1b_ab_apply, shapeCast_tok_apply, Ideal.ofBits_zero_f32, zero_sub]
  rw [rowSum_spread_apply]
  simp only [mulf_apply, shapeCast_tok_apply]
  rfl

end Payload

section Payload2
variable (x0 : Vec Ideal S16x32x512 .f32) (x1 : Vec Ideal S1024x512 .bf16) (x2 : Vec Ideal S1x1024 .f32)

/-- The clamped logarithm of the token's row. -/
theorem pay4_apply (bb : Fin 16) (tt : Fin 32) (j : Fin 1024) :
    k1_pay4 (F := Ideal) x0 x1 x2 (ix2 (tok bb tt) j) = Spec.logK (blkRow x0 x1 x2 bb tt) j := by
  unfold k1_pay4
  simp only [subf_apply, log_apply, addf_apply, mulf_apply, broadcast_apply, scalar_ofBits, Ideal.ofBits_def,
    column_bcast_apply]
  rw [rowSum_spread_apply]
  simp only [pay3_apply]
  rfl

/-- The temperature-1/2 assignment of the token's row. -/
theorem pay5_apply (bb : Fin 16) (tt : Fin 32) (j : Fin 1024) :
    k1_pay5 (F := Ideal) x0 x1 x2 (ix2 (tok bb tt) j) = Spec.adjK (blkRow x0 x1 x2 bb tt) j := by
  unfold k1_pay5
  simp only [truncf_apply, divf_apply, mulf_apply, column_bcast_apply]
  rw [rowSum_spread_apply]
  simp only [mulf_apply, pay3_apply]
  rfl

/-- The stored re-layout `[512, 1024] → [16, 32, 1024] → [32, 16, 1024]`: at `(tt, bb, j)` row `bb * 32 + tt`. -/
theorem pay1_apply (v : FVec Ideal S512x1024 .bf16) (tt : Fin 32) (bb : Fin 16) (j : Fin 1024) :
    k1_pay1 (F := Ideal) v (ix3 tt bb j) = v (ix2 (tok bb tt) j) := by
  unfold k1_pay1
  exact (transpose_ix3_102_apply _ _ tt bb j).trans (shapeCast_untok_apply v _ bb tt j)

theorem pay2_apply (v : FVec Ideal S512x1024 .f32) (tt : Fin 32) (bb : Fin 16) (j : Fin 1024) :
    k1_pay2 (F := Ideal) v (ix3 tt bb j) = v (ix2 (tok bb tt) j) := by
  unfold k1_pay2
  exact (transpose_ix3_102_apply _ _ tt bb j).trans (shapeCast_untok_apply (truncf .bf16 v bitsLt_bf16_f32) _ bb tt j)

/-- What a grid point stores into the assignment window, at `(tt, bb, j)`. -/
theorem adj_pay (tt : Fin 32) (bb : Fin 16) (j : Fin 1024) :
    k1_pay1 (F := Ideal) (k1_pay5 (F := Ideal) x0 x1 x2) (ix3 tt bb j) = Spec.adjK (blkRow x0 x1 x2 bb tt) j :=
  (pay1_apply _ tt bb j).trans (pay5_apply x0 x1 x2 bb tt j)

/-- What a grid point stores into the logarithm window, at `(tt, bb, j)`. -/
theorem log_pay (tt : Fin 32) (bb : Fin 16) (j : Fin 1024) :
    k1_pay2 (F := Ideal) (k1_pay4 (F := Ideal) x0 x1 x2) (ix3 tt bb j) = Spec.logK (blkRow x0 x1 x2 bb tt) j :=
  (pay2_apply _ tt bb j).trans (pay4_apply x0 x1 x2 bb tt j)

end Payload2

/- The TensorCore's buffer contents when the region is entered. -/
variable (V : (c : Dev nD) → (b : Ref sig .tc) → Buf (Elt Ideal) ((c : Thread nD τ).loc b))

/-- The grid has 32 points. -/
theorem points_lt (p : Fin cfg1.N) : p.val < 32 := lt_of_lt_of_eq p.isLt N_0

/-- Point `q` of the 32. -/
def point_of (q : Fin 32) : Fin cfg1.N := ⟨q.val, lt_of_lt_of_eq q.isLt N_0.symm⟩

/-! ## From the blocks to the arrays -/

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: point `t` reads batch rows `16 t … 16 t + 15` of the modality (block `t` along
    its axis 0), the whole codebook and the whole row of squared norms, and writes block `t` along axis 1 of each output. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0 :=
  (by decide +kernel : ∀ t : Fin grid1.N, _)

/-- The row of negated distances of token `(b, t)`, from the three arrays the region reads. -/
def arrRow (c : Dev nD) (t : Fin 32) (b : Fin 512) : Fin 1024 → EReal :=
  Spec.nsdRow (fun k => V c main_arg1 (ix3 b t k)) (fun j' k => V c main_v0 (ix2 j' k))
    (fun j' => V c main_v4 (ix2 (0 : Fin 1) j'))

/-- A time-major `[32, 512, 1024]` array whose entry `(t, b, j)` is entry `j` of a function `f` of token `(b, t)`'s row. -/
def rowArr (f : (Fin 1024 → EReal) → Fin 1024 → EReal) (c : Dev nD) : S32x512x1024.Idx → Elt Ideal .bf16 :=
  fun i => f (arrRow V c ⟨(i 0).val, (i 0).isLt⟩ ⟨(i 1).val, (i 1).isLt⟩) ⟨(i 2).val, (i 2).isLt⟩

theorem rowArr_apply (f : (Fin 1024 → EReal) → Fin 1024 → EReal) (c : Dev nD) (i : S32x512x1024.Idx)
    (t : Fin 32) (b : Fin 512) (j : Fin 1024) (h0 : (i 0).val = t.val) (h1 : (i 1).val = b.val) (h2 : (i 2).val = j.val) :
    rowArr V f c i = f (arrRow V c t b) j := by
  unfold rowArr
  have e0 : (⟨(i 0).val, (i 0).isLt⟩ : Fin 32) = t := Fin.ext h0
  have e1 : (⟨(i 1).val, (i 1).isLt⟩ : Fin 512) = b := Fin.ext h1
  have e2 : (⟨(i 2).val, (i 2).isLt⟩ : Fin 1024) = j := Fin.ext h2
  rw [e0, e1, e2]

/-- The modality's block at point `p`: batch rows `16 p … 16 p + 15`. -/
theorem iblk_tokens (c : Dev nD) (p : Fin cfg1.N) (bb : Fin 16) (tt : Fin 32) (k : Fin 512) (b : Fin 512)
    (hb : b.val = p.val * 16 + bb.val) :
    (iblk1 V c 0 p : Vec Ideal S16x32x512 .f32) (ix3 bb tt k) = V c main_arg1 (ix3 b tt k) := by
  obtain ⟨e0, e1, e2, -⟩ := idx_facts p
  show V c main_arg1 (((cfg1.win 0).blk p).view.emb (ix3 bb tt k)) = V c main_arg1 (ix3 b tt k)
  refine congrArg (V c main_arg1) (funext fun a => Fin.ext ?_)
  match a with
  | ⟨0, _⟩ => show win1_0.index p (0 : Fin 3) * 16 + 1 * bb.val = b.val; omega
  | ⟨1, _⟩ => show win1_0.index p (1 : Fin 3) * 32 + 1 * tt.val = tt.val; omega
  | ⟨2, _⟩ => show win1_0.index p (2 : Fin 3) * 512 + 1 * k.val = k.val; omega

/-- The codebook's block at any point is the codebook. -/
theorem iblk_codes (c : Dev nD) (p : Fin cfg1.N) (j : Fin 1024) (k : Fin 512) :
    (iblk1 V c 1 p : Vec Ideal S1024x512 .bf16) (ix2 j k) = V c main_v0 (ix2 j k) := by
  obtain ⟨-, -, -, e0, e1, -⟩ := idx_facts p
  show V c main_v0 (((cfg1.win 1).blk p).view.emb (ix2 j k)) = V c main_v0 (ix2 j k)
  refine congrArg (V c main_v0) (funext fun a => Fin.ext ?_)
  match a with
  | ⟨0, _⟩ => show win1_1.index p (0 : Fin 2) * 1024 + 1 * j.val = j.val; omega
  | ⟨1, _⟩ => show win1_1.index p (1 : Fin 2) * 512 + 1 * k.val = k.val; omega

/-- The squared norms' block at any point is the row of squared norms. -/
theorem iblk_norms (c : Dev nD) (p : Fin cfg1.N) (u : Fin 1) (j : Fin 1024) :
    (iblk1 V c 2 p : Vec Ideal S1x1024 .f32) (ix2 u j) = V c main_v4 (ix2 u j) := by
  obtain ⟨-, -, -, -, -, e0, e1, -⟩ := idx_facts p
  show V c main_v4 (((cfg1.win 2).blk p).view.emb (ix2 u j)) = V c main_v4 (ix2 u j)
  refine congrArg (V c main_v4) (funext fun a => Fin.ext ?_)
  match a with
  | ⟨0, _⟩ => show win1_2.index p (0 : Fin 2) * 1 + 1 * u.val = u.val; omega
  | ⟨1, _⟩ => show win1_2.index p (1 : Fin 2) * 1024 + 1 * j.val = j.val; omega

/-- The row of negated distances of token `(bb, tt)` of point `p`'s blocks is that of token `(16 p + bb, tt)` of the arrays. -/
theorem blkRow_eq (c : Dev nD) (p : Fin cfg1.N) (bb : Fin 16) (tt : Fin 32) (b : Fin 512) (hb : b.val = p.val * 16 + bb.val) :
    blkRow (iblk1 V c 0 p) (iblk1 V c 1 p) (iblk1 V c 2 p) bb tt = arrRow V c tt b := by
  unfold blkRow arrRow
  rw [show (fun k => (iblk1 V c 0 p : Vec Ideal S16x32x512 .f32) (ix3 bb tt k)) = fun k => V c main_arg1 (ix3 b tt k) from
      funext fun k => iblk_tokens V c p bb tt k b hb,
    show (fun j k => (iblk1 V c 1 p : Vec Ideal S1024x512 .bf16) (ix2 j k)) = fun j k => V c main_v0 (ix2 j k) from
      funext fun j => funext fun k => iblk_codes V c p j k,
    show (fun j => (iblk1 V c 2 p : Vec Ideal S1x1024 .f32) (ix2 (0 : Fin 1) j)) = fun j => V c main_v4 (ix2 (0 : Fin 1) j) from
      funext fun j => iblk_norms V c p 0 j]

/-! ### The assignment array -/

/-- What point `p` writes back into window 3 is its block of the array of adj. -/
theorem adj_flushed (c : Dev nD) (p : Fin cfg1.N) :
    (dat1 (F := Ideal) V c).flushed 3 p = ((cfg1.win 3).blk p).view.read (Elt Ideal) (rowArr V Spec.adjK c) := by
  show (cfg1.win 3).cut (grid1.coords p) ((dat1 (F := Ideal) V c).after 3 p) = _
  rw [after1_3]
  unfold out1_3
  rw [View.canon_unit_zero zero3]
  simp only [View.ld_unit_zero (S := S16x32x512) zero3, View.ld_unit_zero (S := S1024x512) zero2,
    View.ld_unit_zero (S := S1x1024) zero2]
  obtain ⟨-, -, -, -, -, -, -, e30, e31, e32, e40, e41, e42⟩ := idx_facts p
  have hp : p.val < 32 := points_lt p
  funext y
  obtain ⟨tt, bb, j, rfl⟩ : ∃ (tt : Fin 32) (bb : Fin 16) (j : Fin 1024), y = ix3 tt bb j := ⟨y 0, y 1, y 2, eq_ix3 y⟩
  refine (adj_pay (iblk1 V c 0 p) (iblk1 V c 1 p) (iblk1 V c 2 p) tt bb j).trans ?_
  rw [blkRow_eq V c p bb tt ⟨p.val * 16 + bb.val, by omega⟩ rfl]
  show _ = rowArr V Spec.adjK c (((cfg1.win 3).blk p).view.emb (ix3 tt bb j))
  refine (rowArr_apply V Spec.adjK c (((cfg1.win 3).blk p).view.emb (ix3 tt bb j)) tt ⟨p.val * 16 + bb.val, by omega⟩ j ?_ ?_ ?_).symm
  · show win1_3.index p (0 : Fin 3) * 32 + 1 * tt.val = tt.val; omega
  · show win1_3.index p (1 : Fin 3) * 16 + 1 * bb.val = p.val * 16 + bb.val; omega
  · show win1_3.index p (2 : Fin 3) * 1024 + 1 * j.val = j.val; omega

/-- An index of the array is in point `p`'s block of window 3 iff each coordinate is in the block's range on its axis. -/
theorem adj_mem_blk (p : Fin cfg1.N) (i : S32x512x1024.Idx) :
    i ∈ ((cfg1.win 3).blk p).view.set ↔ ∀ a : Fin 3, win1_3.index p a * S32x16x1024.size a ≤ (i a).val ∧ (i a).val < win1_3.index p a * S32x16x1024.size a + S32x16x1024.size a := by
  show i ∈ ((View.whole (Pipeline.arrRef spec1 3)).slice (win1_3.rect p)).set ↔ _
  rw [View.set_slice_whole, Rect.mem_set_unit]
  exact Iff.rfl

/-- Every index of the array is in the block of the point that holds its batch row: `b / 16`. -/
theorem adj_cover (i : S32x512x1024.Idx) :
    ∃ p : Fin cfg1.N, (cfg1.win 3).flush p = true ∧ i ∈ ((cfg1.win 3).blk p).view.set := by
  have h0 : (i 0).val < 32 := (i 0).isLt
  have h1 : (i 1).val < 512 := (i 1).isLt
  have h2 : (i 2).val < 1024 := (i 2).isLt
  obtain ⟨p, hp⟩ : ∃ p : Fin cfg1.N, p.val = (i 1).val / 16 := ⟨point_of ⟨(i 1).val / 16, by omega⟩, rfl⟩
  refine ⟨p, flush1_3 p, ?_⟩
  obtain ⟨-, -, -, -, -, -, -, e30, e31, e32, e40, e41, e42⟩ := idx_facts p
  rw [adj_mem_blk]
  intro a
  match a with
  | ⟨0, _⟩ => show win1_3.index p (0 : Fin 3) * 32 ≤ (i 0).val ∧ (i 0).val < win1_3.index p (0 : Fin 3) * 32 + 32; omega
  | ⟨1, _⟩ => show win1_3.index p (1 : Fin 3) * 16 ≤ (i 1).val ∧ (i 1).val < win1_3.index p (1 : Fin 3) * 16 + 16; omega
  | ⟨2, _⟩ => show win1_3.index p (2 : Fin 3) * 1024 ≤ (i 2).val ∧ (i 2).val < win1_3.index p (2 : Fin 3) * 1024 + 1024; omega

/-- The array after the region. -/
theorem adj_final (c : Dev nD) : (dat1 (F := Ideal) V c).arrAt 3 cfg1.N = rowArr V Spec.adjK c :=
  (dat1 (F := Ideal) V c).arrAt_eq_of_cover 3 (rowArr V Spec.adjK c) (fun p _ => adj_flushed V c p) adj_cover

/-! ### The clamped-logarithm array -/

/-- What point `p` writes back into window 4 is its block of the array of log. -/
theorem log_flushed (c : Dev nD) (p : Fin cfg1.N) :
    (dat1 (F := Ideal) V c).flushed 4 p = ((cfg1.win 4).blk p).view.read (Elt Ideal) (rowArr V Spec.logK c) := by
  show (cfg1.win 4).cut (grid1.coords p) ((dat1 (F := Ideal) V c).after 4 p) = _
  rw [after1_4]
  unfold out1_4
  rw [View.canon_unit_zero zero3]
  simp only [View.ld_unit_zero (S := S16x32x512) zero3, View.ld_unit_zero (S := S1024x512) zero2,
    View.ld_unit_zero (S := S1x1024) zero2]
  obtain ⟨-, -, -, -, -, -, -, e30, e31, e32, e40, e41, e42⟩ := idx_facts p
  have hp : p.val < 32 := points_lt p
  funext y
  obtain ⟨tt, bb, j, rfl⟩ : ∃ (tt : Fin 32) (bb : Fin 16) (j : Fin 1024), y = ix3 tt bb j := ⟨y 0, y 1, y 2, eq_ix3 y⟩
  refine (log_pay (iblk1 V c 0 p) (iblk1 V c 1 p) (iblk1 V c 2 p) tt bb j).trans ?_
  rw [blkRow_eq V c p bb tt ⟨p.val * 16 + bb.val, by omega⟩ rfl]
  show _ = rowArr V Spec.logK c (((cfg1.win 4).blk p).view.emb (ix3 tt bb j))
  refine (rowArr_apply V Spec.logK c (((cfg1.win 4).blk p).view.emb (ix3 tt bb j)) tt ⟨p.val * 16 + bb.val, by omega⟩ j ?_ ?_ ?_).symm
  · show win1_4.index p (0 : Fin 3) * 32 + 1 * tt.val = tt.val; omega
  · show win1_4.index p (1 : Fin 3) * 16 + 1 * bb.val = p.val * 16 + bb.val; omega
  · show win1_4.index p (2 : Fin 3) * 1024 + 1 * j.val = j.val; omega

/-- An index of the array is in point `p`'s block of window 4 iff each coordinate is in the block's range on its axis. -/
theorem log_mem_blk (p : Fin cfg1.N) (i : S32x512x1024.Idx) :
    i ∈ ((cfg1.win 4).blk p).view.set ↔ ∀ a : Fin 3, win1_4.index p a * S32x16x1024.size a ≤ (i a).val ∧ (i a).val < win1_4.index p a * S32x16x1024.size a + S32x16x1024.size a := by
  show i ∈ ((View.whole (Pipeline.arrRef spec1 4)).slice (win1_4.rect p)).set ↔ _
  rw [View.set_slice_whole, Rect.mem_set_unit]
  exact Iff.rfl

/-- Every index of the array is in the block of the point that holds its batch row: `b / 16`. -/
theorem log_cover (i : S32x512x1024.Idx) :
    ∃ p : Fin cfg1.N, (cfg1.win 4).flush p = true ∧ i ∈ ((cfg1.win 4).blk p).view.set := by
  have h0 : (i 0).val < 32 := (i 0).isLt
  have h1 : (i 1).val < 512 := (i 1).isLt
  have h2 : (i 2).val < 1024 := (i 2).isLt
  obtain ⟨p, hp⟩ : ∃ p : Fin cfg1.N, p.val = (i 1).val / 16 := ⟨point_of ⟨(i 1).val / 16, by omega⟩, rfl⟩
  refine ⟨p, flush1_4 p, ?_⟩
  obtain ⟨-, -, -, -, -, -, -, e30, e31, e32, e40, e41, e42⟩ := idx_facts p
  rw [log_mem_blk]
  intro a
  match a with
  | ⟨0, _⟩ => show win1_4.index p (0 : Fin 3) * 32 ≤ (i 0).val ∧ (i 0).val < win1_4.index p (0 : Fin 3) * 32 + 32; omega
  | ⟨1, _⟩ => show win1_4.index p (1 : Fin 3) * 16 ≤ (i 1).val ∧ (i 1).val < win1_4.index p (1 : Fin 3) * 16 + 16; omega
  | ⟨2, _⟩ => show win1_4.index p (2 : Fin 3) * 1024 ≤ (i 2).val ∧ (i 2).val < win1_4.index p (2 : Fin 3) * 1024 + 1024; omega

/-- The array after the region. -/
theorem log_final (c : Dev nD) : (dat1 (F := Ideal) V c).arrAt 4 cfg1.N = rowArr V Spec.logK c :=
  (dat1 (F := Ideal) V c).arrAt_eq_of_cover 4 (rowArr V Spec.logK c) (fun p _ => log_flushed V c p) log_cover

/-- The assignment array after the region. -/
theorem adj_arr (c : Dev nD) (t : Fin 32) (b : Fin 512) (j : Fin 1024) :
    (dat1 (F := Ideal) V c).arrAt 3 cfg1.N (ix3 t b j)
      = Spec.adjK (Spec.nsdRow (fun k => V c main_arg1 (ix3 b t k)) (fun j' k => V c main_v0 (ix2 j' k))
          (fun j' => V c main_v4 (ix2 (0 : Fin 1) j'))) j := by
  rw [adj_final]
  exact rowArr_apply V Spec.adjK c (ix3 t b j) t b j rfl rfl rfl

/-- The clamped-logarithm array after the region. -/
theorem log_arr (c : Dev nD) (t : Fin 32) (b : Fin 512) (j : Fin 1024) :
    (dat1 (F := Ideal) V c).arrAt 4 cfg1.N (ix3 t b j)
      = Spec.logK (Spec.nsdRow (fun k => V c main_arg1 (ix3 b t k)) (fun j' k => V c main_v0 (ix2 j' k))
          (fun j' => V c main_v4 (ix2 (0 : Fin 1) j'))) j := by
  rw [log_final]
  exact rowArr_apply V Spec.logK c (ix3 t b j) t b j rfl rfl rfl

end Cert.KernelIdeal.KDist1

end
-- ==== Proof.KScode2.lean ====
/-
  The score region of the first direction: after its 32 grid points (one time step each) the first output array
  holds the scores S t i j = Σ_m A t i m · L t j m of the assignment array A and the log array L it reads, and the
  second the per-time minimum of the scores.
-/
import proofs.«400058_j87668872446318_3_alg».proof.Proof.Gen.KernelIdeal.Frame
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KScode2

open Idealize.ShloMosaic Idealize.ShloMosaic.TcCoe Idealize.ShloMosaic.ValueIdx Idealize.SL.Sem
open Cert.KernelIdeal Cert.KernelIdeal.Gen

/-! ## The product's operand indices, axis by axis -/

theorem lhs_axis0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_axis1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_axis0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_axis1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product of two [512, 1024] matrices along their second axes, into zero, at (i, j). -/
theorem matmul_at (a b : FVec Ideal S512x1024 .bf16) (i j : Fin 512) :
    (matmul dot_S512x1024_S512x1024_S512x512_1_1_0_0_n_n none a b (constant (F := Ideal) S512x512 .f32 0x00000000#32) : FVec Ideal S512x512 .f32) (ix2 i j)
      = ∑ m : Fin 1024, a (ix2 i m) * b (ix2 j m) := by
  refine (Ideal.matmul_constant_zero_apply dot_S512x1024_S512x1024_S512x512_1_1_0_0_n_n none a b (ix2 i j)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 i j) ((contrEquiv1 dot_S512x1024_S512x1024_S512x512_1_1_0_0_n_n 1024 rfl rfl).symm k) = ix2 i k := funext fun ax => Fin.ext (by
    match ax with
    | ⟨0, _⟩ => exact lhs_axis0 _ _
    | ⟨1, _⟩ => exact (lhs_axis1 _ _).trans hk)
  have er : dot_S512x1024_S512x1024_S512x512_1_1_0_0_n_n.rhsIdx (ix2 i j) ((contrEquiv1 dot_S512x1024_S512x1024_S512x512_1_1_0_0_n_n 1024 rfl rfl).symm k) = ix2 j k := funext fun ax => Fin.ext (by
    match ax with
    | ⟨0, _⟩ => exact rhs_axis0 _ _
    | ⟨1, _⟩ => exact (rhs_axis1 _ _).trans hk)
  rw [el, er]

/-- The kernel's product of its two loaded blocks at (i, j). -/
theorem pay1_at (x0 x1 : Vec Ideal S1x512x1024 .bf16) (i j : Fin 512) :
    k2_pay1 x0 x1 (ix2 i j) = ∑ m : Fin 1024, x0 (ix3 (0 : Fin 1) i m) * x1 (ix3 (0 : Fin 1) j m) := by
  unfold k2_pay1
  refine (matmul_at _ _ i j).trans ?_
  refine Finset.sum_congr rfl fun m _ => ?_
  exact congrArg₂ (· * ·) (shapeCast_1ab_ab_apply x0 shapeCasts_S1x512x1024_S512x1024 i m) (shapeCast_1ab_ab_apply x1 shapeCasts_S1x512x1024_S512x1024 j m)

/-- The stored score block at (b, i, j). -/
theorem pay2_at (x0 x1 : Vec Ideal S1x512x1024 .bf16) (b : Fin 1) (i j : Fin 512) :
    k2_pay2 x0 x1 (ix3 b i j) = ∑ m : Fin 1024, x0 (ix3 (0 : Fin 1) i m) * x1 (ix3 (0 : Fin 1) j m) := by
  unfold k2_pay2
  exact (shapeCast_ab_1ab_apply (k2_pay1 x0 x1) shapeCasts_S512x512_S1x512x512 b i j).trans (pay1_at x0 x1 i j)

/-! ## The minimum over a whole [1, 512, 512] block -/

/-- The shape [1] has one index. -/
theorem idx_one_eq (a b : S1.Idx) : a = b := funext fun d => Fin.ext (by
  match d with
  | ⟨0, _⟩ =>
    show (a 0).val = (b 0).val
    have ha : (a 0).val < 1 := (a 0).isLt
    have hb : (b 0).val < 1 := (b 0).isLt
    omega)

/-- A fold over a rank-3 index set is the fold over the triples of its coordinates. -/
theorem fold_idx3 {β : Type} (op : β → β → β) [Std.Commutative op] [Std.Associative op] (b : β) {n0 n1 n2 : Nat}
    (f : (⟨3, ![n0, n1, n2]⟩ : Shape).Idx → β) :
    Finset.univ.fold op b f = Finset.univ.fold op b (fun p : Fin n0 × Fin n1 × Fin n2 => f (ix3 p.1 p.2.1 p.2.2)) := by
  let e : Fin n0 × Fin n1 × Fin n2 ≃ (⟨3, ![n0, n1, n2]⟩ : Shape).Idx :=
    ⟨fun p => ix3 p.1 p.2.1 p.2.2, fun i => (i 0, i 1, i 2), fun _ => rfl, fun i => (eq_ix3 i).symm⟩
  rw [← Finset.map_univ_equiv e, Finset.fold_map]
  rfl

/-- The word of +∞. -/
theorem ofBits_pinf : Ideal.ofBits .f32 0x7F800000#32 = ⊤ := by simp [Ideal.ofBits, Ideal.ieee]

/-- The minimum-reduction of a [1, 512, 512] vector over its last two axes, from +∞: the minimum of all its entries. -/
theorem min_total (src : FVec Ideal S1x512x512 .f32) (j : S1.Idx) :
    multiReduction (F := Ideal) .minimumf [1, 2] S1 src 0x7F800000#32 reduces_S1x512x512_S1 (.inl rfl) rfl j
      = Spec.emin fun p : Fin 1 × Fin 512 × Fin 512 => src (ix3 p.1 p.2.1 p.2.2) := by
  refine (multiReduction_minimumf_eq_fold src _ reduces_S1x512x512_S1 _ _ j).trans ?_
  rw [Finset.filter_true_of_mem fun i _ => idx_one_eq _ _]
  show Finset.univ.fold min (Ideal.ofBits .f32 0x7F800000#32) src = _
  rw [ofBits_pinf]
  exact fold_idx3 min ⊤ src

/-- A [1, 1, 1] vector read at its entry, splat and cast back to [1, 1, 1], holds that entry everywhere. -/
theorem splat_at {α : Type} (v : S1x1x1.Idx → α) (y : S1x1x1.Idx) :
    shapeCast S1x1x1 (broadcast S1x1 (extractAt ![0, 0, 0] v inpos_S1x1x1_p0_0_0)) shapeCasts_S1x1_S1x1x1 y
      = v (ix3 (0 : Fin 1) (0 : Fin 1) (0 : Fin 1)) := by
  show v _ = v _
  refine congrArg v (funext fun a => ?_)
  match a with
  | ⟨0, _⟩ => rfl
  | ⟨1, _⟩ => rfl
  | ⟨2, _⟩ => rfl

/-- The stored minimum: the least of the block's 512 · 512 scores. -/
theorem pay3_at (x0 x1 : Vec Ideal S1x512x1024 .bf16) (y : S1x1x1.Idx) :
    k2_pay3 x0 x1 y = Spec.emin fun p : Fin 1 × Fin 512 × Fin 512 =>
      ∑ m : Fin 1024, x0 (ix3 (0 : Fin 1) p.2.1 m) * x1 (ix3 (0 : Fin 1) p.2.2 m) := by
  unfold k2_pay3
  refine (splat_at _ y).trans ?_
  refine (shapeCast_apply _ shapeCasts_S1_S1x1x1 _ (ix1 (0 : Fin 1)) ?_).trans ?_
  · rw [Shape.rowMajor_val_one, Shape.rowMajor_val_three]; rfl
  refine (min_total _ _).trans ?_
  refine congrArg Spec.emin (funext fun p => ?_)
  exact (shapeCast_ab_1ab_apply (k2_pay1 x0 x1) shapeCasts_S512x512_S1x512x512 p.1 p.2.1 p.2.2).trans (pay1_at x0 x1 p.2.1 p.2.2)

/-! ## From the blocks to the arrays -/

/- The TensorCore's buffer contents when the region is entered. -/
variable (V : (c : Dev nD) → (b : Ref sig .tc) → Buf (Elt Ideal) ((c : Thread nD τ).loc b))

theorem off_zero : (![0, 0, 0] : Fin 3 → Nat) = fun _ => 0 := funext fun a => by fin_cases a <;> rfl

/-- The printed index maps, decided over the grid: every window's block at point t is block (t, 0, 0). -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0 :=
  (by decide +kernel : ∀ t : Fin grid2.N, _)

/-- The stored score block at any index of the block. -/
theorem pay2_any (x0 x1 : Vec Ideal S1x512x1024 .bf16) (y : S1x512x512.Idx) :
    k2_pay2 x0 x1 y = ∑ m : Fin 1024, x0 (ix3 (0 : Fin 1) (y 1) m) * x1 (ix3 (0 : Fin 1) (y 2) m) := by
  obtain ⟨b, i, j, rfl⟩ : ∃ (b : Fin 1) (i j : Fin 512), y = ix3 b i j := ⟨y 0, y 1, y 2, eq_ix3 y⟩
  exact pay2_at x0 x1 b i j

/-- The first input's block at point t is row t of the assignment array. -/
theorem iblk_0_at (c : Dev nD) (t : Fin cfg2.N) (i : Fin 512) (m : Fin 1024) (k : S32x512x1024.Idx)
    (hk0 : (k 0).val = t.val) (hk1 : (k 1).val = i.val) (hk2 : (k 2).val = m.val) :
    (iblk2 V c 0 t : Vec Ideal S1x512x1024 .bf16) (ix3 (0 : Fin 1) i m) = V c main_v5_0 k := by
  obtain ⟨e0, e1, e2, -⟩ := idx_facts t
  unfold iblk2
  show V c main_v5_0 (((cfg2.win 0).blk t).view.emb (ix3 (0 : Fin 1) i m)) = V c main_v5_0 k
  refine congrArg (V c main_v5_0) (funext fun a => Fin.ext ?_)
  match a with
  | ⟨0, _⟩ => show win2_0.index t (0 : Fin 3) * 1 + 1 * (0 : Nat) = (k 0).val; omega
  | ⟨1, _⟩ => show win2_0.index t (1 : Fin 3) * 512 + 1 * i.val = (k 1).val; omega
  | ⟨2, _⟩ => show win2_0.index t (2 : Fin 3) * 1024 + 1 * m.val = (k 2).val; omega

/-- The second input's block at point t is row t of the log array. -/
theorem iblk_1_at (c : Dev nD) (t : Fin cfg2.N) (i : Fin 512) (m : Fin 1024) (k : S32x512x1024.Idx)
    (hk0 : (k 0).val = t.val) (hk1 : (k 1).val = i.val) (hk2 : (k 2).val = m.val) :
    (iblk2 V c 1 t : Vec Ideal S1x512x1024 .bf16) (ix3 (0 : Fin 1) i m) = V c main_v6_1 k := by
  obtain ⟨-, -, -, e0, e1, e2, -⟩ := idx_facts t
  unfold iblk2
  show V c main_v6_1 (((cfg2.win 1).blk t).view.emb (ix3 (0 : Fin 1) i m)) = V c main_v6_1 k
  refine congrArg (V c main_v6_1) (funext fun a => Fin.ext ?_)
  match a with
  | ⟨0, _⟩ => show win2_1.index t (0 : Fin 3) * 1 + 1 * (0 : Nat) = (k 0).val; omega
  | ⟨1, _⟩ => show win2_1.index t (1 : Fin 3) * 512 + 1 * i.val = (k 1).val; omega
  | ⟨2, _⟩ => show win2_1.index t (2 : Fin 3) * 1024 + 1 * m.val = (k 2).val; omega

/-! ### The scores -/

/-- The score array as one function of its index. -/
def scoreArr (c : Dev nD) : S32x512x512.Idx → EReal := fun i =>
  Spec.scode (fun t' b m => V c main_v5_0 (ix3 t' b m)) (fun t' b m => V c main_v6_1 (ix3 t' b m)) (i 0) (i 1) (i 2)

/-- A block of a score-shaped array read at a block index is the array at the index under it. -/
theorem read_blk_scores (G : S32x512x512.Idx → EReal) (t : Fin cfg2.N) (y : ((cfg2.win 2).xblock (cfg2.grid.coords t)).Idx) :
    ((cfg2.win 2).blk t).view.read (Elt Ideal) G y = G (((cfg2.win 2).blk t).view.emb y) := rfl

/-- What point t writes back to the score array is block t of the scores. -/
theorem flushed_scores (c : Dev nD) (t : Fin cfg2.N) :
    (dat2 (F := Ideal) V c).flushed 2 t = ((cfg2.win 2).blk t).view.read (Elt Ideal) (scoreArr V c) := by
  show (cfg2.win 2).cut (grid2.coords t) ((dat2 V c).after 2 t) = _
  rw [after2_2]
  unfold out2_2
  rw [View.canon_unit_zero off_zero]
  simp only [View.ld_unit_zero (S := S1x512x1024) off_zero]
  obtain ⟨-, -, -, -, -, -, e0, e1, e2, -⟩ := idx_facts t
  funext y
  refine Eq.trans ?_ (read_blk_scores (scoreArr V c) t y).symm
  show k2_pay2 (iblk2 V c 0 t) (iblk2 V c 1 t) ((cfg2.win 2).xinj (grid2.coords t) y) = _
  refine (pay2_any _ _ _).trans ?_
  unfold scoreArr Spec.scode
  have hy0 : (y 0).val < 1 := (y 0).isLt
  have a0 : ((((cfg2.win 2).blk t).view.emb y) 0).val = t.val := by
    show win2_2.index t (0 : Fin 3) * 1 + 1 * (y 0).val = t.val; omega
  have a1 : ((((cfg2.win 2).blk t).view.emb y) 1).val = (y 1).val := by
    show win2_2.index t (1 : Fin 3) * 512 + 1 * (y 1).val = (y 1).val; omega
  have a2 : ((((cfg2.win 2).blk t).view.emb y) 2).val = (y 2).val := by
    show win2_2.index t (2 : Fin 3) * 512 + 1 * (y 2).val = (y 2).val; omega
  refine Finset.sum_congr rfl fun m _ => ?_
  exact congrArg₂ (· * ·) (iblk_0_at V c t _ m _ a0 a1 rfl) (iblk_1_at V c t _ m _ a0 a2 rfl)

/-- An index of the score array is in point t's block iff each coordinate is in the block's range on its axis. -/
theorem mem_blk_scores (t : Fin cfg2.N) (i : S32x512x512.Idx) :
    i ∈ ((cfg2.win 2).blk t).view.set ↔ ∀ a : Fin 3, win2_2.index t a * S1x512x512.size a ≤ (i a).val
      ∧ (i a).val < win2_2.index t a * S1x512x512.size a + S1x512x512.size a := by
  show i ∈ ((View.whole (Pipeline.arrRef spec2 2)).slice (win2_2.rect t)).set ↔ _
  rw [View.set_slice_whole, Rect.mem_set_unit]
  exact Iff.rfl

/-- Every index of the score array is in the block of the point its first coordinate names. -/
theorem cover_scores (i : S32x512x512.Idx) :
    ∃ t : Fin cfg2.N, (cfg2.win 2).flush t = true ∧ i ∈ ((cfg2.win 2).blk t).view.set := by
  have hi0 : (i 0).val < 32 := (i 0).isLt
  have hi1 : (i 1).val < 512 := (i 1).isLt
  have hi2 : (i 2).val < 512 := (i 2).isLt
  have hN : cfg2.N = 32 := by decide
  obtain ⟨tt, htt⟩ : ∃ tt : Fin cfg2.N, tt.val = (i 0).val := ⟨⟨(i 0).val, by rw [hN]; exact hi0⟩, rfl⟩
  obtain ⟨-, -, -, -, -, -, e0, e1, e2, -⟩ := idx_facts tt
  refine ⟨tt, flush2_2 tt, ?_⟩
  rw [mem_blk_scores]
  intro a
  match a with
  | ⟨0, _⟩ =>
    show win2_2.index tt (0 : Fin 3) * 1 ≤ (i 0).val ∧ (i 0).val < win2_2.index tt (0 : Fin 3) * 1 + 1
    omega
  | ⟨1, _⟩ =>
    show win2_2.index tt (1 : Fin 3) * 512 ≤ (i 1).val ∧ (i 1).val < win2_2.index tt (1 : Fin 3) * 512 + 512
    omega
  | ⟨2, _⟩ =>
    show win2_2.index tt (2 : Fin 3) * 512 ≤ (i 2).val ∧ (i 2).val < win2_2.index tt (2 : Fin 3) * 512 + 512
    omega

/-- The score array after the region, as a whole. -/
theorem scores_final (c : Dev nD) : (dat2 (F := Ideal) V c).arrAt 2 cfg2.N = scoreArr V c :=
  (dat2 (F := Ideal) V c).arrAt_eq_of_cover 2 (scoreArr V c) (fun t _ => flushed_scores V c t) cover_scores

/-- The score array after the region. -/
theorem s_arr (c : Dev nD) (t : Fin 32) (i j : Fin 512) :
    (dat2 (F := Ideal) V c).arrAt 2 cfg2.N (ix3 t i j)
      = Spec.scode (fun t' b m => V c main_v5_0 (ix3 t' b m)) (fun t' b m => V c main_v6_1 (ix3 t' b m)) t i j :=
  congrFun (scores_final V c) (ix3 t i j)

/-! ### The per-time minima -/

/-- The array of per-time minima as one function of its index. -/
def tminArr (c : Dev nD) : S32x1x1.Idx → EReal := fun i =>
  Spec.tminK (Spec.scode (fun t' b m => V c main_v5_0 (ix3 t' b m)) (fun t' b m => V c main_v6_1 (ix3 t' b m))) (i 0)

/-- A block of an array shaped as the minima's read at a block index is the array at the index under it. -/
theorem read_blk_tmin (G : S32x1x1.Idx → EReal) (t : Fin cfg2.N) (y : ((cfg2.win 3).xblock (cfg2.grid.coords t)).Idx) :
    ((cfg2.win 3).blk t).view.read (Elt Ideal) G y = G (((cfg2.win 3).blk t).view.emb y) := rfl

/-- What point t writes back to the array of minima is block t of the per-time minima. -/
theorem flushed_tmin (c : Dev nD) (t : Fin cfg2.N) :
    (dat2 (F := Ideal) V c).flushed 3 t = ((cfg2.win 3).blk t).view.read (Elt Ideal) (tminArr V c) := by
  show (cfg2.win 3).cut (grid2.coords t) ((dat2 V c).after 3 t) = _
  rw [after2_3]
  unfold out2_3
  rw [View.canon_unit_zero off_zero]
  simp only [View.ld_unit_zero (S := S1x512x1024) off_zero]
  obtain ⟨-, -, -, -, -, -, -, -, -, e0, e1, e2⟩ := idx_facts t
  funext y
  refine Eq.trans ?_ (read_blk_tmin (tminArr V c) t y).symm
  show k2_pay3 (iblk2 V c 0 t) (iblk2 V c 1 t) ((cfg2.win 3).xinj (grid2.coords t) y) = _
  refine (pay3_at _ _ _).trans ?_
  unfold tminArr Spec.tminK
  have hy0 : (y 0).val < 1 := (y 0).isLt
  have a0 : ((((cfg2.win 3).blk t).view.emb y) 0).val = t.val := by
    show win2_3.index t (0 : Fin 3) * 1 + 1 * (y 0).val = t.val; omega
  refine congrArg Spec.emin (funext fun p => ?_)
  unfold Spec.scode
  refine Finset.sum_congr rfl fun m _ => ?_
  exact congrArg₂ (· * ·) (iblk_0_at V c t _ m _ a0 rfl rfl) (iblk_1_at V c t _ m _ a0 rfl rfl)

/-- An index of the array of minima is in point t's block iff each coordinate is in the block's range on its axis. -/
theorem mem_blk_tmin (t : Fin cfg2.N) (i : S32x1x1.Idx) :
    i ∈ ((cfg2.win 3).blk t).view.set ↔ ∀ a : Fin 3, win2_3.index t a * S1x1x1.size a ≤ (i a).val
      ∧ (i a).val < win2_3.index t a * S1x1x1.size a + S1x1x1.size a := by
  show i ∈ ((View.whole (Pipeline.arrRef spec2 3)).slice (win2_3.rect t)).set ↔ _
  rw [View.set_slice_whole, Rect.mem_set_unit]
  exact Iff.rfl

/-- Every index of the array of minima is in the block of the point its first coordinate names. -/
theorem cover_tmin (i : S32x1x1.Idx) :
    ∃ t : Fin cfg2.N, (cfg2.win 3).flush t = true ∧ i ∈ ((cfg2.win 3).blk t).view.set := by
  have hi0 : (i 0).val < 32 := (i 0).isLt
  have hi1 : (i 1).val < 1 := (i 1).isLt
  have hi2 : (i 2).val < 1 := (i 2).isLt
  have hN : cfg2.N = 32 := by decide
  obtain ⟨tt, htt⟩ : ∃ tt : Fin cfg2.N, tt.val = (i 0).val := ⟨⟨(i 0).val, by rw [hN]; exact hi0⟩, rfl⟩
  obtain ⟨-, -, -, -, -, -, -, -, -, e0, e1, e2⟩ := idx_facts tt
  refine ⟨tt, flush2_3 tt, ?_⟩
  rw [mem_blk_tmin]
  intro a
  match a with
  | ⟨0, _⟩ =>
    show win2_3.index tt (0 : Fin 3) * 1 ≤ (i 0).val ∧ (i 0).val < win2_3.index tt (0 : Fin 3) * 1 + 1
    omega
  | ⟨1, _⟩ =>
    show win2_3.index tt (1 : Fin 3) * 1 ≤ (i 1).val ∧ (i 1).val < win2_3.index tt (1 : Fin 3) * 1 + 1
    omega
  | ⟨2, _⟩ =>
    show win2_3.index tt (2 : Fin 3) * 1 ≤ (i 2).val ∧ (i 2).val < win2_3.index tt (2 : Fin 3) * 1 + 1
    omega

/-- The array of per-time minima after the region, as a whole. -/
theorem tmin_final (c : Dev nD) : (dat2 (F := Ideal) V c).arrAt 3 cfg2.N = tminArr V c :=
  (dat2 (F := Ideal) V c).arrAt_eq_of_cover 3 (tminArr V c) (fun t _ => flushed_tmin V c t) cover_tmin

/-- The per-time minima after the region. -/
theorem tmin_arr (c : Dev nD) (t : Fin 32) :
    (dat2 (F := Ideal) V c).arrAt 3 cfg2.N (ix3 t (0 : Fin 1) (0 : Fin 1))
      = Spec.tminK (Spec.scode (fun t' b m => V c main_v5_0 (ix3 t' b m)) (fun t' b m => V c main_v6_1 (ix3 t' b m))) t :=
  congrFun (tmin_final V c) (ix3 t (0 : Fin 1) (0 : Fin 1))

end Cert.KernelIdeal.KScode2

end
-- ==== Proof.KScode4.lean ====
/-
  The score region of the second direction: after its 32 grid points (one time step each) the first output array
  holds the scores S t i j = Σ_m A t i m · L t j m of the assignment array A and the log array L it reads, and the
  second the per-time minimum of the scores.
-/
import proofs.«400058_j87668872446318_3_alg».proof.Proof.Gen.KernelIdeal.Frame
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KScode4

open Idealize.ShloMosaic Idealize.ShloMosaic.TcCoe Idealize.ShloMosaic.ValueIdx Idealize.SL.Sem
open Cert.KernelIdeal Cert.KernelIdeal.Gen

/-! ## The product's operand indices, axis by axis -/

theorem lhs_axis0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_axis1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_axis0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_axis1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product of two [512, 1024] matrices along their second axes, into zero, at (i, j). -/
theorem matmul_at (a b : FVec Ideal S512x1024 .bf16) (i j : Fin 512) :
    (matmul dot_S512x1024_S512x1024_S512x512_1_1_0_0_n_n none a b (constant (F := Ideal) S512x512 .f32 0x00000000#32) : FVec Ideal S512x512 .f32) (ix2 i j)
      = ∑ m : Fin 1024, a (ix2 i m) * b (ix2 j m) := by
  refine (Ideal.matmul_constant_zero_apply dot_S512x1024_S512x1024_S512x512_1_1_0_0_n_n none a b (ix2 i j)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 i j) ((contrEquiv1 dot_S512x1024_S512x1024_S512x512_1_1_0_0_n_n 1024 rfl rfl).symm k) = ix2 i k := funext fun ax => Fin.ext (by
    match ax with
    | ⟨0, _⟩ => exact lhs_axis0 _ _
    | ⟨1, _⟩ => exact (lhs_axis1 _ _).trans hk)
  have er : dot_S512x1024_S512x1024_S512x512_1_1_0_0_n_n.rhsIdx (ix2 i j) ((contrEquiv1 dot_S512x1024_S512x1024_S512x512_1_1_0_0_n_n 1024 rfl rfl).symm k) = ix2 j k := funext fun ax => Fin.ext (by
    match ax with
    | ⟨0, _⟩ => exact rhs_axis0 _ _
    | ⟨1, _⟩ => exact (rhs_axis1 _ _).trans hk)
  rw [el, er]

/-- The kernel's product of its two loaded blocks at (i, j). -/
theorem pay1_at (x0 x1 : Vec Ideal S1x512x1024 .bf16) (i j : Fin 512) :
    k4_pay1 x0 x1 (ix2 i j) = ∑ m : Fin 1024, x0 (ix3 (0 : Fin 1) i m) * x1 (ix3 (0 : Fin 1) j m) := by
  unfold k4_pay1
  refine (matmul_at _ _ i j).trans ?_
  refine Finset.sum_congr rfl fun m _ => ?_
  exact congrArg₂ (· * ·) (shapeCast_1ab_ab_apply x0 shapeCasts_S1x512x1024_S512x1024 i m) (shapeCast_1ab_ab_apply x1 shapeCasts_S1x512x1024_S512x1024 j m)

/-- The stored score block at (b, i, j). -/
theorem pay2_at (x0 x1 : Vec Ideal S1x512x1024 .bf16) (b : Fin 1) (i j : Fin 512) :
    k4_pay2 x0 x1 (ix3 b i j) = ∑ m : Fin 1024, x0 (ix3 (0 : Fin 1) i m) * x1 (ix3 (0 : Fin 1) j m) := by
  unfold k4_pay2
  exact (shapeCast_ab_1ab_apply (k4_pay1 x0 x1) shapeCasts_S512x512_S1x512x512 b i j).trans (pay1_at x0 x1 i j)

/-! ## The minimum over a whole [1, 512, 512] block -/

/-- The shape [1] has one index. -/
theorem idx_one_eq (a b : S1.Idx) : a = b := funext fun d => Fin.ext (by
  match d with
  | ⟨0, _⟩ =>
    show (a 0).val = (b 0).val
    have ha : (a 0).val < 1 := (a 0).isLt
    have hb : (b 0).val < 1 := (b 0).isLt
    omega)

/-- A fold over a rank-3 index set is the fold over the triples of its coordinates. -/
theorem fold_idx3 {β : Type} (op : β → β → β) [Std.Commutative op] [Std.Associative op] (b : β) {n0 n1 n2 : Nat}
    (f : (⟨3, ![n0, n1, n2]⟩ : Shape).Idx → β) :
    Finset.univ.fold op b f = Finset.univ.fold op b (fun p : Fin n0 × Fin n1 × Fin n2 => f (ix3 p.1 p.2.1 p.2.2)) := by
  let e : Fin n0 × Fin n1 × Fin n2 ≃ (⟨3, ![n0, n1, n2]⟩ : Shape).Idx :=
    ⟨fun p => ix3 p.1 p.2.1 p.2.2, fun i => (i 0, i 1, i 2), fun _ => rfl, fun i => (eq_ix3 i).symm⟩
  rw [← Finset.map_univ_equiv e, Finset.fold_map]
  rfl

/-- The word of +∞. -/
theorem ofBits_pinf : Ideal.ofBits .f32 0x7F800000#32 = ⊤ := by simp [Ideal.ofBits, Ideal.ieee]

/-- The minimum-reduction of a [1, 512, 512] vector over its last two axes, from +∞: the minimum of all its entries. -/
theorem min_total (src : FVec Ideal S1x512x512 .f32) (j : S1.Idx) :
    multiReduction (F := Ideal) .minimumf [1, 2] S1 src 0x7F800000#32 reduces_S1x512x512_S1 (.inl rfl) rfl j
      = Spec.emin fun p : Fin 1 × Fin 512 × Fin 512 => src (ix3 p.1 p.2.1 p.2.2) := by
  refine (multiReduction_minimumf_eq_fold src _ reduces_S1x512x512_S1 _ _ j).trans ?_
  rw [Finset.filter_true_of_mem fun i _ => idx_one_eq _ _]
  show Finset.univ.fold min (Ideal.ofBits .f32 0x7F800000#32) src = _
  rw [ofBits_pinf]
  exact fold_idx3 min ⊤ src

/-- A [1, 1, 1] vector read at its entry, splat and cast back to [1, 1, 1], holds that entry everywhere. -/
theorem splat_at {α : Type} (v : S1x1x1.Idx → α) (y : S1x1x1.Idx) :
    shapeCast S1x1x1 (broadcast S1x1 (extractAt ![0, 0, 0] v inpos_S1x1x1_p0_0_0)) shapeCasts_S1x1_S1x1x1 y
      = v (ix3 (0 : Fin 1) (0 : Fin 1) (0 : Fin 1)) := by
  show v _ = v _
  refine congrArg v (funext fun a => ?_)
  match a with
  | ⟨0, _⟩ => rfl
  | ⟨1, _⟩ => rfl
  | ⟨2, _⟩ => rfl

/-- The stored minimum: the least of the block's 512 · 512 scores. -/
theorem pay3_at (x0 x1 : Vec Ideal S1x512x1024 .bf16) (y : S1x1x1.Idx) :
    k4_pay3 x0 x1 y = Spec.emin fun p : Fin 1 × Fin 512 × Fin 512 =>
      ∑ m : Fin 1024, x0 (ix3 (0 : Fin 1) p.2.1 m) * x1 (ix3 (0 : Fin 1) p.2.2 m) := by
  unfold k4_pay3
  refine (splat_at _ y).trans ?_
  refine (shapeCast_apply _ shapeCasts_S1_S1x1x1 _ (ix1 (0 : Fin 1)) ?_).trans ?_
  · rw [Shape.rowMajor_val_one, Shape.rowMajor_val_three]; rfl
  refine (min_total _ _).trans ?_
  refine congrArg Spec.emin (funext fun p => ?_)
  exact (shapeCast_ab_1ab_apply (k4_pay1 x0 x1) shapeCasts_S512x512_S1x512x512 p.1 p.2.1 p.2.2).trans (pay1_at x0 x1 p.2.1 p.2.2)

/-! ## From the blocks to the arrays -/

/- The TensorCore's buffer contents when the region is entered. -/
variable (V : (c : Dev nD) → (b : Ref sig .tc) → Buf (Elt Ideal) ((c : Thread nD τ).loc b))

theorem off_zero : (![0, 0, 0] : Fin 3 → Nat) = fun _ => 0 := funext fun a => by fin_cases a <;> rfl

/-- The printed index maps, decided over the grid: every window's block at point t is block (t, 0, 0). -/
theorem idx_facts : ∀ t : Fin cfg4.N,
    win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_3.index t (0 : Fin 3) = t.val ∧ win4_3.index t (1 : Fin 3) = 0 ∧ win4_3.index t (2 : Fin 3) = 0 :=
  (by decide +kernel : ∀ t : Fin grid4.N, _)

/-- The stored score block at any index of the block. -/
theorem pay2_any (x0 x1 : Vec Ideal S1x512x1024 .bf16) (y : S1x512x512.Idx) :
    k4_pay2 x0 x1 y = ∑ m : Fin 1024, x0 (ix3 (0 : Fin 1) (y 1) m) * x1 (ix3 (0 : Fin 1) (y 2) m) := by
  obtain ⟨b, i, j, rfl⟩ : ∃ (b : Fin 1) (i j : Fin 512), y = ix3 b i j := ⟨y 0, y 1, y 2, eq_ix3 y⟩
  exact pay2_at x0 x1 b i j

/-- The first input's block at point t is row t of the assignment array. -/
theorem iblk_0_at (c : Dev nD) (t : Fin cfg4.N) (i : Fin 512) (m : Fin 1024) (k : S32x512x1024.Idx)
    (hk0 : (k 0).val = t.val) (hk1 : (k 1).val = i.val) (hk2 : (k 2).val = m.val) :
    (iblk4 V c 0 t : Vec Ideal S1x512x1024 .bf16) (ix3 (0 : Fin 1) i m) = V c main_v6_0 k := by
  obtain ⟨e0, e1, e2, -⟩ := idx_facts t
  unfold iblk4
  show V c main_v6_0 (((cfg4.win 0).blk t).view.emb (ix3 (0 : Fin 1) i m)) = V c main_v6_0 k
  refine congrArg (V c main_v6_0) (funext fun a => Fin.ext ?_)
  match a with
  | ⟨0, _⟩ => show win4_0.index t (0 : Fin 3) * 1 + 1 * (0 : Nat) = (k 0).val; omega
  | ⟨1, _⟩ => show win4_0.index t (1 : Fin 3) * 512 + 1 * i.val = (k 1).val; omega
  | ⟨2, _⟩ => show win4_0.index t (2 : Fin 3) * 1024 + 1 * m.val = (k 2).val; omega

/-- The second input's block at point t is row t of the log array. -/
theorem iblk_1_at (c : Dev nD) (t : Fin cfg4.N) (i : Fin 512) (m : Fin 1024) (k : S32x512x1024.Idx)
    (hk0 : (k 0).val = t.val) (hk1 : (k 1).val = i.val) (hk2 : (k 2).val = m.val) :
    (iblk4 V c 1 t : Vec Ideal S1x512x1024 .bf16) (ix3 (0 : Fin 1) i m) = V c main_v5_1 k := by
  obtain ⟨-, -, -, e0, e1, e2, -⟩ := idx_facts t
  unfold iblk4
  show V c main_v5_1 (((cfg4.win 1).blk t).view.emb (ix3 (0 : Fin 1) i m)) = V c main_v5_1 k
  refine congrArg (V c main_v5_1) (funext fun a => Fin.ext ?_)
  match a with
  | ⟨0, _⟩ => show win4_1.index t (0 : Fin 3) * 1 + 1 * (0 : Nat) = (k 0).val; omega
  | ⟨1, _⟩ => show win4_1.index t (1 : Fin 3) * 512 + 1 * i.val = (k 1).val; omega
  | ⟨2, _⟩ => show win4_1.index t (2 : Fin 3) * 1024 + 1 * m.val = (k 2).val; omega

/-! ### The scores -/

/-- The score array as one function of its index. -/
def scoreArr (c : Dev nD) : S32x512x512.Idx → EReal := fun i =>
  Spec.scode (fun t' b m => V c main_v6_0 (ix3 t' b m)) (fun t' b m => V c main_v5_1 (ix3 t' b m)) (i 0) (i 1) (i 2)

/-- A block of a score-shaped array read at a block index is the array at the index under it. -/
theorem read_blk_scores (G : S32x512x512.Idx → EReal) (t : Fin cfg4.N) (y : ((cfg4.win 2).xblock (cfg4.grid.coords t)).Idx) :
    ((cfg4.win 2).blk t).view.read (Elt Ideal) G y = G (((cfg4.win 2).blk t).view.emb y) := rfl

/-- What point t writes back to the score array is block t of the scores. -/
theorem flushed_scores (c : Dev nD) (t : Fin cfg4.N) :
    (dat4 (F := Ideal) V c).flushed 2 t = ((cfg4.win 2).blk t).view.read (Elt Ideal) (scoreArr V c) := by
  show (cfg4.win 2).cut (grid4.coords t) ((dat4 V c).after 2 t) = _
  rw [after4_2]
  unfold out4_2
  rw [View.canon_unit_zero off_zero]
  simp only [View.ld_unit_zero (S := S1x512x1024) off_zero]
  obtain ⟨-, -, -, -, -, -, e0, e1, e2, -⟩ := idx_facts t
  funext y
  refine Eq.trans ?_ (read_blk_scores (scoreArr V c) t y).symm
  show k4_pay2 (iblk4 V c 0 t) (iblk4 V c 1 t) ((cfg4.win 2).xinj (grid4.coords t) y) = _
  refine (pay2_any _ _ _).trans ?_
  unfold scoreArr Spec.scode
  have hy0 : (y 0).val < 1 := (y 0).isLt
  have a0 : ((((cfg4.win 2).blk t).view.emb y) 0).val = t.val := by
    show win4_2.index t (0 : Fin 3) * 1 + 1 * (y 0).val = t.val; omega
  have a1 : ((((cfg4.win 2).blk t).view.emb y) 1).val = (y 1).val := by
    show win4_2.index t (1 : Fin 3) * 512 + 1 * (y 1).val = (y 1).val; omega
  have a2 : ((((cfg4.win 2).blk t).view.emb y) 2).val = (y 2).val := by
    show win4_2.index t (2 : Fin 3) * 512 + 1 * (y 2).val = (y 2).val; omega
  refine Finset.sum_congr rfl fun m _ => ?_
  exact congrArg₂ (· * ·) (iblk_0_at V c t _ m _ a0 a1 rfl) (iblk_1_at V c t _ m _ a0 a2 rfl)

/-- An index of the score array is in point t's block iff each coordinate is in the block's range on its axis. -/
theorem mem_blk_scores (t : Fin cfg4.N) (i : S32x512x512.Idx) :
    i ∈ ((cfg4.win 2).blk t).view.set ↔ ∀ a : Fin 3, win4_2.index t a * S1x512x512.size a ≤ (i a).val
      ∧ (i a).val < win4_2.index t a * S1x512x512.size a + S1x512x512.size a := by
  show i ∈ ((View.whole (Pipeline.arrRef spec4 2)).slice (win4_2.rect t)).set ↔ _
  rw [View.set_slice_whole, Rect.mem_set_unit]
  exact Iff.rfl

/-- Every index of the score array is in the block of the point its first coordinate names. -/
theorem cover_scores (i : S32x512x512.Idx) :
    ∃ t : Fin cfg4.N, (cfg4.win 2).flush t = true ∧ i ∈ ((cfg4.win 2).blk t).view.set := by
  have hi0 : (i 0).val < 32 := (i 0).isLt
  have hi1 : (i 1).val < 512 := (i 1).isLt
  have hi2 : (i 2).val < 512 := (i 2).isLt
  have hN : cfg4.N = 32 := by decide
  obtain ⟨tt, htt⟩ : ∃ tt : Fin cfg4.N, tt.val = (i 0).val := ⟨⟨(i 0).val, by rw [hN]; exact hi0⟩, rfl⟩
  obtain ⟨-, -, -, -, -, -, e0, e1, e2, -⟩ := idx_facts tt
  refine ⟨tt, flush4_2 tt, ?_⟩
  rw [mem_blk_scores]
  intro a
  match a with
  | ⟨0, _⟩ =>
    show win4_2.index tt (0 : Fin 3) * 1 ≤ (i 0).val ∧ (i 0).val < win4_2.index tt (0 : Fin 3) * 1 + 1
    omega
  | ⟨1, _⟩ =>
    show win4_2.index tt (1 : Fin 3) * 512 ≤ (i 1).val ∧ (i 1).val < win4_2.index tt (1 : Fin 3) * 512 + 512
    omega
  | ⟨2, _⟩ =>
    show win4_2.index tt (2 : Fin 3) * 512 ≤ (i 2).val ∧ (i 2).val < win4_2.index tt (2 : Fin 3) * 512 + 512
    omega

/-- The score array after the region, as a whole. -/
theorem scores_final (c : Dev nD) : (dat4 (F := Ideal) V c).arrAt 2 cfg4.N = scoreArr V c :=
  (dat4 (F := Ideal) V c).arrAt_eq_of_cover 2 (scoreArr V c) (fun t _ => flushed_scores V c t) cover_scores

/-- The score array after the region. -/
theorem s_arr (c : Dev nD) (t : Fin 32) (i j : Fin 512) :
    (dat4 (F := Ideal) V c).arrAt 2 cfg4.N (ix3 t i j)
      = Spec.scode (fun t' b m => V c main_v6_0 (ix3 t' b m)) (fun t' b m => V c main_v5_1 (ix3 t' b m)) t i j :=
  congrFun (scores_final V c) (ix3 t i j)

/-! ### The per-time minima -/

/-- The array of per-time minima as one function of its index. -/
def tminArr (c : Dev nD) : S32x1x1.Idx → EReal := fun i =>
  Spec.tminK (Spec.scode (fun t' b m => V c main_v6_0 (ix3 t' b m)) (fun t' b m => V c main_v5_1 (ix3 t' b m))) (i 0)

/-- A block of an array shaped as the minima's read at a block index is the array at the index under it. -/
theorem read_blk_tmin (G : S32x1x1.Idx → EReal) (t : Fin cfg4.N) (y : ((cfg4.win 3).xblock (cfg4.grid.coords t)).Idx) :
    ((cfg4.win 3).blk t).view.read (Elt Ideal) G y = G (((cfg4.win 3).blk t).view.emb y) := rfl

/-- What point t writes back to the array of minima is block t of the per-time minima. -/
theorem flushed_tmin (c : Dev nD) (t : Fin cfg4.N) :
    (dat4 (F := Ideal) V c).flushed 3 t = ((cfg4.win 3).blk t).view.read (Elt Ideal) (tminArr V c) := by
  show (cfg4.win 3).cut (grid4.coords t) ((dat4 V c).after 3 t) = _
  rw [after4_3]
  unfold out4_3
  rw [View.canon_unit_zero off_zero]
  simp only [View.ld_unit_zero (S := S1x512x1024) off_zero]
  obtain ⟨-, -, -, -, -, -, -, -, -, e0, e1, e2⟩ := idx_facts t
  funext y
  refine Eq.trans ?_ (read_blk_tmin (tminArr V c) t y).symm
  show k4_pay3 (iblk4 V c 0 t) (iblk4 V c 1 t) ((cfg4.win 3).xinj (grid4.coords t) y) = _
  refine (pay3_at _ _ _).trans ?_
  unfold tminArr Spec.tminK
  have hy0 : (y 0).val < 1 := (y 0).isLt
  have a0 : ((((cfg4.win 3).blk t).view.emb y) 0).val = t.val := by
    show win4_3.index t (0 : Fin 3) * 1 + 1 * (y 0).val = t.val; omega
  refine congrArg Spec.emin (funext fun p => ?_)
  unfold Spec.scode
  refine Finset.sum_congr rfl fun m _ => ?_
  exact congrArg₂ (· * ·) (iblk_0_at V c t _ m _ a0 rfl rfl) (iblk_1_at V c t _ m _ a0 rfl rfl)

/-- An index of the array of minima is in point t's block iff each coordinate is in the block's range on its axis. -/
theorem mem_blk_tmin (t : Fin cfg4.N) (i : S32x1x1.Idx) :
    i ∈ ((cfg4.win 3).blk t).view.set ↔ ∀ a : Fin 3, win4_3.index t a * S1x1x1.size a ≤ (i a).val
      ∧ (i a).val < win4_3.index t a * S1x1x1.size a + S1x1x1.size a := by
  show i ∈ ((View.whole (Pipeline.arrRef spec4 3)).slice (win4_3.rect t)).set ↔ _
  rw [View.set_slice_whole, Rect.mem_set_unit]
  exact Iff.rfl

/-- Every index of the array of minima is in the block of the point its first coordinate names. -/
theorem cover_tmin (i : S32x1x1.Idx) :
    ∃ t : Fin cfg4.N, (cfg4.win 3).flush t = true ∧ i ∈ ((cfg4.win 3).blk t).view.set := by
  have hi0 : (i 0).val < 32 := (i 0).isLt
  have hi1 : (i 1).val < 1 := (i 1).isLt
  have hi2 : (i 2).val < 1 := (i 2).isLt
  have hN : cfg4.N = 32 := by decide
  obtain ⟨tt, htt⟩ : ∃ tt : Fin cfg4.N, tt.val = (i 0).val := ⟨⟨(i 0).val, by rw [hN]; exact hi0⟩, rfl⟩
  obtain ⟨-, -, -, -, -, -, -, -, -, e0, e1, e2⟩ := idx_facts tt
  refine ⟨tt, flush4_3 tt, ?_⟩
  rw [mem_blk_tmin]
  intro a
  match a with
  | ⟨0, _⟩ =>
    show win4_3.index tt (0 : Fin 3) * 1 ≤ (i 0).val ∧ (i 0).val < win4_3.index tt (0 : Fin 3) * 1 + 1
    omega
  | ⟨1, _⟩ =>
    show win4_3.index tt (1 : Fin 3) * 1 ≤ (i 1).val ∧ (i 1).val < win4_3.index tt (1 : Fin 3) * 1 + 1
    omega
  | ⟨2, _⟩ =>
    show win4_3.index tt (2 : Fin 3) * 1 ≤ (i 2).val ∧ (i 2).val < win4_3.index tt (2 : Fin 3) * 1 + 1
    omega

/-- The array of per-time minima after the region, as a whole. -/
theorem tmin_final (c : Dev nD) : (dat4 (F := Ideal) V c).arrAt 3 cfg4.N = tminArr V c :=
  (dat4 (F := Ideal) V c).arrAt_eq_of_cover 3 (tminArr V c) (fun t _ => flushed_tmin V c t) cover_tmin

/-- The per-time minima after the region. -/
theorem tmin_arr (c : Dev nD) (t : Fin 32) :
    (dat4 (F := Ideal) V c).arrAt 3 cfg4.N (ix3 t (0 : Fin 1) (0 : Fin 1))
      = Spec.tminK (Spec.scode (fun t' b m => V c main_v6_0 (ix3 t' b m)) (fun t' b m => V c main_v5_1 (ix3 t' b m))) t :=
  congrFun (tmin_final V c) (ix3 t (0 : Fin 1) (0 : Fin 1))

end Cert.KernelIdeal.KScode4

end
-- ==== Proof.KFinal3.lean ====
/-
  The closing region of the first direction: after its 32 grid points (one time step each) the output array holds,
  per time step, the sum over the 512 rows of 0 - log (exp (S_ii + c) / (Σ_j exp (S_ij + c) + 1e-5)), from the
  score array S and the one-element shift array c it reads.
-/
import proofs.«400058_j87668872446318_3_alg».proof.Proof.Gen.KernelIdeal.Frame
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KFinal3

open Idealize.ShloMosaic Idealize.ShloMosaic.TcCoe Idealize.ShloMosaic.ValueIdx Idealize.SL.Sem
open Cert.KernelIdeal Cert.KernelIdeal.Gen

/- The TensorCore's buffer contents when the region is entered. -/
variable (V : (c : Dev nD) → (b : Ref sig .tc) → Buf (Elt Ideal) ((c : Thread nD τ).loc b))

/-! ## Layout steps read at an index -/

/-- A [1,512,512] block viewed as [512,512]. -/
theorem cast_drop_apply (v : S1x512x512.Idx → EReal) (h : S1x512x512.ShapeCasts S512x512) (i j : Fin 512) :
    shapeCast S512x512 v h (ix2 i j) = v (ix3 (0 : Fin 1) i j) :=
  shapeCast_apply v h (ix2 i j) (ix3 (0 : Fin 1) i j) (by
    rw [Shape.rowMajor_val_three, Shape.rowMajor_val_two]
    show ((0 : Nat) * 512 + i.val) * 512 + j.val = i.val * 512 + j.val
    omega)

/-- A [512] vector viewed as a [512,1] column. -/
theorem cast_col_apply (v : S512.Idx → EReal) (h : S512.ShapeCasts S512x1) (i : Fin 512) :
    shapeCast S512x1 v h (ix2 i (0 : Fin 1)) = v (ix1 i) :=
  shapeCast_apply v h (ix2 i (0 : Fin 1)) (ix1 i) (by
    rw [Shape.rowMajor_val_one, Shape.rowMajor_val_two]
    show i.val = i.val * 1 + 0
    omega)

/-- A [1] vector viewed as [1,1]. -/
theorem cast_one_apply (v : S1.Idx → EReal) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by
    rw [Shape.rowMajor_val_one, Shape.rowMajor_val_two]
    show (0 : Nat) = 0 * 1 + 0
    omega)

/-- A [1,1] vector viewed as [1,1,1]. -/
theorem cast_unit_apply (v : S1x1.Idx → EReal) (h : S1x1.ShapeCasts S1x1x1) :
    shapeCast S1x1x1 v h (ix3 (0 : Fin 1) (0 : Fin 1) (0 : Fin 1)) = v (ix2 (0 : Fin 1) (0 : Fin 1)) :=
  shapeCast_apply v h (ix3 (0 : Fin 1) (0 : Fin 1) (0 : Fin 1)) (ix2 (0 : Fin 1) (0 : Fin 1)) (by
    rw [Shape.rowMajor_val_three, Shape.rowMajor_val_two]
    show (0 : Nat) * 1 + 0 = (0 * 1 + 0) * 1 + 0
    omega)

/-! ## Reductions read at an index -/

/-- The sum along a row of a [512,512] vector. -/
theorem row_sum_apply (src : FVec Ideal S512x512 .f32) (h : S512x512.Reduces [1] S512) (hφ : FKind.Formats .f32)
    (hacc : (0x00000000#32 : BitVec 32) = FKind.add.neutral .f32 hφ) (i : Fin 512) :
    multiReduction .add [1] S512 src 0x00000000#32 h hφ hacc (ix1 i) = ∑ j : Fin 512, src (ix2 i j) := by
  refine (Ideal.multiReduction_add_single src 0x00000000#32 h hφ hacc (ix1 i)).trans ?_
  refine Finset.sum_congr rfl fun k _ => congrArg src ?_
  funext a
  apply Fin.ext
  match a with
  | ⟨0, _⟩ => rfl
  | ⟨1, _⟩ => rfl

/-- The sum down the one column of a [512,1] vector. -/
theorem col_sum_apply (src : FVec Ideal S512x1 .f32) (h : S512x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ i : Fin 512, src (ix2 i (0 : Fin 1)) := by
  refine (Ideal.multiReduction_add_single src 0x00000000#32 h hφ hacc (ix1 (0 : Fin 1))).trans ?_
  refine Finset.sum_congr rfl fun k _ => congrArg src ?_
  funext a
  apply Fin.ext
  match a with
  | ⟨0, _⟩ => rfl
  | ⟨1, _⟩ => rfl

/-! ## The diagonal mask -/

theorem ofNat32_inj (i j : Fin 512) (h : BitVec.ofNat 32 i.val = BitVec.ofNat 32 j.val) : i = j := by
  have h' := congrArg BitVec.toNat h
  rw [BitVec.toNat_ofNat, BitVec.toNat_ofNat] at h'
  have hi := i.isLt
  have hj := j.isLt
  apply Fin.ext
  omega

/-- Selecting by "row number = column number" keeps the first operand on the diagonal and the second off it. -/
theorem diag_select_apply (a b : FVec Ideal S512x512 .f32) (h0 : S512x512.Iotas .tc 32 [0]) (h1 : S512x512.Iotas .tc 32 [1])
    (i j : Fin 512) :
    select (cmpi .eq (iota .tc S512x512 32 [0] h0) (iota .tc S512x512 32 [1] h1)) a b (ix2 i j)
      = if j = i then a (ix2 i j) else b (ix2 i j) := by
  show Scalar.select (IntOp.cmpi .eq (iota .tc S512x512 32 [0] h0 (ix2 i j)) (iota .tc S512x512 32 [1] h1 (ix2 i j))) _ _ = _
  rw [iota_single_apply, iota_single_apply]
  show Scalar.select (IntOp.cmpi .eq (BitVec.ofNat 32 i.val) (BitVec.ofNat 32 j.val)) _ _ = _
  by_cases hij : j = i
  · subst hij
    rw [if_pos rfl, show IntOp.cmpi .eq (BitVec.ofNat 32 j.val) (BitVec.ofNat 32 j.val) = 1#1 from IntOp.cmpi_eq.mpr rfl]
    exact select_one _ _
  · rw [if_neg hij, eq_zero_of_ne_one (fun h => hij (ofNat32_inj i j (IntOp.cmpi_eq.mp h)).symm)]
    exact select_zero _ _

/-- The sum along a row of the diagonal-masked vector is the diagonal entry. -/
theorem diag_sum_apply (a : FVec Ideal S512x512 .f32) (h0 : S512x512.Iotas .tc 32 [0]) (h1 : S512x512.Iotas .tc 32 [1])
    (h : S512x512.Reduces [1] S512) (hφ : FKind.Formats .f32) (hacc : (0x00000000#32 : BitVec 32) = FKind.add.neutral .f32 hφ)
    (i : Fin 512) :
    multiReduction .add [1] S512
        (select (cmpi .eq (iota .tc S512x512 32 [0] h0) (iota .tc S512x512 32 [1] h1)) a
          (broadcast S512x512 (FloatOps.ofBits (F := Ideal) .f32 0x00000000#32)))
        0x00000000#32 h hφ hacc (ix1 i)
      = a (ix2 i i) := by
  refine (row_sum_apply _ h hφ hacc i).trans ?_
  refine (Finset.sum_congr rfl fun j _ =>
    (diag_select_apply a _ h0 h1 i j).trans (if_congr Iff.rfl rfl Ideal.ofBits_zero_f32)).trans ?_
  rw [Finset.sum_ite_eq' Finset.univ i (fun j => a (ix2 i j))]
  exact if_pos (Finset.mem_univ i)

/-- The exponential of the shifted block, viewed [512,512], at an index. -/
theorem expo_apply (x0 : Vec Ideal S1x512x512 .f32) (x1 : Vec Ideal S1x1 .f32) (hc : S1x512x512.ShapeCasts S512x512)
    (hp : ∀ a, (![0, 0] : Fin 2 → Nat) a < S1x1.size a) (i j : Fin 512) :
    (exp (addf (shapeCast S512x512 x0 hc) (broadcast S512x512 (extractAt ![0, 0] x1 hp))) : FVec Ideal S512x512 .f32) (ix2 i j)
      = Ideal.exp (x0 (ix3 (0 : Fin 1) i j) + x1 (ix2 (0 : Fin 1) (0 : Fin 1))) := by
  show Ideal.exp (shapeCast S512x512 x0 hc (ix2 i j) + extractAt ![0, 0] x1 hp) = _
  rw [cast_drop_apply]
  refine congrArg (fun z => Ideal.exp (x0 (ix3 (0 : Fin 1) i j) + z)) ?_
  show x1 _ = x1 _
  refine congrArg x1 (funext fun a => Fin.ext ?_)
  match a with
  | ⟨0, _⟩ => rfl
  | ⟨1, _⟩ => rfl

/-! ## The payload at its one index -/

/-- The stored value: the sum over the rows of `0 - log (exp (x_ii + c) / (Σ_j exp (x_ij + c) + 1e-5))`, from the score block
    `x` and the shift `c` the one-element block holds. -/
theorem pay_apply (x0 : Vec Ideal S1x512x512 .f32) (x1 : Vec Ideal S1x1 .f32) :
    k3_pay1 (F := Ideal) x0 x1 (ix3 (0 : Fin 1) (0 : Fin 1) (0 : Fin 1))
      = ∑ i : Fin 512, (0 - Ideal.log (Ideal.div (Ideal.exp (x0 (ix3 (0 : Fin 1) i i) + x1 (ix2 (0 : Fin 1) (0 : Fin 1))))
          ((∑ j : Fin 512, Ideal.exp (x0 (ix3 (0 : Fin 1) i j) + x1 (ix2 (0 : Fin 1) (0 : Fin 1)))) + Spec.eps5))) := by
  unfold k3_pay1
  refine (cast_unit_apply _ _).trans ?_
  refine (cast_one_apply _ _).trans ?_
  refine (col_sum_apply _ _ _ _).trans ?_
  refine Finset.sum_congr rfl fun i _ => ?_
  show Ideal.ofBits .f32 0x00000000#32
      - Ideal.log (Ideal.div (shapeCast S512x1 _ _ (ix2 i (0 : Fin 1)))
          (shapeCast S512x1 _ _ (ix2 i (0 : Fin 1)) + Ideal.ofBits .f32 0x3727C5AC#32)) = _
  rw [Ideal.ofBits_zero_f32]
  refine congrArg (fun z => 0 - Ideal.log z) ?_
  refine congrArg₂ Ideal.div ?_ (congrArg (fun z => z + Spec.eps5) ?_)
  · refine (cast_col_apply _ _ i).trans ?_
    refine (diag_sum_apply _ _ _ _ _ _ i).trans ?_
    exact expo_apply x0 x1 _ _ i i
  · refine (cast_col_apply _ _ i).trans ?_
    refine (row_sum_apply _ _ _ _ i).trans ?_
    exact Finset.sum_congr rfl fun j _ => expo_apply x0 x1 _ _ i j

/-! ## From the blocks to the array -/

theorem zeros_rank_three : (![0, 0, 0] : Fin 3 → Nat) = fun _ => 0 := funext fun a => by fin_cases a <;> rfl
theorem zeros_rank_two : (![0, 0] : Fin 2 → Nat) = fun _ => 0 := funext fun a => by fin_cases a <;> rfl

/-- A [1,1,1] vector has one index. -/
theorem idx_unit (y : S1x1x1.Idx) : y = ix3 (0 : Fin 1) (0 : Fin 1) (0 : Fin 1) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)

/-- The per-time sums as one [32,1,1] array, from a score array and a shift. -/
def partArr (S : Fin 32 → Fin 512 → Fin 512 → EReal) (sh : EReal) : S32x1x1.Idx → EReal :=
  fun i => Spec.partAt S sh (i 0)

/-- The grid has 32 points. -/
theorem grid_pts : cfg3.N = 32 := by decide

/-- The index maps over the grid: at point `t` the score block and the output block are the `t`-th along the leading axis,
    the shift's block is the one block. -/
theorem idx_facts : ∀ t : Fin cfg3.N, win3_0.index t (0 : Fin 3) = t.val ∧ win3_0.index t (1 : Fin 3) = 0
    ∧ win3_0.index t (2 : Fin 3) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0 :=
  (by decide +kernel : ∀ t : Fin grid3.N, _)

/-- The score block at point `t` is time step `t` of the score array. -/
theorem score_blk_apply (c : Dev nD) (t : Fin cfg3.N) (i j : Fin 512) :
    iblk3 (F := Ideal) V c 0 t (ix3 (0 : Fin 1) i j) = V c main_v7_0 (ix3 (Fin.cast grid_pts t) i j) := by
  obtain ⟨e0, e1, e2, -⟩ := idx_facts t
  show V c main_v7_0 (((cfg3.win 0).blk t).view.emb (ix3 (0 : Fin 1) i j)) = V c main_v7_0 (ix3 (Fin.cast grid_pts t) i j)
  refine congrArg (V c main_v7_0) (funext fun a => Fin.ext ?_)
  match a with
  | ⟨0, _⟩ => show win3_0.index t (0 : Fin 3) * 1 + 1 * 0 = t.val; omega
  | ⟨1, _⟩ => show win3_0.index t (1 : Fin 3) * 512 + 1 * i.val = i.val; omega
  | ⟨2, _⟩ => show win3_0.index t (2 : Fin 3) * 512 + 1 * j.val = j.val; omega

/-- The shift's block at every point is the shift array. -/
theorem shift_blk_apply (c : Dev nD) (t : Fin cfg3.N) :
    iblk3 (F := Ideal) V c 1 t (ix2 (0 : Fin 1) (0 : Fin 1)) = V c main_v10 (ix2 (0 : Fin 1) (0 : Fin 1)) := by
  obtain ⟨-, -, -, e0, e1, -⟩ := idx_facts t
  show V c main_v10 (((cfg3.win 1).blk t).view.emb (ix2 (0 : Fin 1) (0 : Fin 1))) = V c main_v10 (ix2 (0 : Fin 1) (0 : Fin 1))
  refine congrArg (V c main_v10) (funext fun a => Fin.ext ?_)
  match a with
  | ⟨0, _⟩ => show win3_1.index t (0 : Fin 2) * 1 + 1 * 0 = 0; omega
  | ⟨1, _⟩ => show win3_1.index t (1 : Fin 2) * 1 + 1 * 0 = 0; omega

/-- The output block at point `t` sits at time step `t` of the output array. -/
theorem out_emb (t : Fin cfg3.N) :
    (((cfg3.win 2).blk t).view.emb (ix3 (0 : Fin 1) (0 : Fin 1) (0 : Fin 1)) : S32x1x1.Idx)
      = ix3 (Fin.cast grid_pts t) (0 : Fin 1) (0 : Fin 1) := by
  obtain ⟨-, -, -, -, -, e0, e1, e2⟩ := idx_facts t
  refine funext fun a => Fin.ext ?_
  match a with
  | ⟨0, _⟩ => show win3_2.index t (0 : Fin 3) * 1 + 1 * 0 = t.val; omega
  | ⟨1, _⟩ => show win3_2.index t (1 : Fin 3) * 1 + 1 * 0 = 0; omega
  | ⟨2, _⟩ => show win3_2.index t (2 : Fin 3) * 1 + 1 * 0 = 0; omega

/-- What point `t` writes back is block `t` of the array of per-time sums. -/
theorem flushed_eq (c : Dev nD) (t : Fin cfg3.N) :
    (dat3 (F := Ideal) V c).flushed 2 t
      = ((cfg3.win 2).blk t).view.read (Elt Ideal)
          (partArr (fun t' i j => V c main_v7_0 (ix3 t' i j)) (V c main_v10 (ix2 (0 : Fin 1) (0 : Fin 1)))) := by
  show (cfg3.win 2).cut (grid3.coords t) ((dat3 V c).after 2 t) = _
  rw [after3_2]
  unfold out3_2
  rw [View.canon_unit_zero zeros_rank_three]
  simp only [View.ld_unit_zero (S := S1x512x512) zeros_rank_three, View.ld_unit_zero (S := S1x1) zeros_rank_two]
  funext y
  have hy : y = ix3 (0 : Fin 1) (0 : Fin 1) (0 : Fin 1) := idx_unit y
  subst hy
  show k3_pay1 (iblk3 V c 0 t) (iblk3 V c 1 t) (ix3 (0 : Fin 1) (0 : Fin 1) (0 : Fin 1))
    = partArr (fun t' i j => V c main_v7_0 (ix3 t' i j)) (V c main_v10 (ix2 (0 : Fin 1) (0 : Fin 1)))
        (((cfg3.win 2).blk t).view.emb (ix3 (0 : Fin 1) (0 : Fin 1) (0 : Fin 1)))
  rw [pay_apply, out_emb]
  show _ = Spec.partAt _ _ (Fin.cast grid_pts t)
  unfold Spec.partAt Spec.ratio
  refine Finset.sum_congr rfl fun i _ => ?_
  rw [shift_blk_apply, score_blk_apply]
  refine congrArg (fun z => 0 - Ideal.log (Ideal.div _ (z + Spec.eps5))) ?_
  exact Finset.sum_congr rfl fun j _ => by rw [score_blk_apply]

/-- An index of the output array is in point `t`'s block iff each coordinate is in the block's range on its axis. -/
theorem mem_blk (t : Fin cfg3.N) (i : S32x1x1.Idx) :
    i ∈ ((cfg3.win 2).blk t).view.set
      ↔ ∀ a : Fin 3, win3_2.index t a * S1x1x1.size a ≤ (i a).val ∧ (i a).val < win3_2.index t a * S1x1x1.size a + S1x1x1.size a := by
  show i ∈ ((View.whole (Pipeline.arrRef spec3 2)).slice (win3_2.rect t)).set ↔ _
  rw [View.set_slice_whole, Rect.mem_set_unit]
  exact Iff.rfl

/-- Every index of the output array is in the block of the point of its time step. -/
theorem covered (i : S32x1x1.Idx) :
    ∃ t : Fin cfg3.N, (cfg3.win 2).flush t = true ∧ i ∈ ((cfg3.win 2).blk t).view.set := by
  have hi0 : (i 0).val < 32 := (i 0).isLt
  have hi1 : (i 1).val < 1 := (i 1).isLt
  have hi2 : (i 2).val < 1 := (i 2).isLt
  have hN : cfg3.N = 32 := grid_pts
  refine ⟨⟨(i 0).val, by omega⟩, flush3_2 _, ?_⟩
  rw [mem_blk]
  obtain ⟨-, -, -, -, -, e0, e1, e2⟩ := idx_facts ⟨(i 0).val, by omega⟩
  intro a
  match a with
  | ⟨0, _⟩ =>
    show win3_2.index ⟨(i 0).val, _⟩ (0 : Fin 3) * 1 ≤ (i 0).val ∧ (i 0).val < win3_2.index ⟨(i 0).val, _⟩ (0 : Fin 3) * 1 + 1
    rw [e0]
    show (i 0).val * 1 ≤ (i 0).val ∧ (i 0).val < (i 0).val * 1 + 1
    omega
  | ⟨1, _⟩ =>
    show win3_2.index ⟨(i 0).val, _⟩ (1 : Fin 3) * 1 ≤ (i 1).val ∧ (i 1).val < win3_2.index ⟨(i 0).val, _⟩ (1 : Fin 3) * 1 + 1
    rw [e1]; omega
  | ⟨2, _⟩ =>
    show win3_2.index ⟨(i 0).val, _⟩ (2 : Fin 3) * 1 ≤ (i 2).val ∧ (i 2).val < win3_2.index ⟨(i 0).val, _⟩ (2 : Fin 3) * 1 + 1
    rw [e2]; omega

/-- The output array after the region: the per-time sums. -/
theorem final_arr (c : Dev nD) :
    (dat3 (F := Ideal) V c).arrAt 2 cfg3.N
      = partArr (fun t' i j => V c main_v7_0 (ix3 t' i j)) (V c main_v10 (ix2 (0 : Fin 1) (0 : Fin 1))) :=
  (dat3 V c).arrAt_eq_of_cover 2 _ (fun t _ => flushed_eq V c t) covered

/-- The per-time partial sums after the region. -/
theorem part_arr (c : Dev nD) (t : Fin 32) :
    (dat3 (F := Ideal) V c).arrAt 2 cfg3.N (ix3 t (0 : Fin 1) (0 : Fin 1))
      = Spec.partAt (fun t' i j => V c main_v7_0 (ix3 t' i j)) (V c main_v10 (ix2 (0 : Fin 1) (0 : Fin 1))) t := by
  rw [final_arr]
  rfl

end Cert.KernelIdeal.KFinal3

end
-- ==== Proof.KFinal5.lean ====
/-
  The closing region of the second direction: after its 32 grid points (one time step each) the output array holds,
  per time step, the sum over the 512 rows of 0 - log (exp (S_ii + c) / (Σ_j exp (S_ij + c) + 1e-5)), from the
  score array S and the one-element shift array c it reads.
-/
import proofs.«400058_j87668872446318_3_alg».proof.Proof.Gen.KernelIdeal.Frame
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KFinal5

open Idealize.ShloMosaic Idealize.ShloMosaic.TcCoe Idealize.ShloMosaic.ValueIdx Idealize.SL.Sem
open Cert.KernelIdeal Cert.KernelIdeal.Gen

/- The TensorCore's buffer contents when the region is entered. -/
variable (V : (c : Dev nD) → (b : Ref sig .tc) → Buf (Elt Ideal) ((c : Thread nD τ).loc b))

/-! ## Layout steps read at an index -/

/-- A [1,512,512] block viewed as [512,512]. -/
theorem cast_drop_apply (v : S1x512x512.Idx → EReal) (h : S1x512x512.ShapeCasts S512x512) (i j : Fin 512) :
    shapeCast S512x512 v h (ix2 i j) = v (ix3 (0 : Fin 1) i j) :=
  shapeCast_apply v h (ix2 i j) (ix3 (0 : Fin 1) i j) (by
    rw [Shape.rowMajor_val_three, Shape.rowMajor_val_two]
    show ((0 : Nat) * 512 + i.val) * 512 + j.val = i.val * 512 + j.val
    omega)

/-- A [512] vector viewed as a [512,1] column. -/
theorem cast_col_apply (v : S512.Idx → EReal) (h : S512.ShapeCasts S512x1) (i : Fin 512) :
    shapeCast S512x1 v h (ix2 i (0 : Fin 1)) = v (ix1 i) :=
  shapeCast_apply v h (ix2 i (0 : Fin 1)) (ix1 i) (by
    rw [Shape.rowMajor_val_one, Shape.rowMajor_val_two]
    show i.val = i.val * 1 + 0
    omega)

/-- A [1] vector viewed as [1,1]. -/
theorem cast_one_apply (v : S1.Idx → EReal) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by
    rw [Shape.rowMajor_val_one, Shape.rowMajor_val_two]
    show (0 : Nat) = 0 * 1 + 0
    omega)

/-- A [1,1] vector viewed as [1,1,1]. -/
theorem cast_unit_apply (v : S1x1.Idx → EReal) (h : S1x1.ShapeCasts S1x1x1) :
    shapeCast S1x1x1 v h (ix3 (0 : Fin 1) (0 : Fin 1) (0 : Fin 1)) = v (ix2 (0 : Fin 1) (0 : Fin 1)) :=
  shapeCast_apply v h (ix3 (0 : Fin 1) (0 : Fin 1) (0 : Fin 1)) (ix2 (0 : Fin 1) (0 : Fin 1)) (by
    rw [Shape.rowMajor_val_three, Shape.rowMajor_val_two]
    show (0 : Nat) * 1 + 0 = (0 * 1 + 0) * 1 + 0
    omega)

/-! ## Reductions read at an index -/

/-- The sum along a row of a [512,512] vector. -/
theorem row_sum_apply (src : FVec Ideal S512x512 .f32) (h : S512x512.Reduces [1] S512) (hφ : FKind.Formats .f32)
    (hacc : (0x00000000#32 : BitVec 32) = FKind.add.neutral .f32 hφ) (i : Fin 512) :
    multiReduction .add [1] S512 src 0x00000000#32 h hφ hacc (ix1 i) = ∑ j : Fin 512, src (ix2 i j) := by
  refine (Ideal.multiReduction_add_single src 0x00000000#32 h hφ hacc (ix1 i)).trans ?_
  refine Finset.sum_congr rfl fun k _ => congrArg src ?_
  funext a
  apply Fin.ext
  match a with
  | ⟨0, _⟩ => rfl
  | ⟨1, _⟩ => rfl

/-- The sum down the one column of a [512,1] vector. -/
theorem col_sum_apply (src : FVec Ideal S512x1 .f32) (h : S512x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ i : Fin 512, src (ix2 i (0 : Fin 1)) := by
  refine (Ideal.multiReduction_add_single src 0x00000000#32 h hφ hacc (ix1 (0 : Fin 1))).trans ?_
  refine Finset.sum_congr rfl fun k _ => congrArg src ?_
  funext a
  apply Fin.ext
  match a with
  | ⟨0, _⟩ => rfl
  | ⟨1, _⟩ => rfl

/-! ## The diagonal mask -/

theorem ofNat32_inj (i j : Fin 512) (h : BitVec.ofNat 32 i.val = BitVec.ofNat 32 j.val) : i = j := by
  have h' := congrArg BitVec.toNat h
  rw [BitVec.toNat_ofNat, BitVec.toNat_ofNat] at h'
  have hi := i.isLt
  have hj := j.isLt
  apply Fin.ext
  omega

/-- Selecting by "row number = column number" keeps the first operand on the diagonal and the second off it. -/
theorem diag_select_apply (a b : FVec Ideal S512x512 .f32) (h0 : S512x512.Iotas .tc 32 [0]) (h1 : S512x512.Iotas .tc 32 [1])
    (i j : Fin 512) :
    select (cmpi .eq (iota .tc S512x512 32 [0] h0) (iota .tc S512x512 32 [1] h1)) a b (ix2 i j)
      = if j = i then a (ix2 i j) else b (ix2 i j) := by
  show Scalar.select (IntOp.cmpi .eq (iota .tc S512x512 32 [0] h0 (ix2 i j)) (iota .tc S512x512 32 [1] h1 (ix2 i j))) _ _ = _
  rw [iota_single_apply, iota_single_apply]
  show Scalar.select (IntOp.cmpi .eq (BitVec.ofNat 32 i.val) (BitVec.ofNat 32 j.val)) _ _ = _
  by_cases hij : j = i
  · subst hij
    rw [if_pos rfl, show IntOp.cmpi .eq (BitVec.ofNat 32 j.val) (BitVec.ofNat 32 j.val) = 1#1 from IntOp.cmpi_eq.mpr rfl]
    exact select_one _ _
  · rw [if_neg hij, eq_zero_of_ne_one (fun h => hij (ofNat32_inj i j (IntOp.cmpi_eq.mp h)).symm)]
    exact select_zero _ _

/-- The sum along a row of the diagonal-masked vector is the diagonal entry. -/
theorem diag_sum_apply (a : FVec Ideal S512x512 .f32) (h0 : S512x512.Iotas .tc 32 [0]) (h1 : S512x512.Iotas .tc 32 [1])
    (h : S512x512.Reduces [1] S512) (hφ : FKind.Formats .f32) (hacc : (0x00000000#32 : BitVec 32) = FKind.add.neutral .f32 hφ)
    (i : Fin 512) :
    multiReduction .add [1] S512
        (select (cmpi .eq (iota .tc S512x512 32 [0] h0) (iota .tc S512x512 32 [1] h1)) a
          (broadcast S512x512 (FloatOps.ofBits (F := Ideal) .f32 0x00000000#32)))
        0x00000000#32 h hφ hacc (ix1 i)
      = a (ix2 i i) := by
  refine (row_sum_apply _ h hφ hacc i).trans ?_
  refine (Finset.sum_congr rfl fun j _ =>
    (diag_select_apply a _ h0 h1 i j).trans (if_congr Iff.rfl rfl Ideal.ofBits_zero_f32)).trans ?_
  rw [Finset.sum_ite_eq' Finset.univ i (fun j => a (ix2 i j))]
  exact if_pos (Finset.mem_univ i)

/-- The exponential of the shifted block, viewed [512,512], at an index. -/
theorem expo_apply (x0 : Vec Ideal S1x512x512 .f32) (x1 : Vec Ideal S1x1 .f32) (hc : S1x512x512.ShapeCasts S512x512)
    (hp : ∀ a, (![0, 0] : Fin 2 → Nat) a < S1x1.size a) (i j : Fin 512) :
    (exp (addf (shapeCast S512x512 x0 hc) (broadcast S512x512 (extractAt ![0, 0] x1 hp))) : FVec Ideal S512x512 .f32) (ix2 i j)
      = Ideal.exp (x0 (ix3 (0 : Fin 1) i j) + x1 (ix2 (0 : Fin 1) (0 : Fin 1))) := by
  show Ideal.exp (shapeCast S512x512 x0 hc (ix2 i j) + extractAt ![0, 0] x1 hp) = _
  rw [cast_drop_apply]
  refine congrArg (fun z => Ideal.exp (x0 (ix3 (0 : Fin 1) i j) + z)) ?_
  show x1 _ = x1 _
  refine congrArg x1 (funext fun a => Fin.ext ?_)
  match a with
  | ⟨0, _⟩ => rfl
  | ⟨1, _⟩ => rfl

/-! ## The payload at its one index -/

/-- The stored value: the sum over the rows of `0 - log (exp (x_ii + c) / (Σ_j exp (x_ij + c) + 1e-5))`, from the score block
    `x` and the shift `c` the one-element block holds. -/
theorem pay_apply (x0 : Vec Ideal S1x512x512 .f32) (x1 : Vec Ideal S1x1 .f32) :
    k5_pay1 (F := Ideal) x0 x1 (ix3 (0 : Fin 1) (0 : Fin 1) (0 : Fin 1))
      = ∑ i : Fin 512, (0 - Ideal.log (Ideal.div (Ideal.exp (x0 (ix3 (0 : Fin 1) i i) + x1 (ix2 (0 : Fin 1) (0 : Fin 1))))
          ((∑ j : Fin 512, Ideal.exp (x0 (ix3 (0 : Fin 1) i j) + x1 (ix2 (0 : Fin 1) (0 : Fin 1)))) + Spec.eps5))) := by
  unfold k5_pay1
  refine (cast_unit_apply _ _).trans ?_
  refine (cast_one_apply _ _).trans ?_
  refine (col_sum_apply _ _ _ _).trans ?_
  refine Finset.sum_congr rfl fun i _ => ?_
  show Ideal.ofBits .f32 0x00000000#32
      - Ideal.log (Ideal.div (shapeCast S512x1 _ _ (ix2 i (0 : Fin 1)))
          (shapeCast S512x1 _ _ (ix2 i (0 : Fin 1)) + Ideal.ofBits .f32 0x3727C5AC#32)) = _
  rw [Ideal.ofBits_zero_f32]
  refine congrArg (fun z => 0 - Ideal.log z) ?_
  refine congrArg₂ Ideal.div ?_ (congrArg (fun z => z + Spec.eps5) ?_)
  · refine (cast_col_apply _ _ i).trans ?_
    refine (diag_sum_apply _ _ _ _ _ _ i).trans ?_
    exact expo_apply x0 x1 _ _ i i
  · refine (cast_col_apply _ _ i).trans ?_
    refine (row_sum_apply _ _ _ _ i).trans ?_
    exact Finset.sum_congr rfl fun j _ => expo_apply x0 x1 _ _ i j

/-! ## From the blocks to the array -/

theorem zeros_rank_three : (![0, 0, 0] : Fin 3 → Nat) = fun _ => 0 := funext fun a => by fin_cases a <;> rfl
theorem zeros_rank_two : (![0, 0] : Fin 2 → Nat) = fun _ => 0 := funext fun a => by fin_cases a <;> rfl

/-- A [1,1,1] vector has one index. -/
theorem idx_unit (y : S1x1x1.Idx) : y = ix3 (0 : Fin 1) (0 : Fin 1) (0 : Fin 1) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)

/-- The per-time sums as one [32,1,1] array, from a score array and a shift. -/
def partArr (S : Fin 32 → Fin 512 → Fin 512 → EReal) (sh : EReal) : S32x1x1.Idx → EReal :=
  fun i => Spec.partAt S sh (i 0)

/-- The grid has 32 points. -/
theorem grid_pts : cfg5.N = 32 := by decide

/-- The index maps over the grid: at point `t` the score block and the output block are the `t`-th along the leading axis,
    the shift's block is the one block. -/
theorem idx_facts : ∀ t : Fin cfg5.N, win5_0.index t (0 : Fin 3) = t.val ∧ win5_0.index t (1 : Fin 3) = 0
    ∧ win5_0.index t (2 : Fin 3) = 0
    ∧ win5_1.index t (0 : Fin 2) = 0 ∧ win5_1.index t (1 : Fin 2) = 0
    ∧ win5_2.index t (0 : Fin 3) = t.val ∧ win5_2.index t (1 : Fin 3) = 0 ∧ win5_2.index t (2 : Fin 3) = 0 :=
  (by decide +kernel : ∀ t : Fin grid5.N, _)

/-- The score block at point `t` is time step `t` of the score array. -/
theorem score_blk_apply (c : Dev nD) (t : Fin cfg5.N) (i j : Fin 512) :
    iblk5 (F := Ideal) V c 0 t (ix3 (0 : Fin 1) i j) = V c main_v13_0 (ix3 (Fin.cast grid_pts t) i j) := by
  obtain ⟨e0, e1, e2, -⟩ := idx_facts t
  show V c main_v13_0 (((cfg5.win 0).blk t).view.emb (ix3 (0 : Fin 1) i j)) = V c main_v13_0 (ix3 (Fin.cast grid_pts t) i j)
  refine congrArg (V c main_v13_0) (funext fun a => Fin.ext ?_)
  match a with
  | ⟨0, _⟩ => show win5_0.index t (0 : Fin 3) * 1 + 1 * 0 = t.val; omega
  | ⟨1, _⟩ => show win5_0.index t (1 : Fin 3) * 512 + 1 * i.val = i.val; omega
  | ⟨2, _⟩ => show win5_0.index t (2 : Fin 3) * 512 + 1 * j.val = j.val; omega

/-- The shift's block at every point is the shift array. -/
theorem shift_blk_apply (c : Dev nD) (t : Fin cfg5.N) :
    iblk5 (F := Ideal) V c 1 t (ix2 (0 : Fin 1) (0 : Fin 1)) = V c main_v16 (ix2 (0 : Fin 1) (0 : Fin 1)) := by
  obtain ⟨-, -, -, e0, e1, -⟩ := idx_facts t
  show V c main_v16 (((cfg5.win 1).blk t).view.emb (ix2 (0 : Fin 1) (0 : Fin 1))) = V c main_v16 (ix2 (0 : Fin 1) (0 : Fin 1))
  refine congrArg (V c main_v16) (funext fun a => Fin.ext ?_)
  match a with
  | ⟨0, _⟩ => show win5_1.index t (0 : Fin 2) * 1 + 1 * 0 = 0; omega
  | ⟨1, _⟩ => show win5_1.index t (1 : Fin 2) * 1 + 1 * 0 = 0; omega

/-- The output block at point `t` sits at time step `t` of the output array. -/
theorem out_emb (t : Fin cfg5.N) :
    (((cfg5.win 2).blk t).view.emb (ix3 (0 : Fin 1) (0 : Fin 1) (0 : Fin 1)) : S32x1x1.Idx)
      = ix3 (Fin.cast grid_pts t) (0 : Fin 1) (0 : Fin 1) := by
  obtain ⟨-, -, -, -, -, e0, e1, e2⟩ := idx_facts t
  refine funext fun a => Fin.ext ?_
  match a with
  | ⟨0, _⟩ => show win5_2.index t (0 : Fin 3) * 1 + 1 * 0 = t.val; omega
  | ⟨1, _⟩ => show win5_2.index t (1 : Fin 3) * 1 + 1 * 0 = 0; omega
  | ⟨2, _⟩ => show win5_2.index t (2 : Fin 3) * 1 + 1 * 0 = 0; omega

/-- What point `t` writes back is block `t` of the array of per-time sums. -/
theorem flushed_eq (c : Dev nD) (t : Fin cfg5.N) :
    (dat5 (F := Ideal) V c).flushed 2 t
      = ((cfg5.win 2).blk t).view.read (Elt Ideal)
          (partArr (fun t' i j => V c main_v13_0 (ix3 t' i j)) (V c main_v16 (ix2 (0 : Fin 1) (0 : Fin 1)))) := by
  show (cfg5.win 2).cut (grid5.coords t) ((dat5 V c).after 2 t) = _
  rw [after5_2]
  unfold out5_2
  rw [View.canon_unit_zero zeros_rank_three]
  simp only [View.ld_unit_zero (S := S1x512x512) zeros_rank_three, View.ld_unit_zero (S := S1x1) zeros_rank_two]
  funext y
  have hy : y = ix3 (0 : Fin 1) (0 : Fin 1) (0 : Fin 1) := idx_unit y
  subst hy
  show k5_pay1 (iblk5 V c 0 t) (iblk5 V c 1 t) (ix3 (0 : Fin 1) (0 : Fin 1) (0 : Fin 1))
    = partArr (fun t' i j => V c main_v13_0 (ix3 t' i j)) (V c main_v16 (ix2 (0 : Fin 1) (0 : Fin 1)))
        (((cfg5.win 2).blk t).view.emb (ix3 (0 : Fin 1) (0 : Fin 1) (0 : Fin 1)))
  rw [pay_apply, out_emb]
  show _ = Spec.partAt _ _ (Fin.cast grid_pts t)
  unfold Spec.partAt Spec.ratio
  refine Finset.sum_congr rfl fun i _ => ?_
  rw [shift_blk_apply, score_blk_apply]
  refine congrArg (fun z => 0 - Ideal.log (Ideal.div _ (z + Spec.eps5))) ?_
  exact Finset.sum_congr rfl fun j _ => by rw [score_blk_apply]

/-- An index of the output array is in point `t`'s block iff each coordinate is in the block's range on its axis. -/
theorem mem_blk (t : Fin cfg5.N) (i : S32x1x1.Idx) :
    i ∈ ((cfg5.win 2).blk t).view.set
      ↔ ∀ a : Fin 3, win5_2.index t a * S1x1x1.size a ≤ (i a).val ∧ (i a).val < win5_2.index t a * S1x1x1.size a + S1x1x1.size a := by
  show i ∈ ((View.whole (Pipeline.arrRef spec5 2)).slice (win5_2.rect t)).set ↔ _
  rw [View.set_slice_whole, Rect.mem_set_unit]
  exact Iff.rfl

/-- Every index of the output array is in the block of the point of its time step. -/
theorem covered (i : S32x1x1.Idx) :
    ∃ t : Fin cfg5.N, (cfg5.win 2).flush t = true ∧ i ∈ ((cfg5.win 2).blk t).view.set := by
  have hi0 : (i 0).val < 32 := (i 0).isLt
  have hi1 : (i 1).val < 1 := (i 1).isLt
  have hi2 : (i 2).val < 1 := (i 2).isLt
  have hN : cfg5.N = 32 := grid_pts
  refine ⟨⟨(i 0).val, by omega⟩, flush5_2 _, ?_⟩
  rw [mem_blk]
  obtain ⟨-, -, -, -, -, e0, e1, e2⟩ := idx_facts ⟨(i 0).val, by omega⟩
  intro a
  match a with
  | ⟨0, _⟩ =>
    show win5_2.index ⟨(i 0).val, _⟩ (0 : Fin 3) * 1 ≤ (i 0).val ∧ (i 0).val < win5_2.index ⟨(i 0).val, _⟩ (0 : Fin 3) * 1 + 1
    rw [e0]
    show (i 0).val * 1 ≤ (i 0).val ∧ (i 0).val < (i 0).val * 1 + 1
    omega
  | ⟨1, _⟩ =>
    show win5_2.index ⟨(i 0).val, _⟩ (1 : Fin 3) * 1 ≤ (i 1).val ∧ (i 1).val < win5_2.index ⟨(i 0).val, _⟩ (1 : Fin 3) * 1 + 1
    rw [e1]; omega
  | ⟨2, _⟩ =>
    show win5_2.index ⟨(i 0).val, _⟩ (2 : Fin 3) * 1 ≤ (i 2).val ∧ (i 2).val < win5_2.index ⟨(i 0).val, _⟩ (2 : Fin 3) * 1 + 1
    rw [e2]; omega

/-- The output array after the region: the per-time sums. -/
theorem final_arr (c : Dev nD) :
    (dat5 (F := Ideal) V c).arrAt 2 cfg5.N
      = partArr (fun t' i j => V c main_v13_0 (ix3 t' i j)) (V c main_v16 (ix2 (0 : Fin 1) (0 : Fin 1))) :=
  (dat5 V c).arrAt_eq_of_cover 2 _ (fun t _ => flushed_eq V c t) covered

/-- The per-time partial sums after the region. -/
theorem part_arr (c : Dev nD) (t : Fin 32) :
    (dat5 (F := Ideal) V c).arrAt 2 cfg5.N (ix3 t (0 : Fin 1) (0 : Fin 1))
      = Spec.partAt (fun t' i j => V c main_v13_0 (ix3 t' i j)) (V c main_v16 (ix2 (0 : Fin 1) (0 : Fin 1))) t := by
  rw [final_arr]
  rfl

end Cert.KernelIdeal.KFinal5

end
-- ==== Proof.KValue.lean ====
/-
  The kernel program's result as the specification's function of its three argument arrays: the buffer contents at
  each boundary between @main's segments, followed from the launch to the return.  Each distance region leaves the
  modality's assignment and log arrays, each score region the scores and their per-time minima, the host takes the
  shift, each closing region the per-time sums, and the host adds the two directions and divides by 2 · 32 · 512.
-/
import proofs.«400058_j87668872446318_3_alg».proof.Proof.Gen.KernelIdeal.Frame
import proofs.«400058_j87668872446318_3_alg».proof.Proof.Spec
import proofs.«400058_j87668872446318_3_alg».proof.Proof.KHost
import proofs.«400058_j87668872446318_3_alg».proof.Proof.KDist0
import proofs.«400058_j87668872446318_3_alg».proof.Proof.KDist1
import proofs.«400058_j87668872446318_3_alg».proof.Proof.KScode2
import proofs.«400058_j87668872446318_3_alg».proof.Proof.KScode4
import proofs.«400058_j87668872446318_3_alg».proof.Proof.KFinal3
import proofs.«400058_j87668872446318_3_alg».proof.Proof.KFinal5

set_option maxRecDepth 16384

noncomputable section

open scoped BigOperators

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.KHost

variable (m : (ℓ : Loc nD τ sig) → Buf (Elt Ideal) ℓ) (ρ : Dev nD → PrngReg)

/-- The audio features, the video features and the codebook by coordinates. -/
abbrev Xa (c : Dev nD) : Fin 512 → Fin 32 → Fin 512 → EReal := fun b t k => m ((c : Thread nD τ).loc main_arg0) (ix3 b t k)
abbrev Xv (c : Dev nD) : Fin 512 → Fin 32 → Fin 512 → EReal := fun b t k => m ((c : Thread nD τ).loc main_arg1) (ix3 b t k)
abbrev Ecb (c : Dev nD) : Fin 1024 → Fin 512 → EReal := fun j k => m ((c : Thread nD τ).loc main_arg2) (ix2 j k)

/-- The two directions' scores. -/
abbrev S1 (c : Dev nD) : Fin 32 → Fin 512 → Fin 512 → EReal :=
  Spec.scode (Spec.adjArrK (Ecb m c) (Xa m c)) (Spec.logArrK (Ecb m c) (Xv m c))
abbrev S2 (c : Dev nD) : Fin 32 → Fin 512 → Fin 512 → EReal :=
  Spec.scode (Spec.adjArrK (Ecb m c) (Xv m c)) (Spec.logArrK (Ecb m c) (Xa m c))

/-! ## At the first region's entry -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl

/-! ## After the audio distance region -/

theorem V2_v5_0 (c : Dev nD) (t : Fin 32) (b : Fin 512) (j : Fin 1024) :
    V2 m ρ c main_v5_0 (ix3 t b j) = Spec.adjArrK (Ecb m c) (Xa m c) t b j := by
  have h0 : ((fun k => V1 m ρ c main_arg0 (ix3 b t k)) : Fin 512 → EReal) = Xa m c b t :=
    funext fun k => congrFun (V1_arg0 m ρ c) _
  have hE : ((fun j' k => V1 m ρ c main_v0 (ix2 j' k)) : Fin 1024 → Fin 512 → EReal) = Ecb m c :=
    funext fun j' => funext fun k => congrFun (v0_eq m ρ c) _
  have hQ : ((fun j' => V1 m ρ c main_v4 (ix2 (0 : Fin 1) j')) : Fin 1024 → EReal) = Spec.sqe (Ecb m c) :=
    funext fun j' => v4_eq m ρ c j'
  show W2 m ρ c (Proc.devRef .tc (Pipeline.arrRef spec0 3)) (ix3 t b j) = _
  rw [W2_arr]
  refine (KDist0.adj_arr (V1 m ρ) c t b j).trans ?_
  unfold Spec.adjArrK Spec.nsd
  exact congrArg (fun v => Spec.adjK v j) (congr (congr (congrArg Spec.nsdRow h0) hE) hQ)
theorem V2_v5_1 (c : Dev nD) (t : Fin 32) (b : Fin 512) (j : Fin 1024) :
    V2 m ρ c main_v5_1 (ix3 t b j) = Spec.logArrK (Ecb m c) (Xa m c) t b j := by
  have h0 : ((fun k => V1 m ρ c main_arg0 (ix3 b t k)) : Fin 512 → EReal) = Xa m c b t :=
    funext fun k => congrFun (V1_arg0 m ρ c) _
  have hE : ((fun j' k => V1 m ρ c main_v0 (ix2 j' k)) : Fin 1024 → Fin 512 → EReal) = Ecb m c :=
    funext fun j' => funext fun k => congrFun (v0_eq m ρ c) _
  have hQ : ((fun j' => V1 m ρ c main_v4 (ix2 (0 : Fin 1) j')) : Fin 1024 → EReal) = Spec.sqe (Ecb m c) :=
    funext fun j' => v4_eq m ρ c j'
  show W2 m ρ c (Proc.devRef .tc (Pipeline.arrRef spec0 4)) (ix3 t b j) = _
  rw [W2_arr]
  refine (KDist0.log_arr (V1 m ρ) c t b j).trans ?_
  unfold Spec.logArrK Spec.nsd
  exact congrArg (fun v => Spec.logK v j) (congr (congr (congrArg Spec.nsdRow h0) hE) hQ)
theorem V2_arg1 (c : Dev nD) : V2 m ρ c main_arg1 = m ((c : Thread nD τ).loc main_arg1) :=
  (W2_of_ne m ρ c main_arg1 (by decide)).trans (V1_arg1 m ρ c)
theorem V2_v0 (c : Dev nD) : V2 m ρ c main_v0 = m ((c : Thread nD τ).loc main_arg2) :=
  ((W2_arr m ρ c 1).trans (((dat0 (V1 m ρ) c).arrAt_in 1 rfl _).trans (A_eq0 (V1 m ρ) c 1))).trans (v0_eq m ρ c)
theorem V2_v4 (c : Dev nD) (j : Fin 1024) : V2 m ρ c main_v4 (ix2 (0 : Fin 1) j) = Spec.sqe (Ecb m c) j :=
  (congrFun ((W2_arr m ρ c 2).trans (((dat0 (V1 m ρ) c).arrAt_in 2 rfl _).trans (A_eq0 (V1 m ρ) c 2))) _).trans (v4_eq m ρ c j)

/-! ## After the video distance region -/

theorem V3_v6_0 (c : Dev nD) (t : Fin 32) (b : Fin 512) (j : Fin 1024) :
    V3 m ρ c main_v6_0 (ix3 t b j) = Spec.adjArrK (Ecb m c) (Xv m c) t b j := by
  have h0 : ((fun k => V2 m ρ c main_arg1 (ix3 b t k)) : Fin 512 → EReal) = Xv m c b t :=
    funext fun k => congrFun (V2_arg1 m ρ c) _
  have hE : ((fun j' k => V2 m ρ c main_v0 (ix2 j' k)) : Fin 1024 → Fin 512 → EReal) = Ecb m c :=
    funext fun j' => funext fun k => congrFun (V2_v0 m ρ c) _
  have hQ : ((fun j' => V2 m ρ c main_v4 (ix2 (0 : Fin 1) j')) : Fin 1024 → EReal) = Spec.sqe (Ecb m c) :=
    funext fun j' => V2_v4 m ρ c j'
  show W3 m ρ c (Proc.devRef .tc (Pipeline.arrRef spec1 3)) (ix3 t b j) = _
  rw [W3_arr]
  refine (KDist1.adj_arr (V2 m ρ) c t b j).trans ?_
  unfold Spec.adjArrK Spec.nsd
  exact congrArg (fun v => Spec.adjK v j) (congr (congr (congrArg Spec.nsdRow h0) hE) hQ)
theorem V3_v6_1 (c : Dev nD) (t : Fin 32) (b : Fin 512) (j : Fin 1024) :
    V3 m ρ c main_v6_1 (ix3 t b j) = Spec.logArrK (Ecb m c) (Xv m c) t b j := by
  have h0 : ((fun k => V2 m ρ c main_arg1 (ix3 b t k)) : Fin 512 → EReal) = Xv m c b t :=
    funext fun k => congrFun (V2_arg1 m ρ c) _
  have hE : ((fun j' k => V2 m ρ c main_v0 (ix2 j' k)) : Fin 1024 → Fin 512 → EReal) = Ecb m c :=
    funext fun j' => funext fun k => congrFun (V2_v0 m ρ c) _
  have hQ : ((fun j' => V2 m ρ c main_v4 (ix2 (0 : Fin 1) j')) : Fin 1024 → EReal) = Spec.sqe (Ecb m c) :=
    funext fun j' => V2_v4 m ρ c j'
  show W3 m ρ c (Proc.devRef .tc (Pipeline.arrRef spec1 4)) (ix3 t b j) = _
  rw [W3_arr]
  refine (KDist1.log_arr (V2 m ρ) c t b j).trans ?_
  unfold Spec.logArrK Spec.nsd
  exact congrArg (fun v => Spec.logK v j) (congr (congr (congrArg Spec.nsdRow h0) hE) hQ)
theorem V3_v5_0 (c : Dev nD) : V3 m ρ c main_v5_0 = V2 m ρ c main_v5_0 := W3_of_ne m ρ c main_v5_0 (by decide)
theorem V3_v5_1 (c : Dev nD) : V3 m ρ c main_v5_1 = V2 m ρ c main_v5_1 := W3_of_ne m ρ c main_v5_1 (by decide)

/-! ## The first direction -/

theorem adjA_fun (c : Dev nD) : (fun t' b m' => V3 m ρ c main_v5_0 (ix3 t' b m')) = Spec.adjArrK (Ecb m c) (Xa m c) :=
  funext fun t => funext fun b => funext fun j => by rw [V3_v5_0]; exact V2_v5_0 m ρ c t b j
theorem logV_fun (c : Dev nD) : (fun t' b m' => V3 m ρ c main_v6_1 (ix3 t' b m')) = Spec.logArrK (Ecb m c) (Xv m c) :=
  funext fun t => funext fun b => funext fun j => V3_v6_1 m ρ c t b j

theorem V4_v7_0 (c : Dev nD) (t : Fin 32) (i j : Fin 512) : V4 m ρ c main_v7_0 (ix3 t i j) = S1 m c t i j := by
  show W4 m ρ c (Proc.devRef .tc (Pipeline.arrRef spec2 2)) (ix3 t i j) = _
  rw [W4_arr, KScode2.s_arr (V3 m ρ) c t i j, adjA_fun, logV_fun]
theorem V4_v7_1 (c : Dev nD) (t : Fin 32) : V4 m ρ c main_v7_1 (ix3 t (0 : Fin 1) (0 : Fin 1)) = Spec.tminK (S1 m c) t := by
  show W4 m ρ c (Proc.devRef .tc (Pipeline.arrRef spec2 3)) (ix3 t (0 : Fin 1) (0 : Fin 1)) = _
  rw [W4_arr, KScode2.tmin_arr (V3 m ρ) c t, adjA_fun, logV_fun]
theorem V4_v6_0 (c : Dev nD) : V4 m ρ c main_v6_0 = V3 m ρ c main_v6_0 := W4_of_ne m ρ c main_v6_0 (by decide)
theorem V4_v5_1 (c : Dev nD) : V4 m ρ c main_v5_1 = V3 m ρ c main_v5_1 := W4_of_ne m ρ c main_v5_1 (by decide)

theorem V5_v10 (c : Dev nD) : V5 m ρ c main_v10 (ix2 (0 : Fin 1) (0 : Fin 1)) = Spec.cK (S1 m c) := by
  have e : (V5 m ρ c main_v10 : FVec Ideal S1x1 .f32)
      = (shapeCast S1x1 (Host.negf (F := Ideal) (Host.reduce (FloatOps.minimumf (F := Ideal) (φ := .f32)) (V4 m ρ c main_v7_1)
          (constant (F := Ideal) S_ .f32 0x7F800000#32) reducesTo_S32x1x1_S_d0_1_2 h_S_)) shapeCasts_S_S1x1 : FVec Ideal S1x1 .f32) := by
    show StableHlo.after hostOps3 (W4 m ρ c) (Proc.devRef .tc main_v10) = _
    after_results <;> rfl
  rw [e, neg_min_read]
  unfold Spec.cK
  refine congrArg (fun z => -Spec.emin z) (funext fun q => ?_)
  rw [show ix3 q.1 q.2.1 q.2.2 = ix3 q.1 (0 : Fin 1) (0 : Fin 1) from by
    rw [Subsingleton.elim q.2.1 0, Subsingleton.elim q.2.2 0]]
  exact V4_v7_1 m ρ c q.1
theorem V5_v7_0 (c : Dev nD) : V5 m ρ c main_v7_0 = V4 m ρ c main_v7_0 := by
  show StableHlo.after hostOps3 (W4 m ρ c) (Proc.devRef .tc main_v7_0) = _
  after_results <;> rfl
theorem V5_v6_0 (c : Dev nD) : V5 m ρ c main_v6_0 = V4 m ρ c main_v6_0 := by
  show StableHlo.after hostOps3 (W4 m ρ c) (Proc.devRef .tc main_v6_0) = _
  after_results <;> rfl
theorem V5_v5_1 (c : Dev nD) : V5 m ρ c main_v5_1 = V4 m ρ c main_v5_1 := by
  show StableHlo.after hostOps3 (W4 m ρ c) (Proc.devRef .tc main_v5_1) = _
  after_results <;> rfl

theorem S1_fun (c : Dev nD) : (fun t' i j => V5 m ρ c main_v7_0 (ix3 t' i j)) = S1 m c :=
  funext fun t => funext fun i => funext fun j => by rw [V5_v7_0]; exact V4_v7_0 m ρ c t i j

theorem V6_v11 (c : Dev nD) (t : Fin 32) : V6 m ρ c main_v11 (ix3 t (0 : Fin 1) (0 : Fin 1)) = Spec.partK (S1 m c) t := by
  show W6 m ρ c (Proc.devRef .tc (Pipeline.arrRef spec3 2)) (ix3 t (0 : Fin 1) (0 : Fin 1)) = _
  rw [W6_arr, KFinal3.part_arr (V5 m ρ) c t, S1_fun, V5_v10]
  rfl
theorem V6_v6_0 (c : Dev nD) : V6 m ρ c main_v6_0 = V5 m ρ c main_v6_0 := W6_of_ne m ρ c main_v6_0 (by decide)
theorem V6_v5_1 (c : Dev nD) : V6 m ρ c main_v5_1 = V5 m ρ c main_v5_1 := W6_of_ne m ρ c main_v5_1 (by decide)

theorem V7_v12 (c : Dev nD) : V7 m ρ c main_v12 ix0 = Spec.sumK (S1 m c) := by
  have e : (V7 m ρ c main_v12 : FVec Ideal S_ .f32)
      = (Host.reduceAdd (F := Ideal) (V6 m ρ c main_v11) (constant (F := Ideal) S_ .f32 0x00000000#32) reducesTo_S32x1x1_S_d0_1_2 h_S_
          : FVec Ideal S_ .f32) := by
    show StableHlo.after hostOps4 (W6 m ρ c) (Proc.devRef .tc main_v12) = _
    after_results <;> rfl
  rw [e, sum_read]
  unfold Spec.sumK
  have hf : ((fun t : Fin 32 => V6 m ρ c main_v11 (ix3 t (0 : Fin 1) (0 : Fin 1))) : Fin 32 → EReal) = fun t => Spec.partK (S1 m c) t :=
    funext fun t => V6_v11 m ρ c t
  exact congrArg (fun f : Fin 32 → EReal => ∑ t, f t) hf
theorem V7_v6_0 (c : Dev nD) : V7 m ρ c main_v6_0 = V6 m ρ c main_v6_0 := by
  show StableHlo.after hostOps4 (W6 m ρ c) (Proc.devRef .tc main_v6_0) = _
  after_results <;> rfl
theorem V7_v5_1 (c : Dev nD) : V7 m ρ c main_v5_1 = V6 m ρ c main_v5_1 := by
  show StableHlo.after hostOps4 (W6 m ρ c) (Proc.devRef .tc main_v5_1) = _
  after_results <;> rfl

/-! ## The second direction -/

theorem adjV_fun (c : Dev nD) : (fun t' b m' => V7 m ρ c main_v6_0 (ix3 t' b m')) = Spec.adjArrK (Ecb m c) (Xv m c) :=
  funext fun t => funext fun b => funext fun j => by
    rw [V7_v6_0, V6_v6_0, V5_v6_0, V4_v6_0]; exact V3_v6_0 m ρ c t b j
theorem logA_fun (c : Dev nD) : (fun t' b m' => V7 m ρ c main_v5_1 (ix3 t' b m')) = Spec.logArrK (Ecb m c) (Xa m c) :=
  funext fun t => funext fun b => funext fun j => by
    rw [V7_v5_1, V6_v5_1, V5_v5_1, V4_v5_1, V3_v5_1]; exact V2_v5_1 m ρ c t b j

theorem V8_v13_0 (c : Dev nD) (t : Fin 32) (i j : Fin 512) : V8 m ρ c main_v13_0 (ix3 t i j) = S2 m c t i j := by
  show W8 m ρ c (Proc.devRef .tc (Pipeline.arrRef spec4 2)) (ix3 t i j) = _
  rw [W8_arr, KScode4.s_arr (V7 m ρ) c t i j, adjV_fun, logA_fun]
theorem V8_v13_1 (c : Dev nD) (t : Fin 32) : V8 m ρ c main_v13_1 (ix3 t (0 : Fin 1) (0 : Fin 1)) = Spec.tminK (S2 m c) t := by
  show W8 m ρ c (Proc.devRef .tc (Pipeline.arrRef spec4 3)) (ix3 t (0 : Fin 1) (0 : Fin 1)) = _
  rw [W8_arr, KScode4.tmin_arr (V7 m ρ) c t, adjV_fun, logA_fun]
theorem V8_v12 (c : Dev nD) : V8 m ρ c main_v12 = V7 m ρ c main_v12 := W8_of_ne m ρ c main_v12 (by decide)

theorem V9_v16 (c : Dev nD) : V9 m ρ c main_v16 (ix2 (0 : Fin 1) (0 : Fin 1)) = Spec.cK (S2 m c) := by
  have e : (V9 m ρ c main_v16 : FVec Ideal S1x1 .f32)
      = (shapeCast S1x1 (Host.negf (F := Ideal) (Host.reduce (FloatOps.minimumf (F := Ideal) (φ := .f32)) (V8 m ρ c main_v13_1)
          (constant (F := Ideal) S_ .f32 0x7F800000#32) reducesTo_S32x1x1_S_d0_1_2 h_S_)) shapeCasts_S_S1x1 : FVec Ideal S1x1 .f32) := by
    show StableHlo.after hostOps5 (W8 m ρ c) (Proc.devRef .tc main_v16) = _
    after_results <;> rfl
  rw [e, neg_min_read]
  unfold Spec.cK
  refine congrArg (fun z => -Spec.emin z) (funext fun q => ?_)
  rw [show ix3 q.1 q.2.1 q.2.2 = ix3 q.1 (0 : Fin 1) (0 : Fin 1) from by
    rw [Subsingleton.elim q.2.1 0, Subsingleton.elim q.2.2 0]]
  exact V8_v13_1 m ρ c q.1
theorem V9_v13_0 (c : Dev nD) : V9 m ρ c main_v13_0 = V8 m ρ c main_v13_0 := by
  show StableHlo.after hostOps5 (W8 m ρ c) (Proc.devRef .tc main_v13_0) = _
  after_results <;> rfl
theorem V9_v12 (c : Dev nD) : V9 m ρ c main_v12 = V8 m ρ c main_v12 := by
  show StableHlo.after hostOps5 (W8 m ρ c) (Proc.devRef .tc main_v12) = _
  after_results <;> rfl

theorem S2_fun (c : Dev nD) : (fun t' i j => V9 m ρ c main_v13_0 (ix3 t' i j)) = S2 m c :=
  funext fun t => funext fun i => funext fun j => by rw [V9_v13_0]; exact V8_v13_0 m ρ c t i j

theorem V10_v17 (c : Dev nD) (t : Fin 32) : V10 m ρ c main_v17 (ix3 t (0 : Fin 1) (0 : Fin 1)) = Spec.partK (S2 m c) t := by
  show W10 m ρ c (Proc.devRef .tc (Pipeline.arrRef spec5 2)) (ix3 t (0 : Fin 1) (0 : Fin 1)) = _
  rw [W10_arr, KFinal5.part_arr (V9 m ρ) c t, S2_fun, V9_v16]
  rfl
theorem V10_v12 (c : Dev nD) : V10 m ρ c main_v12 = V9 m ρ c main_v12 := W10_of_ne m ρ c main_v12 (by decide)

/-! ## The return value -/

/-- The result buffer at the return: the kernel's loss. -/
theorem result_eq (c : Dev nD) : W11 m ρ c (Proc.devRef .tc main_v20) = fun _ => Spec.lossK (Xa m c) (Xv m c) (Ecb m c) := by
  have e : (W11 m ρ c (Proc.devRef .tc main_v20) : FVec Ideal S_ .f32)
      = (Host.divf (F := Ideal) (addf (F := Ideal) (V10 m ρ c main_v12)
          (Host.reduceAdd (F := Ideal) (V10 m ρ c main_v17) (constant (F := Ideal) S_ .f32 0x00000000#32) reducesTo_S32x1x1_S_d0_1_2 h_S_))
          (constant (F := Ideal) S_ .f32 0x47000000#32) : FVec Ideal S_ .f32) := by
    show StableHlo.after hostOps6 (W10 m ρ c) (Proc.devRef .tc main_v20) = _
    after_results <;> rfl
  have h12 : V10 m ρ c main_v12 ix0 = Spec.sumK (S1 m c) := by
    rw [V10_v12, V9_v12, V8_v12]
    exact V7_v12 m ρ c
  have h17 : Host.reduceAdd (F := Ideal) (V10 m ρ c main_v17) (constant (F := Ideal) S_ .f32 0x00000000#32)
      reducesTo_S32x1x1_S_d0_1_2 h_S_ ix0 = Spec.sumK (S2 m c) := by
    rw [sum_read]
    unfold Spec.sumK
    have hf : ((fun t : Fin 32 => V10 m ρ c main_v17 (ix3 t (0 : Fin 1) (0 : Fin 1))) : Fin 32 → EReal) = fun t => Spec.partK (S2 m c) t :=
      funext fun t => V10_v17 m ρ c t
    exact congrArg (fun f : Fin 32 → EReal => ∑ t, f t) hf
  rw [e]
  funext i
  rw [eq_ix0 i]
  show FloatOps.hostDivf (FloatOps.addf (V10 m ρ c main_v12 ix0) (Host.reduceAdd (F := Ideal) (V10 m ρ c main_v17)
      (constant (F := Ideal) S_ .f32 0x00000000#32) reducesTo_S32x1x1_S_d0_1_2 h_S_ ix0)) (FloatOps.ofBits .f32 0x47000000#32) = _
  rw [h12, h17]
  rfl

end Cert.KernelIdeal.KValue

end
-- ==== Proof.RefAa.lean ====
/-
  The reference's time-major arrays of the audio modality, read at an index: the temperature-1/2 assignment and
  the clamped logarithm of the temperature-1 assignment, each as the specification's function of the modality's
  features and the codebook.
-/
import proofs.«400058_j87668872446318_3_alg».proof.Proof.Gen.ReferenceIdeal.Read
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

set_option maxRecDepth 16384

noncomputable section

open scoped BigOperators

namespace Cert.ReferenceIdeal.RefAa

open Idealize.ShloMosaic Idealize.ShloMosaic.TcCoe Idealize.ShloMosaic.ValueIdx Idealize.SL.Sem
open Cert.ReferenceIdeal Cert.ReferenceIdeal.Gen Cert.ReferenceIdeal.Read

/-! ## Generalities: the word of minus infinity, a row maximum, indices equal by coordinates -/

/-- The float word of minus infinity denotes the bottom element. -/
theorem ninf_eq_bot : Ideal.ofBits .f32 0xFF800000#32 = (⊥ : EReal) := by
  simp [Ideal.ofBits, Ideal.ieee]

/-- A maximum-reduction of a `[16384, 1024]` array over its second axis, from the bottom element, is at row `r` the
    maximum of the row. -/
theorem rowmax (y : (⟨2, ![16384, 1024]⟩ : Shape).Idx → EReal) (init : (⟨0, ![]⟩ : Shape).Idx → EReal)
    (h' : (⟨2, ![16384, 1024]⟩ : Shape).ReducesTo [1] ⟨1, ![16384]⟩) (hu : 0 < (⟨0, ![]⟩ : Shape).numel)
    (hinit : init (Shape.Idx.first hu) = ⊥) (r : Fin 16384) :
    Host.reduce (FloatOps.maximumf (F := Ideal) (φ := .f32)) y init h' hu (ix1 r)
      = Spec.emax fun j : Fin 1024 => y (ix2 r j) := by
  have h : (⟨2, ![16384, 1024]⟩ : Shape).Reduces [1] ⟨1, ![16384]⟩ := by decide
  rw [Host.reduce_eq_fold_single _ y init h' h hu (ix1 r), hinit]
  have hl : ∀ k, h.lift (ix1 r) k = ix2 r k := fun k => funext fun a => Fin.ext (by
    match a with
    | ⟨0, _⟩ => rfl
    | ⟨1, _⟩ => rfl)
  refine (Finset.fold_congr (g := fun k => y (ix2 r k)) fun k _ => ?_).trans ?_
  · exact congrArg y (hl k)
  · rfl

/-- Two indices whose coordinates agree definitionally are equal. -/
local macro "idx_rfl" : tactic => `(tactic| (funext a; match a with | ⟨0, _⟩ => rfl))
/-- The same at rank two. -/
local macro "idx_rfl2" : tactic => `(tactic| (funext a; match a with | ⟨0, _⟩ => rfl | ⟨1, _⟩ => rfl))

/-- Row `b * 32 + t` of the arrays flattened to `[16384, ·]`. -/
def rowOf (b : Fin 512) (t : Fin 32) : Fin 16384 :=
  ⟨b.val * 32 + t.val, by have := b.isLt; have := t.isLt; omega⟩

variable (x0 : (⟨S512x32x512, .f32⟩ : BufTy).Contents (Elt Ideal)) (x2 : (⟨S1024x512, .f32⟩ : BufTy).Contents (Elt Ideal))

/-- The row of negated distances of token `(b, t)` to the code vectors. -/
def nrow (b : Fin 512) (t : Fin 32) : Fin 1024 → EReal :=
  Spec.nsd (fun b' t' k => x0 (ix3 b' t' k)) (fun j' k => x2 (ix2 j' k)) (Spec.sqe fun j' k => x2 (ix2 j' k)) b t

/-! ## The negated distances -/

/-- Row `b * 32 + t` of the flattened features is the feature vector of token `(b, t)`. -/
theorem idx_v0 (b : Fin 512) (t : Fin 32) (k : Fin 512) : idx_main_v0 (ix2 (rowOf b t) k) = ix3 b t k := by
  have hb := b.isLt; have ht := t.isLt; have hk := k.isLt
  funext a
  match a with
  | ⟨0, _⟩ => exact Fin.ext (by show ((b.val * 32 + t.val) * 512 + k.val) / 16384 = b.val; omega)
  | ⟨1, _⟩ => exact Fin.ext (by show ((b.val * 32 + t.val) * 512 + k.val) / 512 % 32 = t.val; omega)
  | ⟨2, _⟩ => exact Fin.ext (by show ((b.val * 32 + t.val) * 512 + k.val) % 512 = k.val; omega)

theorem v0_at (b : Fin 512) (t : Fin 32) (k : Fin 512) :
    val_main_v0 (F := Ideal) x0 (ix2 (rowOf b t) k) = x0 (ix3 b t k) := by
  rw [val_main_v0_apply, idx_v0]

/-- The squared norm of code vector `j`. -/
theorem v3_at (j : Fin 1024) :
    val_main_v3 (F := Ideal) x2 (ix1 j) = Spec.sqe (fun j' k => x2 (ix2 j' k)) j := by
  rw [val_main_v3_apply, val_main_cst_apply, Ideal.ofBits_def, Ideal.ofBits_zero_f32, zero_add]
  unfold Spec.sqe
  refine Finset.sum_congr rfl fun k _ => ?_
  rw [val_main_v2_apply, Ideal.mulf_def]
  rw [show idx_main_v3 (ix1 j) k = ix2 j k by idx_rfl2]

theorem v8_at (r : Fin 16384) (j : Fin 1024) :
    val_main_v8 (F := Ideal) x2 (ix2 r j) = Spec.sqe (fun j' k => x2 (ix2 j' k)) j := by
  rw [val_main_v8_apply, val_main_v4_apply]
  exact (congrArg (val_main_v3 (F := Ideal) x2)
    (by idx_rfl : idx_main_v4 (idx_main_v8 (ix2 r j)) = ix1 j)).trans (v3_at x2 j)

/-- The squared norm of the feature vector of token `(b, t)`. -/
theorem v6_at (b : Fin 512) (t : Fin 32) :
    val_main_v6 (F := Ideal) x0 (ix1 (rowOf b t)) = ∑ k : Fin 512, x0 (ix3 b t k) * x0 (ix3 b t k) := by
  rw [val_main_v6_apply, val_main_cst_0_apply, Ideal.ofBits_def, Ideal.ofBits_zero_f32, zero_add]
  refine Finset.sum_congr rfl fun k _ => ?_
  rw [val_main_v5_apply, Ideal.mulf_def]
  rw [show idx_main_v6 (ix1 (rowOf b t)) k = ix2 (rowOf b t) k by idx_rfl2, v0_at]

theorem v9_at (b : Fin 512) (t : Fin 32) (j : Fin 1024) :
    val_main_v9 (F := Ideal) x0 (ix2 (rowOf b t) j) = ∑ k : Fin 512, x0 (ix3 b t k) * x0 (ix3 b t k) := by
  rw [val_main_v9_apply, val_main_v7_apply]
  exact (congrArg (val_main_v6 (F := Ideal) x0)
    (by idx_rfl : idx_main_v7 (idx_main_v9 (ix2 (rowOf b t) j)) = ix1 (rowOf b t))).trans (v6_at x0 b t)

/-- The inner product of the feature vector of token `(b, t)` with code vector `j`. -/
theorem v12_at (b : Fin 512) (t : Fin 32) (j : Fin 1024) :
    val_main_v12 (F := Ideal) x0 x2 (ix2 (rowOf b t) j) = ∑ k : Fin 512, x0 (ix3 b t k) * x2 (ix2 j k) := by
  rw [val_main_v12_apply]
  refine Finset.sum_congr rfl fun k _ => ?_
  rw [show lidx_main_v12 (ix2 (rowOf b t) j) k = ix2 (rowOf b t) k by idx_rfl2, v0_at, val_main_v11_apply]
  rw [show idx_main_v11 (ridx_main_v12 (ix2 (rowOf b t) j) k) = ix2 j k by idx_rfl2]

/-- The negated distance of token `(b, t)` to code vector `j`. -/
theorem v36_at (b : Fin 512) (t : Fin 32) (j : Fin 1024) :
    val_main_v36 (F := Ideal) x0 x2 (ix2 (rowOf b t) j) = nrow x0 x2 b t j := by
  rw [val_main_v36_apply, val_main_v18_apply, val_main_v17_apply, val_main_v15_apply, val_main_v10_apply,
    val_main_v14_apply, v8_at, v9_at, v12_at, val_main_v13_apply, val_main_cst_1_apply, val_main_v16_apply,
    val_main_cst_2_apply]
  simp only [Ideal.hostNegf_def, Ideal.negf_def, Ideal.hostUnary_sqrt_def, Ideal.maximumf_def, Ideal.subf_def,
    Ideal.addf_def, Ideal.mulf_def, Ideal.ofBits_def, Ideal.ofBits_zero_f32]
  rfl

/-! ## The assignment at temperature 1 -/

theorem v39_at (r : Fin 16384) :
    val_main_v39 (F := Ideal) x0 x2 (ix1 r) = Spec.emax fun j : Fin 1024 => val_main_v36 (F := Ideal) x0 x2 (ix2 r j) := by
  have h37 : val_main_v37 (F := Ideal) x0 x2 (ix1 r)
      = Spec.emax fun j : Fin 1024 => val_main_v36 (F := Ideal) x0 x2 (ix2 r j) := by
    unfold val_main_v37
    generalize val_main_v36 (F := Ideal) x0 x2 = y
    exact rowmax y _ _ _ ((val_main_cst_7_apply _).trans ninf_eq_bot) r
  rw [val_main_v39_apply, val_main_v38_apply, val_main_cst_8_apply, h37, Ideal.maximumf_def, Ideal.ofBits_def,
    ninf_eq_bot, max_bot_left]

theorem v41_row (b : Fin 512) (t : Fin 32) (j : Fin 1024) :
    val_main_v41 (F := Ideal) x0 x2 (ix2 (rowOf b t) j) = Spec.emax (nrow x0 x2 b t) := by
  rw [val_main_v41_apply, val_main_v40_apply]
  refine (congrArg (val_main_v39 (F := Ideal) x0 x2)
    (by idx_rfl : idx_main_v40 (idx_main_v41 (ix2 (rowOf b t) j)) = ix1 (rowOf b t))).trans ?_
  rw [v39_at]
  exact congrArg (Spec.emax (ι := Fin 1024)) (funext fun j' => v36_at x0 x2 b t j')

theorem v43_row (b : Fin 512) (t : Fin 32) (j : Fin 1024) :
    val_main_v43 (F := Ideal) x0 x2 (ix2 (rowOf b t) j) = Spec.e1 (nrow x0 x2 b t) j := by
  rw [val_main_v43_apply, val_main_v42_apply, v36_at, v41_row, Ideal.hostUnary_exp_def, Ideal.subf_def]
  rfl

theorem v44_row (b : Fin 512) (t : Fin 32) :
    val_main_v44 (F := Ideal) x0 x2 (ix1 (rowOf b t)) = Spec.s1 (nrow x0 x2 b t) := by
  rw [val_main_v44_apply, val_main_cst_9_apply, Ideal.ofBits_def, Ideal.ofBits_zero_f32, zero_add]
  unfold Spec.s1
  refine Finset.sum_congr rfl fun k _ => ?_
  exact (congrArg (val_main_v43 (F := Ideal) x0 x2)
    (by idx_rfl2 : idx_main_v44 (ix1 (rowOf b t)) k = ix2 (rowOf b t) k)).trans (v43_row x0 x2 b t k)

/-- The assignment at temperature 1 of token `(b, t)`. -/
theorem v47_row (b : Fin 512) (t : Fin 32) (j : Fin 1024) :
    val_main_v47 (F := Ideal) x0 x2 (ix2 (rowOf b t) j)
      = Ideal.div (Spec.e1 (nrow x0 x2 b t) j) (Spec.s1 (nrow x0 x2 b t)) := by
  rw [val_main_v47_apply, v43_row, val_main_v46_apply, val_main_v45_apply, Ideal.hostDivf_def]
  exact congrArg (Ideal.div _) ((congrArg (val_main_v44 (F := Ideal) x0 x2)
    (by idx_rfl : idx_main_v45 (idx_main_v46 (ix2 (rowOf b t) j)) = ix1 (rowOf b t))).trans (v44_row x0 x2 b t))

/-! ## The assignment at temperature 1/2 -/

theorem v66_at (b : Fin 512) (t : Fin 32) (j : Fin 1024) :
    val_main_v66 (F := Ideal) x0 x2 (ix2 (rowOf b t) j) = Spec.vhalf (nrow x0 x2 b t) j := by
  have h64 : val_main_v64 (F := Ideal) x0 x2 (ix2 (rowOf b t) j) = nrow x0 x2 b t j :=
    (val_main_v64_apply x0 x2 _).trans ((val_main_v36_apply x0 x2 _).symm.trans (v36_at x0 x2 b t j))
  rw [val_main_v66_apply, h64, val_main_v65_apply, val_main_cst_13_apply, Ideal.hostDivf_def, Ideal.ofBits_def]
  rfl

theorem v69_at (r : Fin 16384) :
    val_main_v69 (F := Ideal) x0 x2 (ix1 r) = Spec.emax fun j : Fin 1024 => val_main_v66 (F := Ideal) x0 x2 (ix2 r j) := by
  have h67 : val_main_v67 (F := Ideal) x0 x2 (ix1 r)
      = Spec.emax fun j : Fin 1024 => val_main_v66 (F := Ideal) x0 x2 (ix2 r j) := by
    unfold val_main_v67
    generalize val_main_v66 (F := Ideal) x0 x2 = y
    exact rowmax y _ _ _ ((val_main_cst_14_apply _).trans ninf_eq_bot) r
  rw [val_main_v69_apply, val_main_v68_apply, val_main_cst_15_apply, h67, Ideal.maximumf_def, Ideal.ofBits_def,
    ninf_eq_bot, max_bot_left]

theorem v71_row (b : Fin 512) (t : Fin 32) (j : Fin 1024) :
    val_main_v71 (F := Ideal) x0 x2 (ix2 (rowOf b t) j) = Spec.emax (Spec.vhalf (nrow x0 x2 b t)) := by
  rw [val_main_v71_apply, val_main_v70_apply]
  refine (congrArg (val_main_v69 (F := Ideal) x0 x2)
    (by idx_rfl : idx_main_v70 (idx_main_v71 (ix2 (rowOf b t) j)) = ix1 (rowOf b t))).trans ?_
  rw [v69_at]
  exact congrArg (Spec.emax (ι := Fin 1024)) (funext fun j' => v66_at x0 x2 b t j')

theorem v73_row (b : Fin 512) (t : Fin 32) (j : Fin 1024) :
    val_main_v73 (F := Ideal) x0 x2 (ix2 (rowOf b t) j) = Spec.e1 (Spec.vhalf (nrow x0 x2 b t)) j := by
  rw [val_main_v73_apply, val_main_v72_apply, v66_at, v71_row, Ideal.hostUnary_exp_def, Ideal.subf_def]
  rfl

theorem v74_row (b : Fin 512) (t : Fin 32) :
    val_main_v74 (F := Ideal) x0 x2 (ix1 (rowOf b t)) = Spec.s1 (Spec.vhalf (nrow x0 x2 b t)) := by
  rw [val_main_v74_apply, val_main_cst_16_apply, Ideal.ofBits_def, Ideal.ofBits_zero_f32, zero_add]
  unfold Spec.s1
  refine Finset.sum_congr rfl fun k _ => ?_
  exact (congrArg (val_main_v73 (F := Ideal) x0 x2)
    (by idx_rfl2 : idx_main_v74 (ix1 (rowOf b t)) k = ix2 (rowOf b t) k)).trans (v73_row x0 x2 b t k)

/-- The assignment at temperature 1/2 of token `(b, t)`. -/
theorem v77_row (b : Fin 512) (t : Fin 32) (j : Fin 1024) :
    val_main_v77 (F := Ideal) x0 x2 (ix2 (rowOf b t) j) = Spec.adjR (nrow x0 x2 b t) j := by
  rw [val_main_v77_apply, v73_row, val_main_v76_apply, val_main_v75_apply, Ideal.hostDivf_def]
  exact congrArg (Ideal.div _) ((congrArg (val_main_v74 (F := Ideal) x0 x2)
    (by idx_rfl : idx_main_v75 (idx_main_v76 (ix2 (rowOf b t) j)) = ix1 (rowOf b t))).trans (v74_row x0 x2 b t))

/-! ## Time major -/

/-- Element `(t, b, j)` of the time-major array is element `(b * 32 + t, j)` of the flattened one. -/
theorem idx_flat (t : Fin 32) (b : Fin 512) (j : Fin 1024) :
    idx_main_v78 (idx_main_v79 (ix3 t b j)) = ix2 (rowOf b t) j := by
  have hb := b.isLt; have ht := t.isLt; have hj := j.isLt
  funext a
  match a with
  | ⟨0, _⟩ => exact Fin.ext (by show ((b.val * 32 + t.val) * 1024 + j.val) / 1024 = b.val * 32 + t.val; omega)
  | ⟨1, _⟩ => exact Fin.ext (by show ((b.val * 32 + t.val) * 1024 + j.val) % 1024 = j.val; omega)

/-- The audio assignment at temperature 1/2, time major. -/
theorem adj_a (x0 : (⟨S512x32x512, .f32⟩ : BufTy).Contents (Elt Ideal)) (x2 : (⟨S1024x512, .f32⟩ : BufTy).Contents (Elt Ideal)) (t : Fin 32) (b : Fin 512) (j : Fin 1024) :
    val_main_v79 (F := Ideal) x0 x2 (ix3 t b j)
      = Spec.adjArrR (fun j' k => x2 (ix2 j' k)) (fun b' t' k => x0 (ix3 b' t' k)) t b j := by
  rw [val_main_v79_apply, val_main_v78_apply]
  exact (congrArg (val_main_v77 (F := Ideal) x0 x2) (idx_flat t b j)).trans (v77_row x0 x2 b t j)

/-- The logarithm of the audio assignment at temperature 1 plus 1e-10, time major. -/
theorem log_a (x0 : (⟨S512x32x512, .f32⟩ : BufTy).Contents (Elt Ideal)) (x2 : (⟨S1024x512, .f32⟩ : BufTy).Contents (Elt Ideal)) (t : Fin 32) (b : Fin 512) (j : Fin 1024) :
    val_main_v116 (F := Ideal) x0 x2 (ix3 t b j)
      = Spec.logArrR (fun j' k => x2 (ix2 j' k)) (fun b' t' k => x0 (ix3 b' t' k)) t b j := by
  have h61 : val_main_v61 (F := Ideal) x0 x2 (ix3 t b j)
      = Ideal.div (Spec.e1 (nrow x0 x2 b t) j) (Spec.s1 (nrow x0 x2 b t)) := by
    rw [val_main_v61_apply, val_main_v60_apply]
    exact (congrArg (val_main_v47 (F := Ideal) x0 x2) (idx_flat t b j)).trans (v47_row x0 x2 b t j)
  rw [val_main_v116_apply, val_main_v115_apply, h61, val_main_v114_apply, val_main_cst_27_apply,
    Ideal.hostUnary_log_def, Ideal.addf_def, Ideal.ofBits_def]
  rfl

end Cert.ReferenceIdeal.RefAa

end
-- ==== Proof.RefAv.lean ====
/-
  The reference's time-major arrays of the video modality, read at an index: the temperature-1/2 assignment and
  the clamped logarithm of the temperature-1 assignment, each as the specification's function of the modality's
  features and the codebook.
-/
import proofs.«400058_j87668872446318_3_alg».proof.Proof.Gen.ReferenceIdeal.Read
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

set_option maxRecDepth 16384

noncomputable section

open scoped BigOperators

namespace Cert.ReferenceIdeal.RefAv

open Idealize.ShloMosaic Idealize.ShloMosaic.TcCoe Idealize.ShloMosaic.ValueIdx Idealize.SL.Sem
open Cert.ReferenceIdeal Cert.ReferenceIdeal.Read

/-! ## Rows of the flattened arrays -/

/-- Token (b, t) is row 32 b + t of the flattened [16384, ·] arrays. -/
def row (b : Fin 512) (t : Fin 32) : Fin 16384 :=
  ⟨b.val * 32 + t.val, by have := b.isLt; have := t.isLt; omega⟩

/-- The word of minus infinity denotes the bottom element. -/
theorem neg_inf : Ideal.ofBits .f32 0xFF800000#32 = (⊥ : EReal) := by simp [Ideal.ofBits, Ideal.ieee]

/-- A maximum over the last axis of a [16384, 1024] array, at row r: the fold of max over the row's 1024 entries. -/
theorem rowmax (src : S16384x1024.Idx → EReal) (init : S_.Idx → EReal)
    (h' : S16384x1024.ReducesTo [1] S16384) (hu : 0 < S_.numel) (r : Fin 16384) :
    Host.reduce (FloatOps.maximumf (F := Ideal) (φ := .f32)) src init h' hu (ix1 r)
      = (Finset.univ : Finset (Fin 1024)).fold max (init (Shape.Idx.first hu)) (fun k => src (ix2 r k)) := by
  have h : S16384x1024.Reduces [1] S16384 := by decide
  refine (Host.reduce_eq_fold_single _ src init h' h hu (ix1 r)).trans ?_
  show (Finset.univ : Finset (Fin 1024)).fold max (init (Shape.Idx.first hu)) (src ∘ h.lift (ix1 r)) = _
  refine congrArg (fun f => (Finset.univ : Finset (Fin 1024)).fold max (init (Shape.Idx.first hu)) f)
    (funext fun k => congrArg src ?_)
  funext a
  match a with
  | ⟨0, _⟩ => rfl
  | ⟨1, _⟩ => rfl

section Dist

variable (x1 : (⟨S512x32x512, .f32⟩ : BufTy).Contents (Elt Ideal)) (x2 : (⟨S1024x512, .f32⟩ : BufTy).Contents (Elt Ideal))

/-! ## The distances -/

/-- The flattened features at row 32 b + t are the features of token (b, t). -/
theorem v1_at (b : Fin 512) (t : Fin 32) (k : Fin 512) :
    val_main_v1 (F := Ideal) x1 (ix2 (row b t) k) = x1 (ix3 b t k) := by
  rw [val_main_v1_apply]
  refine congrArg x1 (funext fun a => ?_)
  have hb := b.isLt; have ht := t.isLt; have hk := k.isLt
  match a with
  | ⟨0, _⟩ => exact Fin.ext (by show ((b.val * 32 + t.val) * 512 + k.val) / 16384 = b.val; omega)
  | ⟨1, _⟩ => exact Fin.ext (by show ((b.val * 32 + t.val) * 512 + k.val) / 512 % 32 = t.val; omega)
  | ⟨2, _⟩ => exact Fin.ext (by show ((b.val * 32 + t.val) * 512 + k.val) % 512 = k.val; omega)

/-- The squared norm of code vector j. -/
theorem v20_at (j : Fin 1024) :
    val_main_v20 (F := Ideal) x2 (ix1 j) = ∑ k : Fin 512, x2 (ix2 j k) * x2 (ix2 j k) := by
  rw [val_main_v20_apply, val_main_cst_3_apply, Ideal.ofBits_def, Ideal.ofBits_zero_f32, zero_add]
  refine Finset.sum_congr rfl fun k _ => ?_
  have e : idx_main_v20 (ix1 j) k = ix2 j k :=
    funext fun a => by match a with | ⟨0, _⟩ => rfl | ⟨1, _⟩ => rfl
  rw [e, val_main_v19_apply, Ideal.mulf_def]

/-- The squared norm of token (b, t). -/
theorem v23_at (b : Fin 512) (t : Fin 32) :
    val_main_v23 (F := Ideal) x1 (ix1 (row b t)) = ∑ k : Fin 512, x1 (ix3 b t k) * x1 (ix3 b t k) := by
  rw [val_main_v23_apply, val_main_cst_4_apply, Ideal.ofBits_def, Ideal.ofBits_zero_f32, zero_add]
  refine Finset.sum_congr rfl fun k _ => ?_
  have e : idx_main_v23 (ix1 (row b t)) k = ix2 (row b t) k :=
    funext fun a => by match a with | ⟨0, _⟩ => rfl | ⟨1, _⟩ => rfl
  rw [e, val_main_v22_apply, Ideal.mulf_def, v1_at]

/-- The inner product of token (b, t) with code vector j. -/
theorem v29_at (b : Fin 512) (t : Fin 32) (j : Fin 1024) :
    val_main_v29 (F := Ideal) x1 x2 (ix2 (row b t) j) = ∑ k : Fin 512, x1 (ix3 b t k) * x2 (ix2 j k) := by
  rw [val_main_v29_apply]
  refine Finset.sum_congr rfl fun k _ => ?_
  have el : lidx_main_v29 (ix2 (row b t) j) k = ix2 (row b t) k :=
    funext fun a => by match a with | ⟨0, _⟩ => rfl | ⟨1, _⟩ => rfl
  have er : ridx_main_v29 (ix2 (row b t) j) k = ix2 k j :=
    funext fun a => by match a with | ⟨0, _⟩ => rfl | ⟨1, _⟩ => rfl
  have et : idx_main_v28 (ix2 k j) = ix2 j k :=
    funext fun a => by match a with | ⟨0, _⟩ => rfl | ⟨1, _⟩ => rfl
  rw [el, er, v1_at, val_main_v28_apply, et]

/-- The codebook's squared norms, broadcast along the rows. -/
theorem v25_at (r : Fin 16384) (j : Fin 1024) :
    val_main_v25 (F := Ideal) x2 (ix2 r j) = val_main_v20 (F := Ideal) x2 (ix1 j) := by
  rw [val_main_v25_apply, val_main_v21_apply]
  exact congrArg (val_main_v20 (F := Ideal) x2) (funext fun a => by match a with | ⟨0, _⟩ => rfl)

/-- The tokens' squared norms, broadcast along the columns. -/
theorem v26_at (r : Fin 16384) (j : Fin 1024) :
    val_main_v26 (F := Ideal) x1 (ix2 r j) = val_main_v23 (F := Ideal) x1 (ix1 r) := by
  rw [val_main_v26_apply, val_main_v24_apply]
  exact congrArg (val_main_v23 (F := Ideal) x1) (funext fun a => by match a with | ⟨0, _⟩ => rfl)

/-- The distance of token (b, t) to code vector j. -/
theorem v35_at (b : Fin 512) (t : Fin 32) (j : Fin 1024) :
    val_main_v35 (F := Ideal) x1 x2 (ix2 (row b t) j)
      = Ideal.sqrt (max (((∑ k : Fin 512, x2 (ix2 j k) * x2 (ix2 j k)) + ∑ k : Fin 512, x1 (ix3 b t k) * x1 (ix3 b t k))
          - Ideal.ofBits .f32 0x40000000#32 * ∑ k : Fin 512, x1 (ix3 b t k) * x2 (ix2 j k)) 0) := by
  rw [val_main_v35_apply, val_main_v34_apply, val_main_v32_apply, val_main_v27_apply, val_main_v31_apply,
    val_main_v30_apply, val_main_cst_5_apply, val_main_v33_apply, val_main_cst_6_apply,
    v25_at, v26_at, v20_at, v23_at, v29_at]
  simp only [Ideal.hostUnary_sqrt_def, Ideal.maximumf_def, Ideal.subf_def, Ideal.addf_def, Ideal.mulf_def,
    Ideal.ofBits_def, Ideal.ofBits_zero_f32]

/-- The row of negated distances of token (b, t), as the softmax at temperature 1 reads it … -/
theorem v48_at (b : Fin 512) (t : Fin 32) (j : Fin 1024) :
    val_main_v48 (F := Ideal) x1 x2 (ix2 (row b t) j)
      = Spec.nsd (fun b' t' k => x1 (ix3 b' t' k)) (fun j' k => x2 (ix2 j' k))
          (Spec.sqe fun j' k => x2 (ix2 j' k)) b t j := by
  rw [val_main_v48_apply, v35_at]
  rfl

/-- … and as the softmax at temperature 1/2 reads it. -/
theorem v80_at (b : Fin 512) (t : Fin 32) (j : Fin 1024) :
    val_main_v80 (F := Ideal) x1 x2 (ix2 (row b t) j)
      = Spec.nsd (fun b' t' k => x1 (ix3 b' t' k)) (fun j' k => x2 (ix2 j' k))
          (Spec.sqe fun j' k => x2 (ix2 j' k)) b t j := by
  rw [val_main_v80_apply, v35_at]
  rfl

end Dist

section Soft

variable (x1 : (⟨S512x32x512, .f32⟩ : BufTy).Contents (Elt Ideal)) (x2 : (⟨S1024x512, .f32⟩ : BufTy).Contents (Elt Ideal))
  (r : Fin 16384) (v : Fin 1024 → EReal)

/-! ## The soft assignment at temperature 1, over a row known as v -/

/-- The row's maximum. -/
theorem v49_at (hv : ∀ j, val_main_v48 (F := Ideal) x1 x2 (ix2 r j) = v j) :
    val_main_v49 (F := Ideal) x1 x2 (ix1 r) = Spec.emax v := by
  unfold val_main_v49
  rw [rowmax, val_main_cst_10_apply, Ideal.ofBits_def, neg_inf]
  simp only [hv]
  rfl

/-- Its maximum with minus infinity is the same. -/
theorem v51_at (hv : ∀ j, val_main_v48 (F := Ideal) x1 x2 (ix2 r j) = v j) :
    val_main_v51 (F := Ideal) x1 x2 (ix1 r) = Spec.emax v := by
  rw [val_main_v51_apply, val_main_v50_apply, val_main_cst_11_apply, v49_at x1 x2 r v hv, Ideal.maximumf_def,
    Ideal.ofBits_def, neg_inf]
  exact max_bot_left _

/-- The maximum, broadcast along the row. -/
theorem v53_at (j : Fin 1024) :
    val_main_v53 (F := Ideal) x1 x2 (ix2 r j) = val_main_v51 (F := Ideal) x1 x2 (ix1 r) := by
  rw [val_main_v53_apply, val_main_v52_apply]
  exact congrArg (val_main_v51 (F := Ideal) x1 x2) (funext fun a => by match a with | ⟨0, _⟩ => rfl)

/-- The exponentials. -/
theorem v55_at (hv : ∀ j, val_main_v48 (F := Ideal) x1 x2 (ix2 r j) = v j) (j : Fin 1024) :
    val_main_v55 (F := Ideal) x1 x2 (ix2 r j) = Spec.e1 v j := by
  rw [val_main_v55_apply, val_main_v54_apply, v53_at, v51_at x1 x2 r v hv, hv]
  rfl

/-- Their sum. -/
theorem v56_at (hv : ∀ j, val_main_v48 (F := Ideal) x1 x2 (ix2 r j) = v j) :
    val_main_v56 (F := Ideal) x1 x2 (ix1 r) = Spec.s1 v := by
  rw [val_main_v56_apply, val_main_cst_12_apply, Ideal.ofBits_def, Ideal.ofBits_zero_f32, zero_add]
  unfold Spec.s1
  refine Finset.sum_congr rfl fun k _ => ?_
  have e : idx_main_v56 (ix1 r) k = ix2 r k :=
    funext fun a => by match a with | ⟨0, _⟩ => rfl | ⟨1, _⟩ => rfl
  rw [e, v55_at x1 x2 r v hv]

/-- The sum, broadcast along the row. -/
theorem v58_at (j : Fin 1024) :
    val_main_v58 (F := Ideal) x1 x2 (ix2 r j) = val_main_v56 (F := Ideal) x1 x2 (ix1 r) := by
  rw [val_main_v58_apply, val_main_v57_apply]
  exact congrArg (val_main_v56 (F := Ideal) x1 x2) (funext fun a => by match a with | ⟨0, _⟩ => rfl)

/-- The soft assignment. -/
theorem v59_at (hv : ∀ j, val_main_v48 (F := Ideal) x1 x2 (ix2 r j) = v j) (j : Fin 1024) :
    val_main_v59 (F := Ideal) x1 x2 (ix2 r j) = Ideal.div (Spec.e1 v j) (Spec.s1 v) := by
  rw [val_main_v59_apply, v58_at, v56_at x1 x2 r v hv, v55_at x1 x2 r v hv]
  rfl

/-! ## The soft assignment at temperature 1/2 -/

/-- The row divided by 0.5. -/
theorem v82_at (hv : ∀ j, val_main_v80 (F := Ideal) x1 x2 (ix2 r j) = v j) (j : Fin 1024) :
    val_main_v82 (F := Ideal) x1 x2 (ix2 r j) = Spec.vhalf v j := by
  rw [val_main_v82_apply, val_main_v81_apply, val_main_cst_17_apply, hv]
  rfl

/-- The row's maximum. -/
theorem v83_at (hv : ∀ j, val_main_v82 (F := Ideal) x1 x2 (ix2 r j) = v j) :
    val_main_v83 (F := Ideal) x1 x2 (ix1 r) = Spec.emax v := by
  unfold val_main_v83
  rw [rowmax, val_main_cst_18_apply, Ideal.ofBits_def, neg_inf]
  simp only [hv]
  rfl

/-- Its maximum with minus infinity is the same. -/
theorem v85_at (hv : ∀ j, val_main_v82 (F := Ideal) x1 x2 (ix2 r j) = v j) :
    val_main_v85 (F := Ideal) x1 x2 (ix1 r) = Spec.emax v := by
  rw [val_main_v85_apply, val_main_v84_apply, val_main_cst_19_apply, v83_at x1 x2 r v hv, Ideal.maximumf_def,
    Ideal.ofBits_def, neg_inf]
  exact max_bot_left _

/-- The maximum, broadcast along the row. -/
theorem v87_at (j : Fin 1024) :
    val_main_v87 (F := Ideal) x1 x2 (ix2 r j) = val_main_v85 (F := Ideal) x1 x2 (ix1 r) := by
  rw [val_main_v87_apply, val_main_v86_apply]
  exact congrArg (val_main_v85 (F := Ideal) x1 x2) (funext fun a => by match a with | ⟨0, _⟩ => rfl)

/-- The exponentials. -/
theorem v89_at (hv : ∀ j, val_main_v82 (F := Ideal) x1 x2 (ix2 r j) = v j) (j : Fin 1024) :
    val_main_v89 (F := Ideal) x1 x2 (ix2 r j) = Spec.e1 v j := by
  rw [val_main_v89_apply, val_main_v88_apply, v87_at, v85_at x1 x2 r v hv, hv]
  rfl

/-- Their sum. -/
theorem v90_at (hv : ∀ j, val_main_v82 (F := Ideal) x1 x2 (ix2 r j) = v j) :
    val_main_v90 (F := Ideal) x1 x2 (ix1 r) = Spec.s1 v := by
  rw [val_main_v90_apply, val_main_cst_20_apply, Ideal.ofBits_def, Ideal.ofBits_zero_f32, zero_add]
  unfold Spec.s1
  refine Finset.sum_congr rfl fun k _ => ?_
  have e : idx_main_v90 (ix1 r) k = ix2 r k :=
    funext fun a => by match a with | ⟨0, _⟩ => rfl | ⟨1, _⟩ => rfl
  rw [e, v89_at x1 x2 r v hv]

/-- The sum, broadcast along the row. -/
theorem v92_at (j : Fin 1024) :
    val_main_v92 (F := Ideal) x1 x2 (ix2 r j) = val_main_v90 (F := Ideal) x1 x2 (ix1 r) := by
  rw [val_main_v92_apply, val_main_v91_apply]
  exact congrArg (val_main_v90 (F := Ideal) x1 x2) (funext fun a => by match a with | ⟨0, _⟩ => rfl)

/-- The soft assignment. -/
theorem v93_at (hv : ∀ j, val_main_v82 (F := Ideal) x1 x2 (ix2 r j) = v j) (j : Fin 1024) :
    val_main_v93 (F := Ideal) x1 x2 (ix2 r j) = Ideal.div (Spec.e1 v j) (Spec.s1 v) := by
  rw [val_main_v93_apply, v92_at, v90_at x1 x2 r v hv, v89_at x1 x2 r v hv]
  rfl

end Soft

/-! ## Time major -/

/-- Entry (t, b, j) of a time-major array is entry (32 b + t, j) of the flattened one it was reshaped and transposed from. -/
theorem tm_v95 (t : Fin 32) (b : Fin 512) (j : Fin 1024) :
    idx_main_v94 (idx_main_v95 (ix3 t b j)) = ix2 (row b t) j := by
  funext a
  have hb := b.isLt; have ht := t.isLt; have hj := j.isLt
  match a with
  | ⟨0, _⟩ => exact Fin.ext (by show ((b.val * 32 + t.val) * 1024 + j.val) / 1024 = b.val * 32 + t.val; omega)
  | ⟨1, _⟩ => exact Fin.ext (by show ((b.val * 32 + t.val) * 1024 + j.val) % 1024 = j.val; omega)

theorem tm_v63 (t : Fin 32) (b : Fin 512) (j : Fin 1024) :
    idx_main_v62 (idx_main_v63 (ix3 t b j)) = ix2 (row b t) j := by
  funext a
  have hb := b.isLt; have ht := t.isLt; have hj := j.isLt
  match a with
  | ⟨0, _⟩ => exact Fin.ext (by show ((b.val * 32 + t.val) * 1024 + j.val) / 1024 = b.val * 32 + t.val; omega)
  | ⟨1, _⟩ => exact Fin.ext (by show ((b.val * 32 + t.val) * 1024 + j.val) % 1024 = j.val; omega)

/-- The video assignment at temperature 1/2, time major. -/
theorem adj_v (x1 : (⟨S512x32x512, .f32⟩ : BufTy).Contents (Elt Ideal)) (x2 : (⟨S1024x512, .f32⟩ : BufTy).Contents (Elt Ideal)) (t : Fin 32) (b : Fin 512) (j : Fin 1024) :
    val_main_v95 (F := Ideal) x1 x2 (ix3 t b j)
      = Spec.adjArrR (fun j' k => x2 (ix2 j' k)) (fun b' t' k => x1 (ix3 b' t' k)) t b j := by
  rw [val_main_v95_apply, val_main_v94_apply, tm_v95,
    v93_at x1 x2 (row b t)
      (Spec.vhalf (Spec.nsd (fun b' t' k => x1 (ix3 b' t' k)) (fun j' k => x2 (ix2 j' k)) (Spec.sqe fun j' k => x2 (ix2 j' k)) b t))
      (fun j' => v82_at x1 x2 (row b t) _ (fun j'' => v80_at x1 x2 b t j'') j')]
  rfl

/-- The logarithm of the video assignment at temperature 1 plus 1e-10, time major. -/
theorem log_v (x1 : (⟨S512x32x512, .f32⟩ : BufTy).Contents (Elt Ideal)) (x2 : (⟨S1024x512, .f32⟩ : BufTy).Contents (Elt Ideal)) (t : Fin 32) (b : Fin 512) (j : Fin 1024) :
    val_main_v98 (F := Ideal) x1 x2 (ix3 t b j)
      = Spec.logArrR (fun j' k => x2 (ix2 j' k)) (fun b' t' k => x1 (ix3 b' t' k)) t b j := by
  rw [val_main_v98_apply, val_main_v97_apply, val_main_v96_apply, val_main_cst_21_apply, val_main_v63_apply,
    val_main_v62_apply, tm_v63,
    v59_at x1 x2 (row b t)
      (Spec.nsd (fun b' t' k => x1 (ix3 b' t' k)) (fun j' k => x2 (ix2 j' k)) (Spec.sqe fun j' k => x2 (ix2 j' k)) b t)
      (fun j' => v48_at x1 x2 b t j')]
  rfl

end Cert.ReferenceIdeal.RefAv

end
-- ==== Proof.RefB1.lean ====
/-
  The reference's loss of the first direction (audio assignment against video logarithms) as the specification's
  function of the two time-major arrays it is computed from.
-/
import proofs.«400058_j87668872446318_3_alg».proof.Proof.Gen.ReferenceIdeal.Read
import proofs.«400058_j87668872446318_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

set_option maxRecDepth 16384

noncomputable section

open scoped BigOperators

namespace Cert.ReferenceIdeal.RefB1

open Idealize.ShloMosaic Idealize.ShloMosaic.TcCoe Idealize.ShloMosaic.ValueIdx Idealize.SL.Sem
open Cert.ReferenceIdeal Cert.ReferenceIdeal.Read

/-! ## Small integers as 32-bit words -/

/-- A natural number below 512, written as a 32-bit word and read back signed, is itself. -/
theorem toNat_toInt_ofNat (n : Nat) (h : n < 512) : (BitVec.ofNat 32 n).toInt.toNat = n := by
  rw [BitVec.toInt_eq_toNat_cond, BitVec.toNat_ofNat]
  have h2 : n % 2 ^ 32 = n := Nat.mod_eq_of_lt (by omega)
  rw [h2, if_pos (by omega)]
  exact Int.toNat_natCast n

/-- Such a word is not below zero as a signed integer. -/
theorem slt_zero (n : Nat) (h : n < 512) : IntOp.cmpi .slt (BitVec.ofNat 32 n) 0#32 = 0#1 := by
  unfold IntOp.cmpi
  have : (BitVec.ofNat 32 n).slt 0#32 = false := by
    rw [BitVec.slt, BitVec.toInt_eq_toNat_cond, BitVec.toNat_ofNat]
    have h2 : n % 2 ^ 32 = n := Nat.mod_eq_of_lt (by omega)
    rw [h2, if_pos (by omega)]
    simp
  simp only [this]
  rfl

/-! ## The diagonal gather -/

/-- The gather with start indices `(i, i)` on the last two axes and a full slice on the first reads the diagonal:
    element `(t, i)` is the operand's `(t, i, i)`. -/
theorem gather_diag {α : Type} (x : S32x512x512.Idx → α) (idx : IVec S512x2 32)
    (h0 : ∀ i : Fin 512, idx (ix2 i (0 : Fin 2)) = BitVec.ofNat 32 i.val)
    (h1 : ∀ i : Fin 512, idx (ix2 i (1 : Fin 2)) = BitVec.ofNat 32 i.val)
    (t : Fin 32) (i : Fin 512) :
    Host.gather gather_S32x512x512_S512x2_S32x512_0_12_n_n_12_1_3211 x idx (ix2 t i) = x (ix3 t i i) := by
  have hb : ∀ a, gather_S32x512x512_S512x2_S32x512_0_12_n_n_12_1_3211.batchCoord (ix2 t i) a = 0 := fun a =>
    GatherDims.batchCoord_eq_zero _ _ _ List.not_mem_nil
  have e0 : gather_S32x512x512_S512x2_S32x512_0_12_n_n_12_1_3211.start (ix2 t i) idx (0 : Fin 3)
      + gather_S32x512x512_S512x2_S32x512_0_12_n_n_12_1_3211.batchCoord (ix2 t i) (0 : Fin 3)
      + gather_S32x512x512_S512x2_S32x512_0_12_n_n_12_1_3211.offCoord (ix2 t i) (0 : Fin 3) = t.val := by
    rw [hb, Nat.add_zero]
    unfold GatherDims.start GatherDims.offCoord
    rw [dif_neg (by decide), dif_pos (by decide), Nat.zero_add]
    rfl
  have e1 : gather_S32x512x512_S512x2_S32x512_0_12_n_n_12_1_3211.start (ix2 t i) idx (1 : Fin 3)
      + gather_S32x512x512_S512x2_S32x512_0_12_n_n_12_1_3211.batchCoord (ix2 t i) (1 : Fin 3)
      + gather_S32x512x512_S512x2_S32x512_0_12_n_n_12_1_3211.offCoord (ix2 t i) (1 : Fin 3) = i.val := by
    rw [hb, Nat.add_zero]
    unfold GatherDims.start GatherDims.offCoord
    rw [dif_pos (by decide), dif_neg (by decide), Nat.add_zero]
    have hsi : gather_S32x512x512_S512x2_S32x512_0_12_n_n_12_1_3211.siIdx (ix2 t i)
        ⟨List.idxOf (1 : Fin 3) gather_S32x512x512_S512x2_S32x512_0_12_n_n_12_1_3211.startIndexMap,
          List.idxOf_lt_length_iff.2 (by decide)⟩ = ix2 i (0 : Fin 2) := by
      funext b; refine Fin.ext ?_
      match b with
      | ⟨0, _⟩ => rfl
      | ⟨1, _⟩ => rfl
    rw [hsi, h0, toNat_toInt_ofNat _ i.isLt]
    show min i.val (512 - 1) = i.val
    have := i.isLt
    omega
  have e2 : gather_S32x512x512_S512x2_S32x512_0_12_n_n_12_1_3211.start (ix2 t i) idx (2 : Fin 3)
      + gather_S32x512x512_S512x2_S32x512_0_12_n_n_12_1_3211.batchCoord (ix2 t i) (2 : Fin 3)
      + gather_S32x512x512_S512x2_S32x512_0_12_n_n_12_1_3211.offCoord (ix2 t i) (2 : Fin 3) = i.val := by
    rw [hb, Nat.add_zero]
    unfold GatherDims.start GatherDims.offCoord
    rw [dif_pos (by decide), dif_neg (by decide), Nat.add_zero]
    have hsi : gather_S32x512x512_S512x2_S32x512_0_12_n_n_12_1_3211.siIdx (ix2 t i)
        ⟨List.idxOf (2 : Fin 3) gather_S32x512x512_S512x2_S32x512_0_12_n_n_12_1_3211.startIndexMap,
          List.idxOf_lt_length_iff.2 (by decide)⟩ = ix2 i (1 : Fin 2) := by
      funext b; refine Fin.ext ?_
      match b with
      | ⟨0, _⟩ => rfl
      | ⟨1, _⟩ => rfl
    rw [hsi, h1, toNat_toInt_ofNat _ i.isLt]
    show min i.val (512 - 1) = i.val
    have := i.isLt
    omega
  unfold Host.gather
  congr 1
  funext a
  refine Fin.ext ?_
  match a with
  | ⟨0, _⟩ => exact e0
  | ⟨1, _⟩ => exact e1
  | ⟨2, _⟩ => exact e2

/-! ## The maximum over a rank-3 index set as the maximum over the triples of coordinates -/

/-- A rank-3 index set is the product of its three coordinate ranges. -/
def idxEquiv3 : S32x512x512.Idx ≃ Fin 32 × Fin 512 × Fin 512 where
  toFun i := (i 0, i 1, i 2)
  invFun p := ix3 p.1 p.2.1 p.2.2
  left_inv i := (eq_ix3 i).symm
  right_inv _ := rfl

theorem fold_idx3 (b : EReal) (f : S32x512x512.Idx → EReal) :
    Finset.univ.fold max b f = Finset.univ.fold max b (fun p : Fin 32 × Fin 512 × Fin 512 => f (ix3 p.1 p.2.1 p.2.2)) := by
  rw [← Finset.map_univ_equiv idxEquiv3.symm, Finset.fold_map]
  rfl

/-- The word of minus infinity denotes the bottom element. -/
theorem neg_inf : Ideal.ofBits .f32 0xFF800000#32 = (⊥ : EReal) := by simp [Ideal.ofBits, Ideal.ieee]

/-! ## The chain, one stretch at a time -/

section Chain

variable (x0 x1 : (⟨S512x32x512, .f32⟩ : BufTy).Contents (Elt Ideal)) (x2 : (⟨S1024x512, .f32⟩ : BufTy).Contents (Elt Ideal))

/-- The scores `S t i j = Σ_m A t i m · L t j m` of the two arrays at explicit coordinates. -/
abbrev scR : Fin 32 → Fin 512 → Fin 512 → EReal :=
  Spec.scode (fun t b m => val_main_v79 (F := Ideal) x0 x2 (ix3 t b m))
    (fun t b m => val_main_v98 (F := Ideal) x1 x2 (ix3 t b m))

/-- The batched contraction at `(t, i, j)` is the score. -/
theorem v99_at (t : Fin 32) (i j : Fin 512) :
    val_main_v99 (F := Ideal) x0 x1 x2 (ix3 t i j) = scR x0 x1 x2 t i j := by
  rw [val_main_v99_apply]
  show _ = ∑ m : Fin 1024, _
  refine Finset.sum_congr rfl fun k _ => ?_
  have el : lidx_main_v99 (ix3 t i j) k = ix3 t i k := funext fun a => by
    match a with
    | ⟨0, _⟩ => rfl
    | ⟨1, _⟩ => rfl
    | ⟨2, _⟩ => rfl
  have er : ridx_main_v99 (ix3 t i j) k = ix3 t j k := funext fun a => by
    match a with
    | ⟨0, _⟩ => rfl
    | ⟨1, _⟩ => rfl
    | ⟨2, _⟩ => rfl
  rw [el, er]

/-- Its negation. -/
theorem v100_at (t : Fin 32) (i j : Fin 512) :
    val_main_v100 (F := Ideal) x0 x1 x2 (ix3 t i j) = -(scR x0 x1 x2 t i j) := by
  rw [val_main_v100_apply, v99_at]
  rfl

/-- The maximum of the negated scores over all of `[32, 512, 512]` is the shift. -/
theorem v101_at (j : S_.Idx) :
    val_main_v101 (F := Ideal) x0 x1 x2 j = Spec.cR (scR x0 x1 x2) := by
  unfold val_main_v101
  rw [Host.reduce_eq_fold]
  rw [Finset.filter_true_of_mem (fun i _ => funext fun a => a.elim0)]
  rw [val_main_cst_22_apply]
  show Finset.univ.fold max (Ideal.ofBits .f32 0xFF800000#32) (val_main_v100 (F := Ideal) x0 x1 x2) = _
  rw [neg_inf, fold_idx3]
  unfold Spec.cR Spec.emax
  refine congrArg (fun f => Finset.fold max ⊥ f Finset.univ) (funext fun p => ?_)
  exact v100_at x0 x1 x2 p.1 p.2.1 p.2.2

/-- The exponential of the shifted score. -/
theorem v104_at (t : Fin 32) (i j : Fin 512) :
    val_main_v104 (F := Ideal) x0 x1 x2 (ix3 t i j)
      = Ideal.exp (scR x0 x1 x2 t i j + Spec.cR (scR x0 x1 x2)) := by
  rw [val_main_v104_apply, val_main_v103_apply, val_main_v102_apply, v101_at, v99_at, Ideal.hostUnary_exp_def,
    Ideal.addf_def]

/-- The first column of start indices is the row number: the comparison with zero never holds. -/
theorem v6_at (i : Fin 512) : val_main_call0_v6 (F := Ideal) (ix1 i) = BitVec.ofNat 32 i.val := by
  rw [val_main_call0_v6_apply, val_main_call0_v3_apply, val_main_call0_v0_apply, val_main_call0_v2_apply,
    val_main_call0_c_apply]
  show Scalar.select (IntOp.cmpi .slt (BitVec.ofNat 32 i.val) 0#32) _ (BitVec.ofNat 32 i.val) = _
  rw [slt_zero _ i.isLt, select_zero]

/-- The second column likewise. -/
theorem v11_at (i : Fin 512) : val_main_call0_v11 (F := Ideal) (ix1 i) = BitVec.ofNat 32 i.val := by
  rw [val_main_call0_v11_apply, val_main_call0_v8_apply, val_main_call0_v1_apply, val_main_call0_v7_apply,
    val_main_call0_c_1_apply]
  show Scalar.select (IntOp.cmpi .slt (BitVec.ofNat 32 i.val) 0#32) _ (BitVec.ofNat 32 i.val) = _
  rw [slt_zero _ i.isLt, select_zero]

/-- The joined start indices at `(i, 0)`. -/
theorem v14_at0 (i : Fin 512) : val_main_call0_v14 (F := Ideal) (ix2 i (0 : Fin 2)) = BitVec.ofNat 32 i.val := by
  unfold val_main_call0_v14
  refine (concatenate_pair_apply_left (s₁ := S512x1) (s₂ := S512x1) _ _ _ _ (ix2 i (0 : Fin 2)) rfl (ix2 i (0 : Fin 1)) (fun b => ?_)).trans ?_
  · match b with
    | ⟨0, _⟩ => rfl
    | ⟨1, _⟩ => rfl
  · rw [val_main_call0_v12_apply]
    have e : idx_main_call0_v12 (ix2 i (0 : Fin 1)) = ix1 i := funext fun a => by
      match a with
      | ⟨0, _⟩ => rfl
    rw [e, v6_at]

/-- The joined start indices at `(i, 1)`. -/
theorem v14_at1 (i : Fin 512) : val_main_call0_v14 (F := Ideal) (ix2 i (1 : Fin 2)) = BitVec.ofNat 32 i.val := by
  unfold val_main_call0_v14
  refine (concatenate_pair_apply_right (s₁ := S512x1) (s₂ := S512x1) _ _ _ _ (ix2 i (1 : Fin 2)) rfl rfl (ix2 i (0 : Fin 1)) (fun b hb => ?_) rfl).trans ?_
  · match b with
    | ⟨0, _⟩ => rfl
    | ⟨1, _⟩ => exact absurd rfl hb
  · rw [val_main_call0_v13_apply]
    have e : idx_main_call0_v13 (ix2 i (0 : Fin 1)) = ix1 i := funext fun a => by
      match a with
      | ⟨0, _⟩ => rfl
    rw [e, v11_at]

/-- The gathered diagonal. -/
theorem v105_at (t : Fin 32) (i : Fin 512) :
    val_main_v105 (F := Ideal) x0 x1 x2 (ix2 t i)
      = Ideal.exp (scR x0 x1 x2 t i i + Spec.cR (scR x0 x1 x2)) := by
  unfold val_main_v105
  rw [gather_diag _ _ v14_at0 v14_at1, v104_at]

/-- The row sums of the exponentials. -/
theorem v106_at (t : Fin 32) (i : Fin 512) :
    val_main_v106 (F := Ideal) x0 x1 x2 (ix2 t i)
      = ∑ j : Fin 512, Ideal.exp (scR x0 x1 x2 t i j + Spec.cR (scR x0 x1 x2)) := by
  rw [val_main_v106_apply, val_main_cst_23_apply]
  show Ideal.ofBits .f32 0x00000000#32 + _ = _
  rw [Ideal.ofBits_zero_f32, zero_add]
  refine Finset.sum_congr rfl fun k _ => ?_
  have e : idx_main_v106 (ix2 t i) k = ix3 t i k := funext fun a => by
    match a with
    | ⟨0, _⟩ => rfl
    | ⟨1, _⟩ => rfl
    | ⟨2, _⟩ => rfl
  rw [e, v104_at]

/-- The logarithm of the ratio. -/
theorem v110_at (t : Fin 32) (i : Fin 512) :
    val_main_v110 (F := Ideal) x0 x1 x2 (ix2 t i)
      = Ideal.log (Spec.ratio (scR x0 x1 x2) (Spec.cR (scR x0 x1 x2)) t i) := by
  rw [val_main_v110_apply, val_main_v109_apply, val_main_v108_apply, v105_at, v106_at, val_main_v107_apply,
    val_main_cst_24_apply, Ideal.hostUnary_log_def, Ideal.hostDivf_def, Ideal.addf_def, Ideal.ofBits_def]
  unfold Spec.ratio
  with_reducible rfl

end Chain

/-- The negated mean of the first direction. -/
theorem res1 (x0 x1 : (⟨S512x32x512, .f32⟩ : BufTy).Contents (Elt Ideal)) (x2 : (⟨S1024x512, .f32⟩ : BufTy).Contents (Elt Ideal)) :
    val_main_v113 (F := Ideal) x0 x1 x2 ix0
      = Spec.resR (Spec.scode (fun t b m => val_main_v79 (F := Ideal) x0 x2 (ix3 t b m))
          (fun t b m => val_main_v98 (F := Ideal) x1 x2 (ix3 t b m))) := by
  rw [val_main_v113_apply, val_main_v112_apply, val_main_v111_apply, val_main_cst_25_apply, val_main_cst_26_apply]
  show -(Ideal.div (Ideal.ofBits .f32 0x00000000#32 + ∑ j : S32x512.Idx, val_main_v110 (F := Ideal) x0 x1 x2 j)
      (Ideal.ofBits .f32 0x46800000#32)) = _
  rw [Ideal.ofBits_zero_f32, zero_add, sum_idx2]
  simp only [v110_at]
  rfl

end Cert.ReferenceIdeal.RefB1

end
-- ==== Proof.RefB2.lean ====
/-
  The reference's loss of the second direction (video assignment against audio logarithms) as the specification's
  function of the two time-major arrays it is computed from.
-/
import proofs.«400058_j87668872446318_3_alg».proof.Proof.Gen.ReferenceIdeal.Read
import proofs.«400058_j87668872446318_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.PureOps.Reduce

set_option maxRecDepth 16384

noncomputable section

open scoped BigOperators

namespace Cert.ReferenceIdeal.RefB2

open Idealize.ShloMosaic Idealize.ShloMosaic.TcCoe Idealize.ShloMosaic.ValueIdx Idealize.SL.Sem
open Cert.ReferenceIdeal Cert.ReferenceIdeal.Gen Cert.ReferenceIdeal.Read

/-! ## Index sets, words and the layout operations of the diagonal read, on their own -/

/-- The index set of a [32, 512, 512] array is the product of its coordinate ranges. -/
def idxEquiv3 : S32x512x512.Idx ≃ Fin 32 × Fin 512 × Fin 512 where
  toFun i := (i 0, i 1, i 2)
  invFun p := ix3 p.1 p.2.1 p.2.2
  left_inv i := (eq_ix3 i).symm
  right_inv _ := rfl

/-- A maximum over all indices of a [32, 512, 512] array is the maximum over the triples of coordinates. -/
theorem fold_idx3 (f : Fin 32 → Fin 512 → Fin 512 → EReal) (g : S32x512x512.Idx → EReal)
    (hg : ∀ t i j, g (ix3 t i j) = f t i j) :
    Finset.univ.fold max ⊥ g = Finset.univ.fold max ⊥ (fun p : Fin 32 × Fin 512 × Fin 512 => f p.1 p.2.1 p.2.2) := by
  rw [← Finset.map_univ_equiv idxEquiv3.symm, Finset.fold_map]
  congr 1
  funext p
  exact hg _ _ _

/-- The f32 word of minus infinity is the bottom element. -/
theorem ofBits_ninf : Ideal.ofBits .f32 0xFF800000#32 = (⊥ : EReal) := by simp [Ideal.ofBits, Ideal.ieee]

/-- A position below 512 is not negative as a signed word, so the wrap-around select keeps it. -/
theorem iota_sel (n : Nat) (hn : n < 512) :
    Scalar.select (IntOp.cmpi .slt (BitVec.ofNat 32 n) 0#32) (IntOp.addi (BitVec.ofNat 32 n) 512#32) (BitVec.ofNat 32 n)
      = BitVec.ofNat 32 n := by
  have h : IntOp.cmpi .slt (BitVec.ofNat 32 n) 0#32 = 0#1 := by
    apply eq_zero_of_ne_one
    intro h1
    have := (StableHlo.Predicate.slt_iff_toNat (a := BitVec.ofNat 32 n) (b := 0#32) (by simp [BitVec.toNat_ofNat]; omega) (by simp)).1 h1
    simp at this
  rw [h, select_zero]

/-- Column 0 of two [512, 1] columns joined side by side is the first column. -/
theorem concat_col0 (a b : IVec S512x1 32) (i : Fin 512) :
    concatenate S512x2 1 [⟨S512x1, a⟩, ⟨S512x1, b⟩] concatenates_S512x1_S512x1_S512x2_d1 (ix2 i (0 : Fin 2)) = a (ix2 i (0 : Fin 1)) := by
  refine concatenate_pair_apply_left (1 : Fin S512x2.rank) a b _ _ rfl _ ?_
  intro b
  match b with
  | ⟨0, _⟩ => rfl
  | ⟨1, _⟩ => rfl

/-- Column 1 is the second column. -/
theorem concat_col1 (a b : IVec S512x1 32) (i : Fin 512) :
    concatenate S512x2 1 [⟨S512x1, a⟩, ⟨S512x1, b⟩] concatenates_S512x1_S512x1_S512x2_d1 (ix2 i (1 : Fin 2)) = b (ix2 i (0 : Fin 1)) := by
  refine concatenate_pair_apply_right (1 : Fin S512x2.rank) a b _ _ rfl rfl _ ?_ ?_
  · intro b hb
    match b with
    | ⟨0, _⟩ => rfl
    | ⟨1, _⟩ => exact absurd rfl hb
  · rfl

local notation "GD" => gather_S32x512x512_S512x2_S32x512_0_12_n_n_12_1_3211

/-- Result position (t, i) reads component c of its start index at row i, column c of the start indices. -/
theorem gd_si (t : Fin 32) (i : Fin 512) (c : Fin 2) :
    GatherDims.siIdx GD (ix2 t i) ⟨c.val, c.isLt⟩ = ix2 i c := by
  funext b
  match b with
  | ⟨0, _⟩ => rfl
  | ⟨1, _⟩ => rfl

theorem gd_start1 (idx : IVec S512x2 32) (t : Fin 32) (i : Fin 512) :
    GatherDims.start GD (ix2 t i) idx 1 = min (idx (ix2 i 0)).toInt.toNat 511 := by
  have h1 : GatherDims.start GD (ix2 t i) idx 1
      = min (idx (GatherDims.siIdx GD (ix2 t i) ⟨0, by decide⟩)).toInt.toNat (512 - 1) := rfl
  exact h1.trans (congrArg (fun z => min (idx z).toInt.toNat 511) (gd_si t i 0))

theorem gd_start2 (idx : IVec S512x2 32) (t : Fin 32) (i : Fin 512) :
    GatherDims.start GD (ix2 t i) idx 2 = min (idx (ix2 i 1)).toInt.toNat 511 := by
  have h1 : GatherDims.start GD (ix2 t i) idx 2
      = min (idx (GatherDims.siIdx GD (ix2 t i) ⟨1, by decide⟩)).toInt.toNat (512 - 1) := rfl
  exact h1.trans (congrArg (fun z => min (idx z).toInt.toNat 511) (gd_si t i 1))

/-- The gather with slices [32, 1, 1] whose start indices at row i are (i, i) reads the diagonal: result (t, i) is
    the operand at (t, i, i). -/
theorem gather_diag {α : Type} (x : S32x512x512.Idx → α) (idx : IVec S512x2 32)
    (hidx : ∀ (i : Fin 512) (c : Fin 2), idx (ix2 i c) = BitVec.ofNat 32 i.val) (t : Fin 32) (i : Fin 512) :
    Host.gather GD x idx (ix2 t i) = x (ix3 t i i) := by
  unfold Host.gather
  congr 1
  funext a
  refine Fin.ext ?_
  have hi : (BitVec.ofNat 32 i.val).toInt.toNat = i.val := by
    have := i.isLt
    rw [StableHlo.Predicate.toInt_ofNat_small i.val (by omega)]
    simp
  have hlt := i.isLt
  match a with
  | ⟨0, _⟩ =>
    show GatherDims.start GD (ix2 t i) idx 0 + GatherDims.batchCoord GD (ix2 t i) 0 + GatherDims.offCoord GD (ix2 t i) 0 = t.val
    have h0 : GatherDims.start GD (ix2 t i) idx 0 = 0 := rfl
    have h1 : GatherDims.batchCoord GD (ix2 t i) 0 = 0 := rfl
    have h2 : GatherDims.offCoord GD (ix2 t i) 0 = t.val := rfl
    rw [h0, h1, h2]
    omega
  | ⟨1, _⟩ =>
    show GatherDims.start GD (ix2 t i) idx 1 + GatherDims.batchCoord GD (ix2 t i) 1 + GatherDims.offCoord GD (ix2 t i) 1 = i.val
    have h1 : GatherDims.batchCoord GD (ix2 t i) 1 = 0 := rfl
    have h2 : GatherDims.offCoord GD (ix2 t i) 1 = 0 := rfl
    rw [gd_start1, h1, h2, hidx, hi]
    omega
  | ⟨2, _⟩ =>
    show GatherDims.start GD (ix2 t i) idx 2 + GatherDims.batchCoord GD (ix2 t i) 2 + GatherDims.offCoord GD (ix2 t i) 2 = i.val
    have h1 : GatherDims.batchCoord GD (ix2 t i) 2 = 0 := rfl
    have h2 : GatherDims.offCoord GD (ix2 t i) 2 = 0 := rfl
    rw [gd_start2, h1, h2, hidx, hi]
    omega

/-! ## The chain from the scores to the negated mean -/

section Chain

variable (x0 x1 : (⟨S512x32x512, .f32⟩ : BufTy).Contents (Elt Ideal)) (x2 : (⟨S1024x512, .f32⟩ : BufTy).Contents (Elt Ideal))

/-- The scores of the second direction: the video assignment array against the audio logarithm array. -/
def Sc : Fin 32 → Fin 512 → Fin 512 → EReal :=
  Spec.scode (fun t b m => val_main_v95 (F := Ideal) x1 x2 (ix3 t b m))
    (fun t b m => val_main_v116 (F := Ideal) x0 x2 (ix3 t b m))

/-- The batched contraction at (t, i, j) is the score S t i j. -/
theorem v117_at (t : Fin 32) (i j : Fin 512) :
    val_main_v117 (F := Ideal) x0 x1 x2 (ix3 t i j) = Sc x0 x1 x2 t i j := by
  rw [val_main_v117_apply]
  unfold Sc Spec.scode
  refine Finset.sum_congr rfl fun k _ => ?_
  have el : lidx_main_v117 (ix3 t i j) k = ix3 t i k := by
    funext a; match a with | ⟨0, _⟩ => rfl | ⟨1, _⟩ => rfl | ⟨2, _⟩ => rfl
  have er : ridx_main_v117 (ix3 t i j) k = ix3 t j k := by
    funext a; match a with | ⟨0, _⟩ => rfl | ⟨1, _⟩ => rfl | ⟨2, _⟩ => rfl
  rw [el, er]

/-- The maximum of the negated scores over the whole array is the specification's shift. -/
theorem v119_eq : val_main_v119 (F := Ideal) x0 x1 x2 ix0 = Spec.cR (Sc x0 x1 x2) := by
  unfold val_main_v119
  have hy : ∀ t i j, val_main_v118 (F := Ideal) x0 x1 x2 (ix3 t i j) = -Sc x0 x1 x2 t i j := fun t i j => by
    rw [val_main_v118_apply, v117_at]; simp only [Ideal.hostNegf_def, Ideal.negf_def]
  generalize val_main_v118 (F := Ideal) x0 x1 x2 = y at hy
  rw [Host.reduce_eq_fold, Finset.filter_true_of_mem (fun i _ => (eq_ix0 _).trans (eq_ix0 _).symm),
    val_main_cst_28_apply, Ideal.ofBits_def, ofBits_ninf]
  unfold Spec.cR Spec.emax
  exact fold_idx3 (fun t i j => -Sc x0 x1 x2 t i j) y hy

/-- The exponential of the shifted score. -/
theorem v122_at (t : Fin 32) (i j : Fin 512) :
    val_main_v122 (F := Ideal) x0 x1 x2 (ix3 t i j)
      = Ideal.exp (Sc x0 x1 x2 t i j + Spec.cR (Sc x0 x1 x2)) := by
  rw [val_main_v122_apply, val_main_v121_apply, val_main_v120_apply, v117_at,
    show idx_main_v120 (ix3 t i j) = ix0 from rfl, v119_eq]
  simp only [Ideal.hostUnary_exp_def, Ideal.addf_def]

/-- The start indices of the diagonal read: row i holds (i, i). -/
theorem start_at0 (i : Fin 512) : val_main_call1_v14 (F := Ideal) (ix2 i (0 : Fin 2)) = BitVec.ofNat 32 i.val := by
  unfold val_main_call1_v14
  refine (concat_col0 _ _ i).trans ?_
  rw [val_main_call1_v12_apply, val_main_call1_v6_apply, val_main_call1_v3_apply, val_main_call1_v5_apply,
    val_main_call1_v0_apply, val_main_call1_v2_apply, val_main_call1_v4_apply, val_main_call1_c_apply,
    val_main_call1_c_0_apply]
  exact iota_sel i.val i.isLt

theorem start_at1 (i : Fin 512) : val_main_call1_v14 (F := Ideal) (ix2 i (1 : Fin 2)) = BitVec.ofNat 32 i.val := by
  unfold val_main_call1_v14
  refine (concat_col1 _ _ i).trans ?_
  rw [val_main_call1_v13_apply, val_main_call1_v11_apply, val_main_call1_v8_apply, val_main_call1_v10_apply,
    val_main_call1_v1_apply, val_main_call1_v7_apply, val_main_call1_v9_apply, val_main_call1_c_1_apply,
    val_main_call1_c_2_apply]
  exact iota_sel i.val i.isLt

theorem start_at (i : Fin 512) (c : Fin 2) : val_main_call1_v14 (F := Ideal) (ix2 i c) = BitVec.ofNat 32 i.val := by
  match c with
  | ⟨0, _⟩ => exact start_at0 i
  | ⟨1, _⟩ => exact start_at1 i

/-- The diagonal read at (t, i) is the exponential array at (t, i, i). -/
theorem v123_at (t : Fin 32) (i : Fin 512) :
    val_main_v123 (F := Ideal) x0 x1 x2 (ix2 t i) = val_main_v122 (F := Ideal) x0 x1 x2 (ix3 t i i) := by
  unfold val_main_v123
  exact gather_diag _ _ start_at t i

/-- The row sums of the exponentials. -/
theorem v124_at (t : Fin 32) (i : Fin 512) :
    val_main_v124 (F := Ideal) x0 x1 x2 (ix2 t i)
      = ∑ j : Fin 512, Ideal.exp (Sc x0 x1 x2 t i j + Spec.cR (Sc x0 x1 x2)) := by
  rw [val_main_v124_apply, val_main_cst_29_apply, Ideal.ofBits_def, Ideal.ofBits_zero_f32, zero_add]
  refine Finset.sum_congr rfl fun k _ => ?_
  have e : idx_main_v124 (ix2 t i) k = ix3 t i k := by
    funext a; match a with | ⟨0, _⟩ => rfl | ⟨1, _⟩ => rfl | ⟨2, _⟩ => rfl
  rw [e, v122_at]

/-- The logarithm of the ratio of the diagonal term to the row sum plus 1e-5. -/
theorem v128_at (t : Fin 32) (i : Fin 512) :
    val_main_v128 (F := Ideal) x0 x1 x2 (ix2 t i)
      = Ideal.log (Spec.ratio (Sc x0 x1 x2) (Spec.cR (Sc x0 x1 x2)) t i) := by
  rw [val_main_v128_apply, val_main_v127_apply, val_main_v126_apply, v123_at, v122_at, v124_at,
    val_main_v125_apply, val_main_cst_30_apply]
  simp only [Ideal.hostUnary_log_def, Ideal.hostDivf_def, Ideal.addf_def, Ideal.ofBits_def]
  unfold Spec.ratio
  rfl

/-- The negated mean over the 32 · 512 rows. -/
theorem v131_eq : val_main_v131 (F := Ideal) x0 x1 x2 ix0 = Spec.resR (Sc x0 x1 x2) := by
  rw [val_main_v131_apply, val_main_v130_apply, val_main_v129_apply, val_main_cst_31_apply, val_main_cst_32_apply,
    Ideal.ofBits_def, Ideal.ofBits_zero_f32, zero_add, sum_idx2]
  simp only [v128_at]
  rfl

end Chain

/-- The negated mean of the second direction. -/
theorem res2 (x0 x1 : (⟨S512x32x512, .f32⟩ : BufTy).Contents (Elt Ideal)) (x2 : (⟨S1024x512, .f32⟩ : BufTy).Contents (Elt Ideal)) :
    val_main_v131 (F := Ideal) x0 x1 x2 ix0
      = Spec.resR (Spec.scode (fun t b m => val_main_v95 (F := Ideal) x1 x2 (ix3 t b m))
          (fun t b m => val_main_v116 (F := Ideal) x0 x2 (ix3 t b m))) :=
  v131_eq x0 x1 x2

end Cert.ReferenceIdeal.RefB2

end
-- ==== Proof.RefValue.lean ====
/-
  The reference's result as the specification's function of the three argument arrays: half the sum of the two
  directions' negated means.
-/
import proofs.«400058_j87668872446318_3_alg».proof.Proof.Gen.ReferenceIdeal.Read
import proofs.«400058_j87668872446318_3_alg».proof.Proof.Spec
import proofs.«400058_j87668872446318_3_alg».proof.Proof.RefAa
import proofs.«400058_j87668872446318_3_alg».proof.Proof.RefAv
import proofs.«400058_j87668872446318_3_alg».proof.Proof.RefB1
import proofs.«400058_j87668872446318_3_alg».proof.Proof.RefB2
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Read

/-- The reference's result. -/
theorem ref_value (x0 x1 : (⟨S512x32x512, .f32⟩ : BufTy).Contents (Elt Ideal)) (x2 : (⟨S1024x512, .f32⟩ : BufTy).Contents (Elt Ideal)) :
    val_main_v133 (F := Ideal) x0 x1 x2 ix0
      = Spec.lossR (fun b t k => x0 (ix3 b t k)) (fun b t k => x1 (ix3 b t k)) (fun j k => x2 (ix2 j k)) := by
  have hAa : (fun t b m => val_main_v79 (F := Ideal) x0 x2 (ix3 t b m))
      = Spec.adjArrR (fun j' k => x2 (ix2 j' k)) (fun b' t' k => x0 (ix3 b' t' k)) :=
    funext fun t => funext fun b => funext fun m => RefAa.adj_a x0 x2 t b m
  have hLa : (fun t b m => val_main_v116 (F := Ideal) x0 x2 (ix3 t b m))
      = Spec.logArrR (fun j' k => x2 (ix2 j' k)) (fun b' t' k => x0 (ix3 b' t' k)) :=
    funext fun t => funext fun b => funext fun m => RefAa.log_a x0 x2 t b m
  have hAv : (fun t b m => val_main_v95 (F := Ideal) x1 x2 (ix3 t b m))
      = Spec.adjArrR (fun j' k => x2 (ix2 j' k)) (fun b' t' k => x1 (ix3 b' t' k)) :=
    funext fun t => funext fun b => funext fun m => RefAv.adj_v x1 x2 t b m
  have hLv : (fun t b m => val_main_v98 (F := Ideal) x1 x2 (ix3 t b m))
      = Spec.logArrR (fun j' k => x2 (ix2 j' k)) (fun b' t' k => x1 (ix3 b' t' k)) :=
    funext fun t => funext fun b => funext fun m => RefAv.log_v x1 x2 t b m
  rw [val_main_v133_apply, val_main_v132_apply, val_main_cst_33_apply, RefB1.res1, RefB2.res2, hAa, hLa, hAv, hLv]
  rfl

end Cert.ReferenceIdeal.RefValue

end
-- ==== Proof.lean ====
/-
  The claim of this certificate.  The kernel program computes a two-direction contrastive loss of audio and video
  tokens against a codebook in six regions (two distance-and-softmax regions, and per direction a score region and a
  closing region) with a few host operations between them; the reference computes the same loss with whole-array
  operations.  On finite inputs both results are one extended real:

  * the kernel's result buffer holds `Spec.lossK` of the three argument arrays (the regions' arrays followed from the
    launch to the return);
  * the reference's result buffer holds `Spec.lossR` of them (its operations read one at a time);
  * `Spec.lossK = Spec.lossR` on real-valued arrays: `log (e + ε s) - log s = log (e / s + ε)`, `exp (2 y) = (exp y)²`,
    `-min = max ∘ -`, and `(Σ -l₁ + Σ -l₂) / 32768 = ½ (-(Σ l₁) / 16384 + -(Σ l₂) / 16384)`;
  * the precondition makes the arrays real-valued.

  The three frames are the generated frame certificates (the reference's is its run with the result dropped); the ideal
  pass rewrote nothing, so the idealization claim is trivial.
-/
import proofs.«400058_j87668872446318_3_alg».proof.Defs
import proofs.«400058_j87668872446318_3_alg».proof.Proof.Gen.Kernel
import proofs.«400058_j87668872446318_3_alg».proof.Proof.Gen.Kernel.Frame
import proofs.«400058_j87668872446318_3_alg».proof.Proof.Gen.KernelIdeal
import proofs.«400058_j87668872446318_3_alg».proof.Proof.Gen.KernelIdeal.Frame
import proofs.«400058_j87668872446318_3_alg».proof.Proof.Gen.ReferenceIdeal
import proofs.«400058_j87668872446318_3_alg».proof.Proof.Gen.ReferenceIdeal.Run
import proofs.«400058_j87668872446318_3_alg».proof.Proof.Gen.ReferenceIdeal.Read
import proofs.«400058_j87668872446318_3_alg».proof.Proof.Gen.Pre_finite_inputs
import proofs.«400058_j87668872446318_3_alg».proof.Proof.Spec
import proofs.«400058_j87668872446318_3_alg».proof.Proof.Bridge
import proofs.«400058_j87668872446318_3_alg».proof.Proof.Finite
import proofs.«400058_j87668872446318_3_alg».proof.Proof.RunValue
import proofs.«400058_j87668872446318_3_alg».proof.Proof.KValue
import proofs.«400058_j87668872446318_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same extended real in their result buffers. -/
theorem algebraic : Cert.algebraic_KernelIdeal_ReferenceIdeal := by
  intro m ρ m' ρ' hpre hagree
  refine ⟨fun c => fun _ => Spec.lossK (Cert.KernelIdeal.KValue.Xa m c) (Cert.KernelIdeal.KValue.Xv m c) (Cert.KernelIdeal.KValue.Ecb m c), ?_, ?_⟩
  · exact (θ_run Cert.KernelIdeal.defs _ _).mono
      (fun r h c => ⟨(h c).1.trans (Cert.KernelIdeal.KValue.result_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2⟩ := Cert.Finite.real_of_fn _ _ _ (hpre c)
    rw [Cert.ReferenceIdeal.Read.val_main_v133_eq, (hagree c).1, (hagree c).2.1, (hagree c).2.2]
    funext i
    rw [eq_ix0 i, Cert.ReferenceIdeal.RefValue.ref_value]
    exact (Spec.lossK_eq_lossR _ _ _ (fun b t k => h0 _) (fun b t k => h1 _) (fun j k => h2 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
